-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)) →
    ∃ (v0 : (c : Dev Cert.KernelIdeal.nD) → Buf (Elt Ideal) ((c.tc : Thread Cert.KernelIdeal.nD Cert.KernelIdeal.τ).loc Cert.KernelIdeal.main_v7)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v46) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4096x50257 : Shape := ⟨2, ![4096, 50257]⟩
abbrev S4096 : Shape := ⟨1, ![4096]⟩
abbrev S512 : Shape := ⟨1, ![512]⟩
abbrev S_ : Shape := ⟨0, ![]⟩

class Facts : Prop where
  bcast_S_S4096x50257 : S_.BroadcastsInDim S4096x50257 (![] : Fin 0 → Fin S4096x50257.rank)
  reducesTo_S4096x50257_S_d0_1 : S4096x50257.ReducesTo [0, 1] S_
  h_S_ : 0 < S_.numel
  bcast_S_S512 : S_.BroadcastsInDim S512 (![] : Fin 0 → Fin S512.rank)
  reducesTo_S512_S_d0 : S512.ReducesTo [0] S_

variable [Facts]

def fn {F : FTy → Type} [FloatOps F] (main_arg0 : FVec F S4096x50257 .f32) (main_arg1 : IVec S4096 32) (main_arg2 : IVec S512 32) : IVec S_ 1 :=
  let main_v0 : FVec F S4096x50257 .f32 := Host.absf main_arg0
  let main_cst : FVec F S_ .f32 := constant S_ .f32 0x7F800000#32
  let main_v1 : FVec F S4096x50257 .f32 := broadcastInDim S4096x50257 ![] bcast_S_S4096x50257 main_cst
  let main_v2 : IVec S4096x50257 1 := cmpf .olt main_v0 main_v1
  let main_c : IVec S_ 1 := constantI S_ 1 1#1
  let main_v3 : IVec S_ 1 := (fun x v => Host.reduce IntOp.andi x v reducesTo_S4096x50257_S_d0_1 h_S_) main_v2 main_c
  let main_c_0 : IVec S_ 32 := constantI S_ 32 0#32
  let main_v4 : IVec S512 32 := broadcastInDim S512 ![] bcast_S_S512 main_c_0
  let main_v5 : IVec S512 1 := cmpi .sge main_arg2 main_v4
  let main_c_1 : IVec S_ 32 := constantI S_ 32 50257#32
  let main_v6 : IVec S512 32 := broadcastInDim S512 ![] bcast_S_S512 main_c_1
  let main_v7 : IVec S512 1 := cmpi .slt main_arg2 main_v6
  let main_v8 : IVec S512 1 := andi main_v5 main_v7
  let main_c_2 : IVec S_ 1 := constantI S_ 1 1#1
  let main_v9 : IVec S_ 1 := (fun x v => Host.reduce IntOp.andi x v reducesTo_S512_S_d0 h_S_) main_v8 main_c_2
  let main_v10 : IVec S_ 1 := andi main_v3 main_v9
  main_v10
-- ==== Kernel.lean ====
abbrev S4096x50257 : Shape := ⟨2, ![4096, 50257]⟩
abbrev S4096 : Shape := ⟨1, ![4096]⟩
abbrev S512 : Shape := ⟨1, ![512]⟩
abbrev S4096x1 : Shape := ⟨2, ![4096, 1]⟩
abbrev S1x512 : Shape := ⟨2, ![1, 512]⟩
abbrev S_ : Shape := ⟨0, ![]⟩
abbrev S512x1 : Shape := ⟨2, ![512, 1]⟩
abbrev S1 : Shape := ⟨1, ![1]⟩
abbrev S1x1 : Shape := ⟨2, ![1, 1]⟩
abbrev S4096x512 : Shape := ⟨2, ![4096, 512]⟩
abbrev S4096x1x1 : Shape := ⟨3, ![4096, 1, 1]⟩
abbrev S1x1x1 : Shape := ⟨3, ![1, 1, 1]⟩
abbrev S512x8192 : Shape := ⟨2, ![512, 8192]⟩
abbrev S512x512 : Shape := ⟨2, ![512, 512]⟩

abbrev nBuf : Space → Nat
  | .hbm => 56
  | .vmem => 12
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S512, .i32⟩
  | .hbm, ⟨3, _⟩ => ⟨S4096x1, .i32⟩
  | .hbm, ⟨4, _⟩ => ⟨S1x512, .i32⟩
  | .hbm, ⟨5, _⟩ => ⟨S_, .i32⟩
  | .hbm, ⟨6, _⟩ => ⟨S512, .i32⟩
  | .hbm, ⟨7, _⟩ => ⟨S512, .i1⟩
  | .hbm, ⟨8, _⟩ => ⟨S_, .i32⟩
  | .hbm, ⟨9, _⟩ => ⟨S512, .i32⟩
  | .hbm, ⟨10, _⟩ => ⟨S512, .i32⟩
  | .hbm, ⟨11, _⟩ => ⟨S512, .i32⟩
  | .hbm, ⟨12, _⟩ => ⟨S512x1, .i32⟩
  | .hbm, ⟨13, _⟩ => ⟨S1, .i32⟩
  | .hbm, ⟨14, _⟩ => ⟨S_, .i32⟩
  | .hbm, ⟨15, _⟩ => ⟨S512x1, .i32⟩
  | .hbm, ⟨16, _⟩ => ⟨S512x1, .i1⟩
  | .hbm, ⟨17, _⟩ => ⟨S1x1, .i32⟩
  | .hbm, ⟨18, _⟩ => ⟨S512x1, .i32⟩
  | .hbm, ⟨19, _⟩ => ⟨S512x1, .i1⟩
  | .hbm, ⟨20, _⟩ => ⟨S512x1, .i1⟩
  | .hbm, ⟨21, _⟩ => ⟨S_, .i1⟩
  | .hbm, ⟨22, _⟩ => ⟨S512, .i1⟩
  | .hbm, ⟨23, _⟩ => ⟨S4096x512, .f32⟩
  | .hbm, ⟨24, _⟩ => ⟨S4096x512, .i1⟩
  | .hbm, ⟨25, _⟩ => ⟨S_, .f32⟩
  | .hbm, ⟨26, _⟩ => ⟨S4096x512, .f32⟩
  | .hbm, ⟨27, _⟩ => ⟨S4096x512, .f32⟩
  | .hbm, ⟨28, _⟩ => ⟨S_, .i32⟩
  | .hbm, ⟨29, _⟩ => ⟨S4096x1, .i32⟩
  | .hbm, ⟨30, _⟩ => ⟨S4096x1, .i1⟩
  | .hbm, ⟨31, _⟩ => ⟨S_, .i32⟩
  | .hbm, ⟨32, _⟩ => ⟨S4096x1, .i32⟩
  | .hbm, ⟨33, _⟩ => ⟨S4096x1, .i32⟩
  | .hbm, ⟨34, _⟩ => ⟨S4096x1, .i32⟩
  | .hbm, ⟨35, _⟩ => ⟨S4096x1x1, .i32⟩
  | .hbm, ⟨36, _⟩ => ⟨S1, .i32⟩
  | .hbm, ⟨37, _⟩ => ⟨S_, .i32⟩
  | .hbm, ⟨38, _⟩ => ⟨S4096x1x1, .i32⟩
  | .hbm, ⟨39, _⟩ => ⟨S4096x1x1, .i1⟩
  | .hbm, ⟨40, _⟩ => ⟨S1x1x1, .i32⟩
  | .hbm, ⟨41, _⟩ => ⟨S4096x1x1, .i32⟩
  | .hbm, ⟨42, _⟩ => ⟨S4096x1x1, .i1⟩
  | .hbm, ⟨43, _⟩ => ⟨S4096x1x1, .i1⟩
  | .hbm, ⟨44, _⟩ => ⟨S_, .i1⟩
  | .hbm, ⟨45, _⟩ => ⟨S4096x1, .i1⟩
  | .hbm, ⟨46, _⟩ => ⟨S4096x1, .f32⟩
  | .hbm, ⟨47, _⟩ => ⟨S_, .f32⟩
  | .hbm, ⟨48, _⟩ => ⟨S4096x1, .f32⟩
  | .hbm, ⟨49, _⟩ => ⟨S4096x1, .f32⟩
  | .hbm, ⟨50, _⟩ => ⟨S4096x1, .f32⟩
  | .hbm, ⟨51, _⟩ => ⟨S_, .f32⟩
  | .hbm, ⟨52, _⟩ => ⟨S_, .f32⟩
  | .hbm, ⟨53, _⟩ => ⟨S_, .f32⟩
  | .hbm, ⟨54, _⟩ => ⟨S_, .f32⟩
  | .hbm, ⟨55, _⟩ => ⟨S_, .f32⟩
  | .local _ .vmem, ⟨0, _⟩ => ⟨S512x8192, .f32⟩
  | .local _ .vmem, ⟨1, _⟩ => ⟨S512x8192, .f32⟩
  | .local _ .vmem, ⟨2, _⟩ => ⟨S512x1, .i32⟩
  | .local _ .vmem, ⟨3, _⟩ => ⟨S512x1, .i32⟩
  | .local _ .vmem, ⟨4, _⟩ => ⟨S1x512, .i32⟩
  | .local _ .vmem, ⟨5, _⟩ => ⟨S512x512, .f32⟩
  | .local _ .vmem, ⟨6, _⟩ => ⟨S512x512, .f32⟩
  | .local _ .vmem, ⟨7, _⟩ => ⟨S512x1, .f32⟩
  | .local _ .vmem, ⟨8, _⟩ => ⟨S512x1, .f32⟩
  | .local _ .vmem, ⟨9, _⟩ => ⟨S512x1, .f32⟩
  | .local _ .vmem, ⟨10, _⟩ => ⟨S512x1, .f32⟩
  | .local _ .vmem, ⟨11, _⟩ => ⟨S512x1, .f32⟩
  | _, _ => ⟨S4096x50257, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_v0 : Ref sig .tc := ⟨.hbm, 3, rfl⟩
abbrev main_v1 : Ref sig .tc := ⟨.hbm, 4, rfl⟩
abbrev main_call0_c : Ref sig .tc := ⟨.hbm, 5, rfl⟩
abbrev main_call0_v0 : Ref sig .tc := ⟨.hbm, 6, rfl⟩
abbrev main_call0_v1 : Ref sig .tc := ⟨.hbm, 7, rfl⟩
abbrev main_call0_c_0 : Ref sig .tc := ⟨.hbm, 8, rfl⟩
abbrev main_call0_v2 : Ref sig .tc := ⟨.hbm, 9, rfl⟩
abbrev main_call0_v3 : Ref sig .tc := ⟨.hbm, 10, rfl⟩
abbrev main_call0_v4 : Ref sig .tc := ⟨.hbm, 11, rfl⟩
abbrev main_call0_v5 : Ref sig .tc := ⟨.hbm, 12, rfl⟩
abbrev main_call0_c_1 : Ref sig .tc := ⟨.hbm, 13, rfl⟩
abbrev main_call0_c_2 : Ref sig .tc := ⟨.hbm, 14, rfl⟩
abbrev main_call0_v6 : Ref sig .tc := ⟨.hbm, 15, rfl⟩
abbrev main_call0_v7 : Ref sig .tc := ⟨.hbm, 16, rfl⟩
abbrev main_call0_v8 : Ref sig .tc := ⟨.hbm, 17, rfl⟩
abbrev main_call0_v9 : Ref sig .tc := ⟨.hbm, 18, rfl⟩
abbrev main_call0_v10 : Ref sig .tc := ⟨.hbm, 19, rfl⟩
abbrev main_call0_v11 : Ref sig .tc := ⟨.hbm, 20, rfl⟩
abbrev main_call0_c_3 : Ref sig .tc := ⟨.hbm, 21, rfl⟩
abbrev main_call0_v12 : Ref sig .tc := ⟨.hbm, 22, rfl⟩
abbrev main_call0_v13 : Ref sig .tc := ⟨.hbm, 23, rfl⟩
abbrev main_call0_v14 : Ref sig .tc := ⟨.hbm, 24, rfl⟩
abbrev main_call0_cst : Ref sig .tc := ⟨.hbm, 25, rfl⟩
abbrev main_call0_v15 : Ref sig .tc := ⟨.hbm, 26, rfl⟩
abbrev main_v2 : Ref sig .tc := ⟨.hbm, 27, rfl⟩
abbrev main_call1_c : Ref sig .tc := ⟨.hbm, 28, rfl⟩
abbrev main_call1_v0 : Ref sig .tc := ⟨.hbm, 29, rfl⟩
abbrev main_call1_v1 : Ref sig .tc := ⟨.hbm, 30, rfl⟩
abbrev main_call1_c_0 : Ref sig .tc := ⟨.hbm, 31, rfl⟩
abbrev main_call1_v2 : Ref sig .tc := ⟨.hbm, 32, rfl⟩
abbrev main_call1_v3 : Ref sig .tc := ⟨.hbm, 33, rfl⟩
abbrev main_call1_v4 : Ref sig .tc := ⟨.hbm, 34, rfl⟩
abbrev main_call1_v5 : Ref sig .tc := ⟨.hbm, 35, rfl⟩
abbrev main_call1_c_1 : Ref sig .tc := ⟨.hbm, 36, rfl⟩
abbrev main_call1_c_2 : Ref sig .tc := ⟨.hbm, 37, rfl⟩
abbrev main_call1_v6 : Ref sig .tc := ⟨.hbm, 38, rfl⟩
abbrev main_call1_v7 : Ref sig .tc := ⟨.hbm, 39, rfl⟩
abbrev main_call1_v8 : Ref sig .tc := ⟨.hbm, 40, rfl⟩
abbrev main_call1_v9 : Ref sig .tc := ⟨.hbm, 41, rfl⟩
abbrev main_call1_v10 : Ref sig .tc := ⟨.hbm, 42, rfl⟩
abbrev main_call1_v11 : Ref sig .tc := ⟨.hbm, 43, rfl⟩
abbrev main_call1_c_3 : Ref sig .tc := ⟨.hbm, 44, rfl⟩
abbrev main_call1_v12 : Ref sig .tc := ⟨.hbm, 45, rfl⟩
abbrev main_call1_v13 : Ref sig .tc := ⟨.hbm, 46, rfl⟩
abbrev main_call1_cst : Ref sig .tc := ⟨.hbm, 47, rfl⟩
abbrev main_call1_v14 : Ref sig .tc := ⟨.hbm, 48, rfl⟩
abbrev main_v3 : Ref sig .tc := ⟨.hbm, 49, rfl⟩
abbrev main_v4 : Ref sig .tc := ⟨.hbm, 50, rfl⟩
abbrev main_cst : Ref sig .tc := ⟨.hbm, 51, rfl⟩
abbrev main_v5 : Ref sig .tc := ⟨.hbm, 52, rfl⟩
abbrev main_v6 : Ref sig .tc := ⟨.hbm, 53, rfl⟩
abbrev main_cst_0 : Ref sig .tc := ⟨.hbm, 54, rfl⟩
abbrev main_v7 : Ref sig .tc := ⟨.hbm, 55, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg3_1 : Ref sig .tc := ⟨.vmem, 6, rfl⟩
abbrev cc0_stg4_0 : Ref sig .tc := ⟨.vmem, 7, rfl⟩
abbrev cc0_stg4_1 : Ref sig .tc := ⟨.vmem, 8, rfl⟩
abbrev cc0_stg5_0 : Ref sig .tc := ⟨.vmem, 9, rfl⟩
abbrev cc0_stg5_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem3_1 : DmaSem sig := 6
abbrev cc0_sem4_0 : DmaSem sig := 7
abbrev cc0_sem4_1 : DmaSem sig := 8
abbrev cc0_sem5_0 : DmaSem sig := 9
abbrev cc0_sem5_1 : DmaSem sig := 10

abbrev nD : Nat := 1
abbrev τ : Topo := Topo.v7x

variable {F : FTy → Type} [FloatOps F]

abbrev grid0 : Pipeline.Grid := ⟨2, ![8, 7], ![false, false]⟩

def k0_cond3 (i : grid0.Coords) : BitVec 1 :=
  let arg1 : BitVec 32 := BitVec.ofNat 32 (i 1).val
  let c6_i32 : BitVec 32 := 6#32
  let v0 : BitVec 1 := Scalar.cmpi .eq arg1 c6_i32
  let v8 : BitVec 32 := Scalar.extui v0
  let c0_i32_3 : BitVec 32 := 0#32
  let v9 : BitVec 1 := Scalar.cmpi .ne v8 c0_i32_3
  v9

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

abbrev stage0_0 : Fin 2 → Memref sig .tc .vmem S512x8192 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, true]

abbrev stage0_1 : Fin 2 → Memref sig .tc .vmem S512x1 .i32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true, false]

abbrev stage0_2 : Fin 1 → Memref sig .tc .vmem S1x512 .i32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false, false]

abbrev stage0_3 : Fin 2 → Memref sig .tc .vmem S512x512 .f32 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true, false]

abbrev stage0_4 : Fin 2 → Memref sig .tc .vmem S512x1 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true, false]

abbrev stage0_5 : Fin 2 → Memref sig .tc .vmem S512x1 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, false]

class Facts₀ : Prop where
  shapeCasts_S4096_S4096x1 : S4096.ShapeCasts S4096x1
  shapeCasts_S512_S1x512 : S512.ShapeCasts S1x512
  bcast_S_S512 : S_.BroadcastsInDim S512 (![] : Fin 0 → Fin S512.rank)
  bcast_S512_S512x1_0 : S512.BroadcastsInDim S512x1 (![0] : Fin 1 → Fin S512x1.rank)
  bcast_S_S512x1 : S_.BroadcastsInDim S512x1 (![] : Fin 0 → Fin S512x1.rank)
  bcast_S1_S1x1_1 : S1.BroadcastsInDim S1x1 (![1] : Fin 1 → Fin S1x1.rank)
  bcast_S1x1_S512x1_0_1 : S1x1.BroadcastsInDim S512x1 (![0, 1] : Fin 2 → Fin S512x1.rank)
  reducesTo_S512x1_S512_d1 : S512x1.ReducesTo [1] S512
  h_S_ : 0 < S_.numel
  bcast_S512_S4096x512_1 : S512.BroadcastsInDim S4096x512 (![1] : Fin 1 → Fin S4096x512.rank)
  bcast_S_S4096x512 : S_.BroadcastsInDim S4096x512 (![] : Fin 0 → Fin S4096x512.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  inb_S512x1_S512x1_0_0 : ∀ a, (![0, 0] : Fin 2 → Nat) a + S512x1.size a ≤ S512x1.size a
  h_S512x1 : 0 < S512x1.numel
  shapeCasts_S512x1_S512x1 : S512x1.ShapeCasts S512x1
  inb_S512x8192_S512x8192_0_0 : ∀ a, (![0, 0] : Fin 2 → Nat) a + S512x8192.size a ≤ S512x8192.size a
  h_S512x8192 : 0 < S512x8192.numel
  reduces_S512x8192_S512 : S512x8192.Reduces [1] S512
  shapeCasts_S512_S512x1 : S512.ShapeCasts S512x1
  iota_S512x8192_d1_w32 : S512x8192.Iotas .tc 32 [1]
  inb_S512x512_S512x512_0_0 : ∀ a, (![0, 0] : Fin 2 → Nat) a + S512x512.size a ≤ S512x512.size a
  h_S512x512 : 0 < S512x512.numel
  shapeCasts_S512x512_S512x512 : S512x512.ShapeCasts S512x512
  broadcasts_S512x1_S512x512 : S512x1.Broadcasts S512x512
  inb_S1x512_S1x512_0_0 : ∀ a, (![0, 0] : Fin 2 → Nat) a + S1x512.size a ≤ S1x512.size a
  h_S1x512 : 0 < S1x512.numel
  shapeCasts_S1x512_S1x512 : S1x512.ShapeCasts S1x512
  broadcasts_S1x512_S512x512 : S1x512.Broadcasts S512x512
  natLt_1_32 : 1 < 32
  reduces_S512x512_S512 : S512x512.Reduces [1] S512
  reducesTo_S4096x1_S_d0_1 : S4096x1.ReducesTo [0, 1] S_
  gather_S4096x50257_S512x1_S4096x512_0_1_n_n_1_1_40961_wf : GatherDims.WF S4096x50257 S512x1 S4096x512 [0] [1] [] [1] [] 1 ![4096, 1]
  gather_S4096x50257_S4096x1x1_S4096x1_n_1_0_0_1_2_11_wf : GatherDims.WF S4096x50257 S4096x1x1 S4096x1 [] [1] [0] [1] [0] 2 ![1, 1]
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hstart0_0 : ∀ (i : grid0.Coords) a, cc0_transform_0 i a * S512x8192.size a < S4096x50257.size a
  hwx0_0 : ∀ i : grid0.Coords, EltTy.bits .f32 = 32 ∨ (Rect.unit (s := S4096x50257) (fun a => cc0_transform_0 i a * S512x8192.size a) (fun a => (Pipeline.Clip.of (cc0_transform_0 i a) (S512x8192.size a) (S4096x50257.size a)).extent (S512x8192.size a)) fun a => Pipeline.Clip.inb (Pipeline.Clip.ok_of (hstart0_0 i a))).WholeWords (EltTy.packing .f32)
  hwxs0_0 : ∀ i : grid0.Coords, EltTy.bits .f32 = 32 ∨ (Rect.unit (s := S512x8192) (fun _ => 0) (fun a => (Pipeline.Clip.of (cc0_transform_0 i a) (S512x8192.size a) (S4096x50257.size a)).extent (S512x8192.size a)) fun a => (Nat.zero_add _).trans_le (Pipeline.Clip.extent_le (Pipeline.Clip.ok_of (hstart0_0 i a)))).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1.size a ≤ S4096x1.size a
  hwx0_1 : ∀ i : grid0.Coords, EltTy.bits .i32 = 32 ∨ (Rect.block (s := S4096x1) S512x1.size (cc0_transform_1 i) (hinb0_1 i)).WholeWords (EltTy.packing .i32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S1x512.size a ≤ S1x512.size a
  hwx0_2 : ∀ i : grid0.Coords, EltTy.bits .i32 = 32 ∨ (Rect.block (s := S1x512) S1x512.size (cc0_transform_2 i) (hinb0_2 i)).WholeWords (EltTy.packing .i32)
  hstage0_3 : ∀ j, (stage0_3 j).IsWhole
  nbuf0_3 : grid0.bufCount reads0_3 false = 2
  hreads0_3 : ∀ i i' : grid0.Coords, (∀ a, reads0_3 a = true → i a = i' a) → cc0_transform_3 i = cc0_transform_3 i'
  hinb0_3 : ∀ (i : grid0.Coords) a, (cc0_transform_3 i a + 1) * S512x512.size a ≤ S4096x512.size a
  hwx0_3 : ∀ i : grid0.Coords, EltTy.bits .f32 = 32 ∨ (Rect.block (s := S4096x512) S512x512.size (cc0_transform_3 i) (hinb0_3 i)).WholeWords (EltTy.packing .f32)
  hstage0_4 : ∀ j, (stage0_4 j).IsWhole
  nbuf0_4 : grid0.bufCount reads0_4 false = 2
  hreads0_4 : ∀ i i' : grid0.Coords, (∀ a, reads0_4 a = true → i a = i' a) → cc0_transform_4 i = cc0_transform_4 i'
  hinb0_4 : ∀ (i : grid0.Coords) a, (cc0_transform_4 i a + 1) * S512x1.size a ≤ S4096x1.size a
  hwx0_4 : ∀ i : grid0.Coords, EltTy.bits .f32 = 32 ∨ (Rect.block (s := S4096x1) S512x1.size (cc0_transform_4 i) (hinb0_4 i)).WholeWords (EltTy.packing .f32)
  hstage0_5 : ∀ j, (stage0_5 j).IsWhole
  nbuf0_5 : grid0.bufCount reads0_5 false = 2
  hreads0_5 : ∀ i i' : grid0.Coords, (∀ a, reads0_5 a = true → i a = i' a) → cc0_transform_5 i = cc0_transform_5 i'
  hinb0_5 : ∀ (i : grid0.Coords) a, (cc0_transform_5 i a + 1) * S512x1.size a ≤ S4096x1.size a
  hwx0_5 : ∀ i : grid0.Coords, EltTy.bits .f32 = 32 ∨ (Rect.block (s := S4096x1) S512x1.size (cc0_transform_5 i) (hinb0_5 i)).WholeWords (EltTy.packing .f32)

variable [Facts₀]

def gather_S4096x50257_S512x1_S4096x512_0_1_n_n_1_1_40961 : GatherDims S4096x50257 S512x1 S4096x512 where
  offsetDims := [0]
  collapsedSliceDims := [1]
  operandBatchingDims := []
  startIndicesBatchingDims := []
  startIndexMap := [1]
  indexVectorDim := 1
  sliceSizes := ![4096, 1]
  wf := gather_S4096x50257_S512x1_S4096x512_0_1_n_n_1_1_40961_wf
def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf

abbrev win0_0 : Pipeline.Window sig grid0 :=
  Pipeline.Window.ofSpecClip (Memref.whole main_arg0) S512x8192.size cc0_transform_0 reads0_0 false false 2 stage0_0 sem0_0
    hrank0 hreads0_0 hstart0_0 nbuf0_0 (Memref.isWhole_whole _) hwx0_0 hwxs0_0 hstage0_0

abbrev win0_1 : Pipeline.Window sig grid0 :=
  Pipeline.Window.ofSpec (Memref.whole main_v0) S512x1.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v1) S1x512.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v2) S512x512.size cc0_transform_3 reads0_3 false false 2 stage0_3 sem0_3
    hrank0 hreads0_3 hinb0_3 nbuf0_3 (Memref.isWhole_whole _) hwx0_3 hstage0_3

abbrev win0_4 : Pipeline.Window sig grid0 :=
  Pipeline.Window.ofSpec (Memref.whole main_v3) S512x1.size cc0_transform_4 reads0_4 false false 2 stage0_4 sem0_4
    hrank0 hreads0_4 hinb0_4 nbuf0_4 (Memref.isWhole_whole _) hwx0_4 hstage0_4

abbrev win0_5 : Pipeline.Window sig grid0 :=
  Pipeline.Window.ofSpec (Memref.whole main_v4) S512x1.size cc0_transform_5 reads0_5 true false 2 stage0_5 sem0_5
    hrank0 hreads0_5 hinb0_5 nbuf0_5 (Memref.isWhole_whole _) hwx0_5 hstage0_5

abbrev win0 : Fin 6 → Pipeline.Window sig grid0 := fun | 0 => win0_0 | 1 => win0_1 | 2 => win0_2 | 3 => win0_3 | 4 => win0_4 | 5 => win0_5 | ⟨_ + 6, h⟩ => absurd h (Nat.not_lt.2 (Nat.le_add_left _ _))
abbrev spec0 : Fin 6 → Pipeline.WinSpec sig grid0.rank := fun w => (win0 w).toWinSpec

abbrev idle0 : Fin 6 → grid0.Coords → Bool := fun | 0 => fun _ => false | 1 => fun _ => false | 2 => fun _ => false | 3 => fun _ => false | 4 => fun _ => false | 5 => fun i => !(k0_cond3 i == 1#1) | ⟨_ + 6, h⟩ => absurd h (Nat.not_lt.2 (Nat.le_add_left _ _))

class Facts : Prop extends Facts₀ where

variable [Facts]
-- ==== ReferenceIdeal.lean ====
abbrev S4096x50257 : Shape := ⟨2, ![4096, 50257]⟩
abbrev S4096 : Shape := ⟨1, ![4096]⟩
abbrev S512 : Shape := ⟨1, ![512]⟩
abbrev S_ : Shape := ⟨0, ![]⟩
abbrev S4096x1 : Shape := ⟨2, ![4096, 1]⟩
abbrev S4096x1x1 : Shape := ⟨3, ![4096, 1, 1]⟩
abbrev S1 : Shape := ⟨1, ![1]⟩
abbrev S1x1x1 : Shape := ⟨3, ![1, 1, 1]⟩
abbrev S1x512 : Shape := ⟨2, ![1, 512]⟩
abbrev S4096x512 : Shape := ⟨2, ![4096, 512]⟩
abbrev S512x1 : Shape := ⟨2, ![512, 1]⟩
abbrev S4096x513 : Shape := ⟨2, ![4096, 513]⟩

abbrev nBuf : Space → Nat
  | .hbm => 83
  | .vmem => 0
  | .smem => 0
  | _ => 0

abbrev bufTy : (tb : Table) → Fin (tcTables nBuf tb) → BufTy
  | .hbm, ⟨0, _⟩ => ⟨S4096x50257, .f32⟩
  | .hbm, ⟨1, _⟩ => ⟨S4096, .i32⟩
  | .hbm, ⟨2, _⟩ => ⟨S512, .i32⟩
  | .hbm, ⟨3, _⟩ => ⟨S_, .f32⟩
  | .hbm, ⟨4, _⟩ => ⟨S4096, .f32⟩
  | .hbm, ⟨5, _⟩ => ⟨S4096x1, .f32⟩
  | .hbm, ⟨6, _⟩ => ⟨S4096x50257, .f32⟩
  | .hbm, ⟨7, _⟩ => ⟨S4096x50257, .f32⟩
  | .hbm, ⟨8, _⟩ => ⟨S4096x1, .i32⟩
  | .hbm, ⟨9, _⟩ => ⟨S_, .i32⟩
  | .hbm, ⟨10, _⟩ => ⟨S4096x1, .i32⟩
  | .hbm, ⟨11, _⟩ => ⟨S4096x1, .i1⟩
  | .hbm, ⟨12, _⟩ => ⟨S_, .i32⟩
  | .hbm, ⟨13, _⟩ => ⟨S4096x1, .i32⟩
  | .hbm, ⟨14, _⟩ => ⟨S4096x1, .i32⟩
  | .hbm, ⟨15, _⟩ => ⟨S4096x1, .i32⟩
  | .hbm, ⟨16, _⟩ => ⟨S4096x1x1, .i32⟩
  | .hbm, ⟨17, _⟩ => ⟨S1, .i32⟩
  | .hbm, ⟨18, _⟩ => ⟨S_, .i32⟩
  | .hbm, ⟨19, _⟩ => ⟨S4096x1x1, .i32⟩
  | .hbm, ⟨20, _⟩ => ⟨S4096x1x1, .i1⟩
  | .hbm, ⟨21, _⟩ => ⟨S1x1x1, .i32⟩
  | .hbm, ⟨22, _⟩ => ⟨S4096x1x1, .i32⟩
  | .hbm, ⟨23, _⟩ => ⟨S4096x1x1, .i1⟩
  | .hbm, ⟨24, _⟩ => ⟨S4096x1x1, .i1⟩
  | .hbm, ⟨25, _⟩ => ⟨S_, .i1⟩
  | .hbm, ⟨26, _⟩ => ⟨S4096x1, .i1⟩
  | .hbm, ⟨27, _⟩ => ⟨S4096x1, .f32⟩
  | .hbm, ⟨28, _⟩ => ⟨S_, .f32⟩
  | .hbm, ⟨29, _⟩ => ⟨S4096x1, .f32⟩
  | .hbm, ⟨30, _⟩ => ⟨S4096x1, .f32⟩
  | .hbm, ⟨31, _⟩ => ⟨S4096x1, .f32⟩
  | .hbm, ⟨32, _⟩ => ⟨S_, .f32⟩
  | .hbm, ⟨33, _⟩ => ⟨S4096x1, .f32⟩
  | .hbm, ⟨34, _⟩ => ⟨S4096x1, .f32⟩
  | .hbm, ⟨35, _⟩ => ⟨S4096x1, .i32⟩
  | .hbm, ⟨36, _⟩ => ⟨S1x512, .i32⟩
  | .hbm, ⟨37, _⟩ => ⟨S4096x512, .i32⟩
  | .hbm, ⟨38, _⟩ => ⟨S4096x512, .i32⟩
  | .hbm, ⟨39, _⟩ => ⟨S4096x512, .i1⟩
  | .hbm, ⟨40, _⟩ => ⟨S4096x512, .f32⟩
  | .hbm, ⟨41, _⟩ => ⟨S_, .i32⟩
  | .hbm, ⟨42, _⟩ => ⟨S512, .i32⟩
  | .hbm, ⟨43, _⟩ => ⟨S512, .i1⟩
  | .hbm, ⟨44, _⟩ => ⟨S_, .i32⟩
  | .hbm, ⟨45, _⟩ => ⟨S512, .i32⟩
  | .hbm, ⟨46, _⟩ => ⟨S512, .i32⟩
  | .hbm, ⟨47, _⟩ => ⟨S512, .i32⟩
  | .hbm, ⟨48, _⟩ => ⟨S512x1, .i32⟩
  | .hbm, ⟨49, _⟩ => ⟨S4096x512, .f32⟩
  | .hbm, ⟨50, _⟩ => ⟨S4096x512, .f32⟩
  | .hbm, ⟨51, _⟩ => ⟨S_, .f32⟩
  | .hbm, ⟨52, _⟩ => ⟨S4096x512, .f32⟩
  | .hbm, ⟨53, _⟩ => ⟨S4096x512, .f32⟩
  | .hbm, ⟨54, _⟩ => ⟨S4096x512, .f32⟩
  | .hbm, ⟨55, _⟩ => ⟨S4096x513, .f32⟩
  | .hbm, ⟨56, _⟩ => ⟨S_, .f32⟩
  | .hbm, ⟨57, _⟩ => ⟨S4096, .f32⟩
  | .hbm, ⟨58, _⟩ => ⟨S4096x1, .f32⟩
  | .hbm, ⟨59, _⟩ => ⟨S4096x513, .f32⟩
  | .hbm, ⟨60, _⟩ => ⟨S4096x513, .f32⟩
  | .hbm, ⟨61, _⟩ => ⟨S_, .f32⟩
  | .hbm, ⟨62, _⟩ => ⟨S4096x513, .f32⟩
  | .hbm, ⟨63, _⟩ => ⟨S4096x513, .f32⟩
  | .hbm, ⟨64, _⟩ => ⟨S4096x1, .f32⟩
  | .hbm, ⟨65, _⟩ => ⟨S4096, .f32⟩
  | .hbm, ⟨66, _⟩ => ⟨S_, .f32⟩
  | .hbm, ⟨67, _⟩ => ⟨S4096, .f32⟩
  | .hbm, ⟨68, _⟩ => ⟨S4096, .f32⟩
  | .hbm, ⟨69, _⟩ => ⟨S4096, .f32⟩
  | .hbm, ⟨70, _⟩ => ⟨S4096x512, .f32⟩
  | .hbm, ⟨71, _⟩ => ⟨S_, .f32⟩
  | .hbm, ⟨72, _⟩ => ⟨S4096x512, .f32⟩
  | .hbm, ⟨73, _⟩ => ⟨S4096x512, .f32⟩
  | .hbm, ⟨74, _⟩ => ⟨S4096x512, .f32⟩
  | .hbm, ⟨75, _⟩ => ⟨S_, .f32⟩
  | .hbm, ⟨76, _⟩ => ⟨S_, .f32⟩
  | .hbm, ⟨77, _⟩ => ⟨S_, .f32⟩
  | .hbm, ⟨78, _⟩ => ⟨S_, .f32⟩
  | .hbm, ⟨79, _⟩ => ⟨S_, .f32⟩
  | .hbm, ⟨80, _⟩ => ⟨S_, .f32⟩
  | .hbm, ⟨81, _⟩ => ⟨S_, .f32⟩
  | .hbm, ⟨82, _⟩ => ⟨S_, .f32⟩
  | _, _ => ⟨S4096x50257, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_cst : Ref sig .tc := ⟨.hbm, 3, rfl⟩
abbrev main_v0 : Ref sig .tc := ⟨.hbm, 4, rfl⟩
abbrev main_v1 : Ref sig .tc := ⟨.hbm, 5, rfl⟩
abbrev main_v2 : Ref sig .tc := ⟨.hbm, 6, rfl⟩
abbrev main_v3 : Ref sig .tc := ⟨.hbm, 7, rfl⟩
abbrev main_v4 : Ref sig .tc := ⟨.hbm, 8, rfl⟩
abbrev main_call0_c : Ref sig .tc := ⟨.hbm, 9, rfl⟩
abbrev main_call0_v0 : Ref sig .tc := ⟨.hbm, 10, rfl⟩
abbrev main_call0_v1 : Ref sig .tc := ⟨.hbm, 11, rfl⟩
abbrev main_call0_c_0 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_call0_v5 : Ref sig .tc := ⟨.hbm, 16, rfl⟩
abbrev main_call0_c_1 : Ref sig .tc := ⟨.hbm, 17, rfl⟩
abbrev main_call0_c_2 : Ref sig .tc := ⟨.hbm, 18, rfl⟩
abbrev main_call0_v6 : Ref sig .tc := ⟨.hbm, 19, rfl⟩
abbrev main_call0_v7 : Ref sig .tc := ⟨.hbm, 20, rfl⟩
abbrev main_call0_v8 : Ref sig .tc := ⟨.hbm, 21, rfl⟩
abbrev main_call0_v9 : Ref sig .tc := ⟨.hbm, 22, rfl⟩
abbrev main_call0_v10 : Ref sig .tc := ⟨.hbm, 23, rfl⟩
abbrev main_call0_v11 : Ref sig .tc := ⟨.hbm, 24, rfl⟩
abbrev main_call0_c_3 : Ref sig .tc := ⟨.hbm, 25, rfl⟩
abbrev main_call0_v12 : Ref sig .tc := ⟨.hbm, 26, rfl⟩
abbrev main_call0_v13 : Ref sig .tc := ⟨.hbm, 27, rfl⟩
abbrev main_call0_cst : Ref sig .tc := ⟨.hbm, 28, rfl⟩
abbrev main_call0_v14 : Ref sig .tc := ⟨.hbm, 29, rfl⟩
abbrev main_v5 : Ref sig .tc := ⟨.hbm, 30, rfl⟩
abbrev main_v6 : Ref sig .tc := ⟨.hbm, 31, rfl⟩
abbrev main_cst_0 : Ref sig .tc := ⟨.hbm, 32, rfl⟩
abbrev main_v7 : Ref sig .tc := ⟨.hbm, 33, rfl⟩
abbrev main_v8 : Ref sig .tc := ⟨.hbm, 34, rfl⟩
abbrev main_v9 : Ref sig .tc := ⟨.hbm, 35, rfl⟩
abbrev main_v10 : Ref sig .tc := ⟨.hbm, 36, rfl⟩
abbrev main_v11 : Ref sig .tc := ⟨.hbm, 37, rfl⟩
abbrev main_v12 : Ref sig .tc := ⟨.hbm, 38, rfl⟩
abbrev main_v13 : Ref sig .tc := ⟨.hbm, 39, rfl⟩
abbrev main_v14 : Ref sig .tc := ⟨.hbm, 40, rfl⟩
abbrev main_c : Ref sig .tc := ⟨.hbm, 41, rfl⟩
abbrev main_v15 : Ref sig .tc := ⟨.hbm, 42, rfl⟩
abbrev main_v16 : Ref sig .tc := ⟨.hbm, 43, rfl⟩
abbrev main_c_1 : Ref sig .tc := ⟨.hbm, 44, rfl⟩
abbrev main_v17 : Ref sig .tc := ⟨.hbm, 45, rfl⟩
abbrev main_v18 : Ref sig .tc := ⟨.hbm, 46, rfl⟩
abbrev main_v19 : Ref sig .tc := ⟨.hbm, 47, rfl⟩
abbrev main_v20 : Ref sig .tc := ⟨.hbm, 48, rfl⟩
abbrev main_v21 : Ref sig .tc := ⟨.hbm, 49, rfl⟩
abbrev main_v22 : Ref sig .tc := ⟨.hbm, 50, rfl⟩
abbrev main_cst_2 : Ref sig .tc := ⟨.hbm, 51, rfl⟩
abbrev main_v23 : Ref sig .tc := ⟨.hbm, 52, rfl⟩
abbrev main_v24 : Ref sig .tc := ⟨.hbm, 53, rfl⟩
abbrev main_v25 : Ref sig .tc := ⟨.hbm, 54, rfl⟩
abbrev main_v26 : Ref sig .tc := ⟨.hbm, 55, rfl⟩
abbrev main_cst_3 : Ref sig .tc := ⟨.hbm, 56, rfl⟩
abbrev main_v27 : Ref sig .tc := ⟨.hbm, 57, rfl⟩
abbrev main_v28 : Ref sig .tc := ⟨.hbm, 58, rfl⟩
abbrev main_v29 : Ref sig .tc := ⟨.hbm, 59, rfl⟩
abbrev main_v30 : Ref sig .tc := ⟨.hbm, 60, rfl⟩
abbrev main_cst_4 : Ref sig .tc := ⟨.hbm, 61, rfl⟩
abbrev main_v31 : Ref sig .tc := ⟨.hbm, 62, rfl⟩
abbrev main_v32 : Ref sig .tc := ⟨.hbm, 63, rfl⟩
abbrev main_v33 : Ref sig .tc := ⟨.hbm, 64, rfl⟩
abbrev main_v34 : Ref sig .tc := ⟨.hbm, 65, rfl⟩
abbrev main_cst_5 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_cst_6 : Ref sig .tc := ⟨.hbm, 71, rfl⟩
abbrev main_v39 : Ref sig .tc := ⟨.hbm, 72, rfl⟩
abbrev main_v40 : Ref sig .tc := ⟨.hbm, 73, rfl⟩
abbrev main_v41 : Ref sig .tc := ⟨.hbm, 74, rfl⟩
abbrev main_cst_7 : Ref sig .tc := ⟨.hbm, 75, rfl⟩
abbrev main_v42 : Ref sig .tc := ⟨.hbm, 76, rfl⟩
abbrev main_cst_8 : Ref sig .tc := ⟨.hbm, 77, rfl⟩
abbrev main_v43 : Ref sig .tc := ⟨.hbm, 78, rfl⟩
abbrev main_v44 : Ref sig .tc := ⟨.hbm, 79, rfl⟩
abbrev main_v45 : Ref sig .tc := ⟨.hbm, 80, rfl⟩
abbrev main_cst_9 : Ref sig .tc := ⟨.hbm, 81, rfl⟩
abbrev main_v46 : Ref sig .tc := ⟨.hbm, 82, rfl⟩

abbrev nD : Nat := 1
abbrev τ : Topo := Topo.v7x

variable {F : FTy → Type} [FloatOps F]

class Facts₀ : Prop where
  reducesTo_S4096x50257_S4096_d1 : S4096x50257.ReducesTo [1] S4096
  h_S_ : 0 < S_.numel
  bcast_S4096_S4096x1_0 : S4096.BroadcastsInDim S4096x1 (![0] : Fin 1 → Fin S4096x1.rank)
  bcast_S4096x1_S4096x50257_0_1 : S4096x1.BroadcastsInDim S4096x50257 (![0, 1] : Fin 2 → Fin S4096x50257.rank)
  bcast_S_S4096x1 : S_.BroadcastsInDim S4096x1 (![] : Fin 0 → Fin S4096x1.rank)
  shapeCasts_S4096x1_S4096x1x1 : S4096x1.ShapeCasts S4096x1x1
  bcast_S_S4096x1x1 : S_.BroadcastsInDim S4096x1x1 (![] : Fin 0 → Fin S4096x1x1.rank)
  bcast_S1_S1x1x1_2 : S1.BroadcastsInDim S1x1x1 (![2] : Fin 1 → Fin S1x1x1.rank)
  bcast_S1x1x1_S4096x1x1_0_1_2 : S1x1x1.BroadcastsInDim S4096x1x1 (![0, 1, 2] : Fin 3 → Fin S4096x1x1.rank)
  reducesTo_S4096x1x1_S4096x1_d2 : S4096x1x1.ReducesTo [2] S4096x1
  bcast_S512_S1x512_1 : S512.BroadcastsInDim S1x512 (![1] : Fin 1 → Fin S1x512.rank)
  bcast_S4096x1_S4096x512_0_1 : S4096x1.BroadcastsInDim S4096x512 (![0, 1] : Fin 2 → Fin S4096x512.rank)
  bcast_S1x512_S4096x512_0_1 : S1x512.BroadcastsInDim S4096x512 (![0, 1] : Fin 2 → Fin S4096x512.rank)
  bcast_S_S512 : S_.BroadcastsInDim S512 (![] : Fin 0 → Fin S512.rank)
  bcast_S512_S512x1_0 : S512.BroadcastsInDim S512x1 (![0] : Fin 1 → Fin S512x1.rank)
  bcast_S_S4096x512 : S_.BroadcastsInDim S4096x512 (![] : Fin 0 → Fin S4096x512.rank)
  concatenates_S4096x1_S4096x512_S4096x513_d1 : Shape.Concatenates [S4096x1, S4096x512] S4096x513 1
  reducesTo_S4096x513_S4096_d1 : S4096x513.ReducesTo [1] S4096
  bcast_S4096x1_S4096x513_0_1 : S4096x1.BroadcastsInDim S4096x513 (![0, 1] : Fin 2 → Fin S4096x513.rank)
  bcast_S_S4096x513 : S_.BroadcastsInDim S4096x513 (![] : Fin 0 → Fin S4096x513.rank)
  slices_S4096x513_S4096x1_0_0 : S4096x513.Slices ![0, 0] S4096x1
  shapeCasts_S4096x1_S4096 : S4096x1.ShapeCasts S4096
  bcast_S_S4096 : S_.BroadcastsInDim S4096 (![] : Fin 0 → Fin S4096.rank)
  slices_S4096x513_S4096x512_0_1 : S4096x513.Slices ![0, 1] S4096x512
  reducesTo_S4096_S_d0 : S4096.ReducesTo [0] S_
  reducesTo_S4096x512_S_d0_1 : S4096x512.ReducesTo [0, 1] S_
  gather_S4096x50257_S4096x1x1_S4096x1_n_1_0_0_1_2_11_wf : GatherDims.WF S4096x50257 S4096x1x1 S4096x1 [] [1] [0] [1] [0] 2 ![1, 1]
  gather_S4096x50257_S512x1_S4096x512_0_1_n_n_1_1_40961_wf : GatherDims.WF S4096x50257 S512x1 S4096x512 [0] [1] [] [1] [] 1 ![4096, 1]

variable [Facts₀]

def gather_S4096x50257_S4096x1x1_S4096x1_n_1_0_0_1_2_11 : GatherDims S4096x50257 S4096x1x1 S4096x1 where
  offsetDims := []
  collapsedSliceDims := [1]
  operandBatchingDims := [0]
  startIndicesBatchingDims := [0]
  startIndexMap := [1]
  indexVectorDim := 2
  sliceSizes := ![1, 1]
  wf := gather_S4096x50257_S4096x1x1_S4096x1_n_1_0_0_1_2_11_wf
def gather_S4096x50257_S512x1_S4096x512_0_1_n_n_1_1_40961 : GatherDims S4096x50257 S512x1 S4096x512 where
  offsetDims := [0]
  collapsedSliceDims := [1]
  operandBatchingDims := []
  startIndicesBatchingDims := []
  startIndexMap := [1]
  indexVectorDim := 1
  sliceSizes := ![4096, 1]
  wf := gather_S4096x50257_S512x1_S4096x512_0_1_n_n_1_1_40961_wf

class Facts : Prop extends Facts₀ where

variable [Facts]
-- ==== Proof.BitsBodyCases.lean ====
import proofs.«420491_j3599182594543_3_alg».proof.Proof.Gen.Kernel.Frame
import proofs.«420491_j3599182594543_3_alg».proof.Proof.Gen.Kernel.Skeleton
import Idealize.ShloMosaic.Lib.Pipeline.Value

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body on any whole staging memrefs, one triple per control case of the column step.

    The body keeps a running row maximum in a scratch column across the seven column tiles of a row tile: at the
    first tile it resets the scratch to minus infinity and folds the tile's row maxima in; at the interior tiles
    it folds the tile's row maxima into what the scratch held; at the last tile it folds in the row maxima of the
    tile with the lanes past column 50256 masked, then computes the row tile's losses from that maximum and stores
    them, the only store to the result's buffer. -/

/-- The three branch conditions of the body as the skeleton spells them, over the grid coordinates. -/
abbrev condReset (i : grid0.Coords) : Prop :=
  (Scalar.cmpi .ne (Scalar.extui (Scalar.cmpi .eq (BitVec.ofNat 32 (i 1).val) 0#32)) 0#32) = 1#1
abbrev condInner (i : grid0.Coords) : Prop :=
  (Scalar.cmpi .ne (Scalar.extui (Scalar.xori (Scalar.cmpi .eq (BitVec.ofNat 32 (i 1).val) 6#32) 1#1)) 0#32) = 1#1
abbrev condLast (i : grid0.Coords) : Prop := k0_cond3 i = 1#1

set_option maxHeartbeats 4000000 in
/-- First column tile: the scratch, whatever it held, ends at the tile's row maxima folded into minus infinity;
    every window's buffer is handed back as found. -/
theorem runFirst (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : condReset i) (hc1 : condInner i) (hc2 : ¬condLast i)
    (x0 : Vec F S512x8192 .f32) (x1 : Vec F S512x1 .i32) (x2 : Vec F S1x512 .i32) (x3 : Vec F S512x512 .f32) (x4 : Vec F S512x1 .f32)
    (x5 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ owns (c : Thread nD τ) arg8 fullShare (k0_pay2 x0 (k0_pay1 (F := F)))) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    have hz : (![0, 0] : Fin 2 → Nat) = fun _ => 0 := funext fun a => by fin_cases a <;> rfl
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, View.ld_unit_zero (S := S512x8192) hz, View.readCov_unit_zero (S := S512x1) _ hz]

set_option maxHeartbeats 4000000 in
/-- An interior column tile: the scratch, holding `xs`, ends at the tile's row maxima folded into `xs`. -/
theorem runInner (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condReset i) (hc1 : condInner i) (hc2 : ¬condLast i)
    (x0 : Vec F S512x8192 .f32) (x1 : Vec F S512x1 .i32) (x2 : Vec F S1x512 .i32) (x3 : Vec F S512x512 .f32) (x4 : Vec F S512x1 .f32)
    (x5 : Vec F S512x1 .f32) (xs : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ owns (c : Thread nD τ) arg8 fullShare (k0_pay2 x0 xs)) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    have hz : (![0, 0] : Fin 2 → Nat) = fun _ => 0 := funext fun a => by fin_cases a <;> rfl
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, harg8.read_unread, View.ld_unit_zero (S := S512x8192) hz, View.ld_unit_zero (S := S512x1) hz]

set_option maxHeartbeats 8000000 in
/-- The last column tile: the scratch, holding `xs`, ends at the masked tile's row maxima folded into `xs`, and
    the result's buffer, whatever it held, at the row tile's losses computed from that maximum. -/
theorem runLast (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condReset i) (hc1 : ¬condInner i) (hc2 : condLast i)
    (x0 : Vec F S512x8192 .f32) (x1 : Vec F S512x1 .i32) (x2 : Vec F S1x512 .i32) (x3 : Vec F S512x512 .f32) (x4 : Vec F S512x1 .f32)
    (xs : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare
                    (k0_pay3 (k0_pay6 (BitVec.ofNat 32 (i 1).val) x0 xs x4) (k0_pay7 (BitVec.ofNat 32 (i 1).val) x0 xs x1 x3 x2)
                      (k0_pay8 (BitVec.ofNat 32 (i 1).val) x0 xs x1 x3 x2))
                ∗ owns (c : Thread nD τ) arg8 fullShare (k0_pay5 (BitVec.ofNat 32 (i 1).val) x0 xs)) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hz : (![0, 0] : Fin 2 → Nat) = fun _ => 0 := funext fun a => by fin_cases a <;> rfl
    isplitl [H5]
    · iexists _; isplitr
      swap; · iexact H5
      ipureintro
      refine (View.read_writes_eq_canon _ _ _ (fun y => ⟨_, List.mem_cons_self .., View.mem_set_unit_zero hz inb_S512x1_S512x1_0_0 y⟩)).trans ?_
      rw [View.canon_cons_unit_zero (S := S512x1) hz]
      sl_unfold_words
      simp only [View.readAt_eq_ld, harg2.read_unread, harg3.read_unread, harg4.read_unread, harg5.read_unread, harg6.read_unread, harg8.read_unread,
        View.ld_unit_zero (S := S512x8192) hz, View.ld_unit_zero (S := S512x1) hz, View.ld_unit_zero (S := S512x512) hz, View.ld_unit_zero (S := S1x512) hz]
    iexists _; isplitr
    swap; · iexact HS0
    ipureintro
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, harg8.read_unread, View.ld_unit_zero (S := S512x8192) hz, View.ld_unit_zero (S := S512x1) hz]

end Cert.Kernel.Hand

end
-- ==== Proof.BitsPointData.lean ====
/-
  The proof data of the one pipeline: what every window's staging buffer and the kernel's scratch column hold
  after the body at each of the 56 grid points (8 row tiles × 7 column tiles, the column step `t % 7`).

  The scratch column is a running row maximum: reset and folded at column step 0, folded at steps 1 to 5, and at
  step 6 folded with the lanes past the array's last column masked out.  The result's buffer is stored once per
  row tile, at column step 6, and is idle (handed back as found) at the other points.  The logits' window is the
  only one whose last block overhangs its array; what its buffer holds past the array's end is a parameter `d`
  of what the body finds, and the canonical filler `dFill` stands for it in the data.
-/
import proofs.«420491_j3599182594543_3_alg».proof.Proof.BitsBodyCases

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch column -/

abbrev ms0 (t : Fin cfg0.N) : Memref sig .tc .vmem S512x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The scratch column: a whole scoped buffer of the kernel's own, passed beside the windows. -/
abbrev scM : Memref sig .tc .vmem S512x1 .f32 := Memref.whole cc0_scratch0

/-- The invariant the launch hands the region: the scratch column at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The branch conditions over the grid, and where the result's window is idle -/

theorem hReset : ∀ t : Fin cfg0.N, condReset (grid0.coords t) ↔ t.val % 7 = 0 :=
  (by decide +kernel : ∀ t : Fin grid0.N, condReset (grid0.coords t) ↔ t.val % 7 = 0)
theorem hInner : ∀ t : Fin cfg0.N, condInner (grid0.coords t) ↔ ¬t.val % 7 = 6 :=
  (by decide +kernel : ∀ t : Fin grid0.N, condInner (grid0.coords t) ↔ ¬t.val % 7 = 6)
theorem hLast : ∀ t : Fin cfg0.N, condLast (grid0.coords t) ↔ t.val % 7 = 6 :=
  (by decide +kernel : ∀ t : Fin grid0.N, condLast (grid0.coords t) ↔ t.val % 7 = 6)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The result's window is idle at every column step but the last, -/
theorem idle5 : ∀ t : Fin cfg0.N, ¬t.val % 7 = 6 → cfg0.idle 5 (grid0.coords t) = true := by decide +kernel
/-- live at the last, -/
theorem live5 : ∀ t : Fin cfg0.N, t.val % 7 = 6 → cfg0.idle 5 (grid0.coords t) = false := by decide +kernel
/-- and written back only there. -/
theorem noFlush5 (t : Fin cfg0.N) (h : ¬t.val % 7 = 6) : (cfg0.win 5).flush t = false := by
  cases hf : (cfg0.win 5).flush t
  · rfl
  · exact absurd ((flush0_5 t).mp hf) h

/-! ## What the body finds in the logits' buffer, and what it leaves in the scratch and the result's buffer -/

/-- The filler standing for the lanes past the array's end. -/
def dFill : (cfg0.win 0).block.Idx → Elt F (cfg0.win 0).elt := fun _ => Scalar.ofBits .f32 0#32

/-- The logits' staging buffer after the fetch at point `t`, if the lanes the fetch does not move hold `d`. -/
def xin (c : Dev nD) (t : Fin cfg0.N) (d : (cfg0.win 0).block.Idx → Elt F (cfg0.win 0).elt) : Vec F S512x8192 .f32 :=
  (cfg0.win 0).fill (grid0.coords t) d (iblk m c 0 t)

/-- The column step as the body reads it: the second grid coordinate as a word. -/
abbrev kw (t : Fin cfg0.N) : BitVec 32 := BitVec.ofNat 32 ((grid0.coords t) 1).val

/-- THE RUNNING MAXIMUM. What the scratch column holds after the body at position `n`: by the column step, the
    tile's row maxima folded into minus infinity (step 0), into what the point before left (steps 1 to 5), or the
    masked tile's row maxima folded into what the point before left (step 6). -/
def scAt (c : Dev nD) : (n : ℕ) → n < cfg0.N → Vec F S512x1 .f32
  | 0, hn => k0_pay2 (xin m c ⟨0, hn⟩ dFill) (k0_pay1 (F := F))
  | n + 1, hn =>
    if (n + 1) % 7 = 0 then k0_pay2 (xin m c ⟨n + 1, hn⟩ dFill) (k0_pay1 (F := F))
    else if (n + 1) % 7 = 6 then k0_pay5 (kw ⟨n + 1, hn⟩) (xin m c ⟨n + 1, hn⟩ dFill) (scAt c n (Nat.lt_of_succ_lt hn))
    else k0_pay2 (xin m c ⟨n + 1, hn⟩ dFill) (scAt c n (Nat.lt_of_succ_lt hn))

theorem scAt_first (c : Dev nD) (t : Fin cfg0.N) (h0 : t.val % 7 = 0) :
    scAt m c t.val t.isLt = k0_pay2 (xin m c t dFill) (k0_pay1 (F := F)) := by
  obtain ⟨n, hn⟩ := t
  cases n with
  | zero => rfl
  | succ n => exact if_pos h0

theorem scAt_inner (c : Dev nD) (t : Fin cfg0.N) (h0 : ¬t.val % 7 = 0) (h6 : ¬t.val % 7 = 6) :
    scAt m c t.val t.isLt
      = k0_pay2 (xin m c t dFill) (scAt m c (t.val - 1) (Nat.lt_of_le_of_lt (Nat.sub_le _ _) t.isLt)) := by
  obtain ⟨n, hn⟩ := t
  cases n with
  | zero => exact absurd (Nat.zero_mod _) h0
  | succ n => exact (if_neg h0).trans (if_neg h6)

theorem scAt_last (c : Dev nD) (t : Fin cfg0.N) (h6 : t.val % 7 = 6) :
    scAt m c t.val t.isLt
      = k0_pay5 (kw t) (xin m c t dFill) (scAt m c (t.val - 1) (Nat.lt_of_le_of_lt (Nat.sub_le _ _) t.isLt)) := by
  obtain ⟨n, hn⟩ := t
  cases n with
  | zero => exact absurd h6 (by show ¬((0 : ℕ) % 7 = 6); decide)
  | succ n => exact (if_neg (by dsimp only at h6 ⊢; omega)).trans (if_pos h6)

/-- What the result's buffer holds after the body at a last column step: the row tile's losses, computed from the
    masked running maximum, the labels' block, the sampled words' row, the gathered logits' block and the labels'
    logits' block.  (At the other points the window is idle and this is not consulted.) -/
def outAt (c : Dev nD) (t : Fin cfg0.N) : Vec F S512x1 .f32 :=
  if h : t.val % 7 = 6 then
    k0_pay3
      (k0_pay6 (kw t) (xin m c t dFill) (scAt m c (t.val - 1) (Nat.lt_of_le_of_lt (Nat.sub_le _ _) t.isLt)) (iblk m c 4 t))
      (k0_pay7 (kw t) (xin m c t dFill) (scAt m c (t.val - 1) (Nat.lt_of_le_of_lt (Nat.sub_le _ _) t.isLt)) (iblk m c 1 t) (iblk m c 3 t) (iblk m c 2 t))
      (k0_pay8 (kw t) (xin m c t dFill) (scAt m c (t.val - 1) (Nat.lt_of_le_of_lt (Nat.sub_le _ _) t.isLt)) (iblk m c 1 t) (iblk m c 3 t) (iblk m c 2 t))
  else fun _ => Scalar.ofBits .f32 0#32

/-! ## The invariant carrying the scratch, and the proof data -/

/-- Before the first point the launch's invariant; afterwards the scratch column at what the point before left, and
    the generator register at some state. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-- The proof data on core `c`: the arrays as the region finds them; after the body the logits' buffer at its block
    with the canonical filler past the array's end, the four other inputs' at their blocks, the result's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t dFill
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xin m c t dFill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- The logits' buffer is fetched at every point: the body finds the block, `d` past the array's end. -/
theorem before_0 (c : Dev nD) (t : Fin cfg0.N) (d) : (dats m 0 c).before 0 t d = xin m c t d := by
  unfold Dat.before; rw [if_pos (fetch0_0 t)]; rfl

/-- The four other inputs' buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

end Cert.Kernel.Hand

end
-- ==== Proof.BitsMaskedTail.lean ====
import proofs.«420491_j3599182594543_3_alg».proof.Proof.Gen.Kernel.Frame
import proofs.«420491_j3599182594543_3_alg».proof.Proof.Gen.Kernel.Skeleton
import Idealize.ShloMosaic.Lib.ValueIdx

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The logits' window is 8192 columns wide and the array 50257: the seventh column tile holds 1105 columns of the
    array and 7087 lanes past its end, whose contents nothing names.  The body's last-tile branch compares each
    lane's column number `6 · 8192 + lane` with 50257 and replaces the lanes that fail by minus infinity before
    taking the row maximum, so what those lanes held does not matter. -/

/-- At the interior column tiles the fetch moves the whole block: no axis is cut. -/
theorem interior_uncut : ∀ t : Fin cfg0.N, ¬t.val % 7 = 6 → ∀ a, (cfg0.win 0).clip (grid0.coords t) a = none :=
  (by decide +kernel : ∀ t : Fin grid0.N, ¬t.val % 7 = 6 → ∀ a, win0_0.clip (grid0.coords t) a = none)

/-- Hence there the staging buffer after the fetch does not depend on what it held before. -/
theorem fill_interior (t : Fin cfg0.N) (ht : ¬t.val % 7 = 6) {α : Type} (d d' : (cfg0.win 0).block.Idx → α)
    (g : ((cfg0.win 0).xblock (grid0.coords t)).Idx → α) :
    (cfg0.win 0).fill (grid0.coords t) d g = (cfg0.win 0).fill (grid0.coords t) d' g :=
  Pipeline.fill_of_clip_none (cfg := cfg0) 0 (grid0.coords t) (interior_uncut t ht) d d' g

/-- At a last column tile the second grid coordinate is 6. -/
theorem lastTile_coord : ∀ t : Fin cfg0.N, t.val % 7 = 6 → ((grid0.coords t) 1).val = 6 :=
  (by decide +kernel : ∀ t : Fin grid0.N, t.val % 7 = 6 → ((grid0.coords t) 1).val = 6)

/-- There the fetch moves all 512 rows and the first `50257 − 6 · 8192 = 1105` columns of the block. -/
theorem lastTile_xsize : ∀ t : Fin cfg0.N, t.val % 7 = 6 →
    ∀ a : Fin 2, (cfg0.win 0).xsize (grid0.coords t) a = (![512, 1105] : Fin 2 → Nat) a :=
  (by decide +kernel : ∀ t : Fin grid0.N, t.val % 7 = 6 →
    ∀ a : Fin 2, win0_0.xsize (grid0.coords t) a = (![512, 1105] : Fin 2 → Nat) a)

/-- The body's last-tile maximum is a function of the masked block: the block with the lanes whose column number
    `arg1 · 8192 + lane` is not below 50257 replaced by minus infinity. -/
theorem k0_pay4_eq (arg1 : BitVec 32) (v4 : Vec F S512x8192 .f32) (v18 : Vec F S512x1 .f32) :
    k0_pay4 arg1 v4 v18 = maximumf v18 (shapeCast S512x1 (multiReduction .maximumf [1] S512
      (select (cmpi .slt (addi (broadcast S512x8192 (Scalar.muli arg1 8192#32)) (iota .tc S512x8192 32 [1] iota_S512x8192_d1_w32))
          (broadcast S512x8192 50257#32)) v4 (broadcast S512x8192 (Scalar.ofBits .f32 0xFF800000#32)))
      0xFF800000#32 reduces_S512x8192_S512 (.inl rfl) rfl) shapeCasts_S512_S512x1) := rfl

/-- At a last column tile the running maximum the body computes does not depend on the lanes past the array's
    end: they are the lanes the mask replaces by minus infinity. -/
theorem lastTile_max_tail_irrelevant (t : Fin cfg0.N) (ht : t.val % 7 = 6)
    (d d' : (cfg0.win 0).block.Idx → Elt F .f32) (g : ((cfg0.win 0).xblock (grid0.coords t)).Idx → Elt F .f32)
    (prev : Vec F S512x1 .f32) :
    k0_pay4 (BitVec.ofNat 32 ((grid0.coords t) 1).val) ((cfg0.win 0).fill (grid0.coords t) d g) prev
      = k0_pay4 (BitVec.ofNat 32 ((grid0.coords t) 1).val) ((cfg0.win 0).fill (grid0.coords t) d' g) prev := by
  rw [k0_pay4_eq, k0_pay4_eq]
  refine congrArg (fun X => maximumf prev (shapeCast S512x1 (multiReduction .maximumf [1] S512 X
      0xFF800000#32 reduces_S512x8192_S512 (.inl rfl) rfl) shapeCasts_S512_S512x1)) ?_
  funext j
  rw [ValueIdx.select_apply, ValueIdx.select_apply]
  by_cases hm : (cfg0.win 0).moved (grid0.coords t) j = true
  · -- a lane the fetch moves holds the fetched element, whatever the buffer held before
    have e : (cfg0.win 0).fill (grid0.coords t) d g j = (cfg0.win 0).fill (grid0.coords t) d' g j := by
      unfold Window.fill; rw [dif_pos hm, dif_pos hm]
    rw [e]
  · -- a lane the fetch does not move has column number at least 50257: its mask bit is 0
    have hbit : (cmpi .slt (addi (broadcast S512x8192 (Scalar.muli (BitVec.ofNat 32 ((grid0.coords t) 1).val) 8192#32))
        (iota .tc S512x8192 32 [1] iota_S512x8192_d1_w32)) (broadcast S512x8192 50257#32) : IVec S512x8192 1) j = 0#1 := by
      refine ValueIdx.eq_zero_of_ne_one fun h1 => hm ?_
      have hrow : (j 0).val < 512 := (j 0).isLt
      have hcol : (j 1).val < 8192 := (j 1).isLt
      have hx := lastTile_xsize t ht
      have hlt : (IntOp.addi (Scalar.muli (BitVec.ofNat 32 ((grid0.coords t) 1).val) 8192#32)
          (BitVec.ofNat 32 (0 * S512x8192.size 1 + (j 1).val))).toInt < (50257#32 : BitVec 32).toInt := IntOp.cmpi_slt.1 h1
      rw [lastTile_coord t ht] at hlt
      have hc : (j 1).val < 1105 := by
        have e1 : (50257#32 : BitVec 32).toInt = 50257 := by decide
        have e2 : IntOp.addi (Scalar.muli (BitVec.ofNat 32 6) 8192#32) (BitVec.ofNat 32 (0 * S512x8192.size 1 + (j 1).val))
            = BitVec.ofNat 32 (49152 + (j 1).val) := by
          show BitVec.ofNat 32 6 * 8192#32 + BitVec.ofNat 32 (0 * S512x8192.size 1 + (j 1).val) = _
          apply BitVec.eq_of_toNat_eq
          simp only [BitVec.toNat_add, BitVec.toNat_mul, BitVec.toNat_ofNat]
          omega
        have e3 : (BitVec.ofNat 32 (49152 + (j 1).val)).toInt = ((49152 + (j 1).val : Nat) : Int) := by
          rw [BitVec.toInt_eq_toNat_of_lt (by rw [BitVec.toNat_ofNat]; omega), BitVec.toNat_ofNat]; omega
        rw [e2, e1, e3] at hlt
        omega
      have h0' : (j 0).val < (cfg0.win 0).xsize (grid0.coords t) (0 : Fin 2) := by rw [hx 0]; exact hrow
      have h1' : (j 1).val < (cfg0.win 0).xsize (grid0.coords t) (1 : Fin 2) := by rw [hx 1]; exact hc
      exact ((cfg0.win 0).moved_iff _ j).mpr (Fin.forall_fin_two.2 ⟨h0', h1'⟩)
    rw [hbit, ValueIdx.select_zero, ValueIdx.select_zero]

end Cert.Kernel.Hand

end
-- ==== Proof.BitsBodyObligation.lean ====
/-
  The body obligation of the pipeline and the frame run.

  At every grid point the body, handed the invariant (the scratch column at what the point before left) and each
  window's buffer at what it then holds, runs to the invariant of the next point and each buffer at what the proof
  data says: by the column step one of the three triples of the body.  The logits' buffer arrives holding its
  block with arbitrary words `d` past the array's end and is handed back so; that the scratch and the result do
  not depend on `d` is the masking lemma (last tile) and the fact that interior tiles are not cut.
-/
import proofs.«420491_j3599182594543_3_alg».proof.Proof.BitsPointData
import proofs.«420491_j3599182594543_3_alg».proof.Proof.BitsMaskedTail

set_option maxRecDepth 16384

noncomputable section

namespace Cert.Kernel.Hand

open Cert.Kernel Cert.Kernel.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unnamed tail of the logits' buffer does not reach the scratch or the result -/

theorem xin_interior (c : Dev nD) (t : Fin cfg0.N) (h6 : ¬t.val % 7 = 6) (d) : xin m c t d = xin m c t dFill :=
  fill_interior t h6 d dFill (iblk m c 0 t)

theorem max_xin (c : Dev nD) (t : Fin cfg0.N) (h6 : t.val % 7 = 6) (d) (prev : Vec F S512x1 .f32) :
    k0_pay4 (kw t) (xin m c t d) prev = k0_pay4 (kw t) (xin m c t dFill) prev :=
  lastTile_max_tail_irrelevant t h6 d dFill (iblk m c 0 t) prev

/-! ## What each window's buffer is left at, window by window -/

theorem leaves_0 (c : Dev nD) (t : Fin cfg0.N) :
    (dats m 0 c).leaves 0 t = iprop(∃ d, owns (c : Thread nD τ) (ms0 t) fullShare (xin m c t d)) := by
  unfold Dat.leaves; rw [live0 t]
  show iprop(∃ d, owns (c : Thread nD τ) (ms0 t) fullShare ((cfg0.win 0).fill (grid0.coords t) d ((cfg0.win 0).cut (grid0.coords t) ((dats m 0 c).after 0 t)))) = _
  rw [after_0]; unfold xin; simp only [Window.cut_fill]
  rfl
theorem leaves_1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after_1]
theorem leaves_2 (c : Dev nD) (t : Fin cfg0.N) :
    (dats m 0 c).leaves 2 t = owns (c : Thread nD τ) (ms2 t) fullShare (iblk m c 2 t) := by
  unfold Dat.leaves; rw [live2 t]
  show owns (c : Thread nD τ) (ms2 t) fullShare ((dats m 0 c).after 2 t) = _
  rw [after_2]
theorem leaves_3 (c : Dev nD) (t : Fin cfg0.N) :
    (dats m 0 c).leaves 3 t = owns (c : Thread nD τ) (ms3 t) fullShare (iblk m c 3 t) := by
  unfold Dat.leaves; rw [live3 t]
  show owns (c : Thread nD τ) (ms3 t) fullShare ((dats m 0 c).after 3 t) = _
  rw [after_3]
theorem leaves_4 (c : Dev nD) (t : Fin cfg0.N) :
    (dats m 0 c).leaves 4 t = owns (c : Thread nD τ) (ms4 t) fullShare (iblk m c 4 t) := by
  unfold Dat.leaves; rw [live4 t]
  show owns (c : Thread nD τ) (ms4 t) fullShare ((dats m 0 c).after 4 t) = _
  rw [after_4]
/-- The result's buffer: at a last column step the row tile's losses, -/
theorem leaves_5_last (c : Dev nD) (t : Fin cfg0.N) (h6 : t.val % 7 = 6) :
    (dats m 0 c).leaves 5 t = owns (c : Thread nD τ) (ms5 t) fullShare (outAt m c t) := by
  unfold Dat.leaves; rw [live5 t h6]
  show owns (c : Thread nD τ) (ms5 t) fullShare ((dats m 0 c).after 5 t) = _
  rw [after_5]
/-- elsewhere what the body found. -/
theorem leaves_5_idle (c : Dev nD) (t : Fin cfg0.N) (h6 : ¬t.val % 7 = 6) :
    (dats m 0 c).leaves 5 t = iprop(∃ d, owns (c : Thread nD τ) (ms5 t) fullShare ((dats m 0 c).before 5 t d)) :=
  (dats m 0 c).leaves_idle 5 t (idle5 t h6) (noFlush5 t h6)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 56 := lt_of_lt_of_eq t.isLt (show cfg0.N = 56 from N_0)
  by_cases h6 : t.val % 7 = 6
  · -- the last column tile
    have hcR : ¬condReset (grid0.coords t) := fun h => by have := (hReset t).mp h; omega
    have hcI : ¬condInner (grid0.coords t) := fun h => (hInner t).mp h h6
    have hcL : condLast (grid0.coords t) := (hLast t).mpr h6
    have hz : t.val ≠ 0 := by omega
    rw [leaves_5_last m c t h6, scAt_last m c t h6, PhiS_castSucc m c t, PhiS_pos m c _ _ hz]
    unfold outAt; rw [dif_pos h6]
    iintro ⟨⟨HS, Hg⟩, Ho, ⟨%d0, H0⟩, ⟨%d1, H1⟩, ⟨%d2, H2⟩, ⟨%d3, H3⟩, ⟨%d4, H4⟩, ⟨%d5, H5⟩⟩
    iapply (runLast c (grid0.coords t) (ms0 t) (hs0 t) (ms1 t) (hs1 t) (ms2 t) (hs2 t) (ms3 t) (hs3 t) (ms4 t) (hs4 t) (ms5 t) (hs5 t)
      scM (Memref.isWhole_whole _) hcR hcI hcL (xin m c t d0) (iblk m c 1 t) (iblk m c 2 t) (iblk m c 3 t) (iblk m c 4 t)
      (scAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    simp only [k0_pay5, k0_pay6, k0_pay7, k0_pay8, max_xin m c t h6 d0]
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    iexact H5
  · have hcL : ¬condLast (grid0.coords t) := fun h => h6 ((hLast t).mp h)
    have hcI : condInner (grid0.coords t) := (hInner t).mpr h6
    rw [leaves_5_idle m c t h6]
    by_cases h0 : t.val % 7 = 0
    · -- the first column tile
      have hcR : condReset (grid0.coords t) := (hReset t).mpr h0
      rw [scAt_first m c t h0]
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩⟩
        iapply (runFirst c (grid0.coords t) (ms0 t) (hs0 t) (ms1 t) (hs1 t) (ms2 t) (hs2 t) (ms3 t) (hs3 t) (ms4 t) (hs4 t) (ms5 t) (hs5 t)
          scM (Memref.isWhole_whole _) hcR hcI hcL (xin m c t d0) (iblk m c 1 t) (iblk m c 2 t) (iblk m c 3 t) (iblk m c 4 t)
          ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        rw [xin_interior m c t h6 d0]
        isplitl [HS Hg]
        · isplitl [HS]; · iexact HS
          iexact Hg
        isplitl [Ho]; · iexact Ho
        isplitl [H0]; · iexists dFill; iexact H0
        isplitl [H1]; · iexact H1
        isplitl [H2]; · iexact H2
        isplitl [H3]; · iexact H3
        isplitl [H4]; · iexact H4
        iexists d5; iexact H5
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply (runFirst c (grid0.coords t) (ms0 t) (hs0 t) (ms1 t) (hs1 t) (ms2 t) (hs2 t) (ms3 t) (hs3 t) (ms4 t) (hs4 t) (ms5 t) (hs5 t)
          scM (Memref.isWhole_whole _) hcR hcI hcL (xin m c t d0) (iblk m c 1 t) (iblk m c 2 t) (iblk m c 3 t) (iblk m c 4 t)
          ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        rw [xin_interior m c t h6 d0]
        isplitl [HS Hg]
        · isplitl [HS]; · iexact HS
          iexact Hg
        isplitl [Ho]; · iexact Ho
        isplitl [H0]; · iexists dFill; iexact H0
        isplitl [H1]; · iexact H1
        isplitl [H2]; · iexact H2
        isplitl [H3]; · iexact H3
        isplitl [H4]; · iexact H4
        iexists d5; iexact H5
    · -- an interior column tile
      have hcR : ¬condReset (grid0.coords t) := fun h => h0 ((hReset t).mp h)
      have hz : t.val ≠ 0 := fun h => h0 (by rw [h])
      rw [scAt_inner m c t h0 h6, PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runInner c (grid0.coords t) (ms0 t) (hs0 t) (ms1 t) (hs1 t) (ms2 t) (hs2 t) (ms3 t) (hs3 t) (ms4 t) (hs4 t) (ms5 t) (hs5 t)
        scM (Memref.isWhole_whole _) hcR hcI hcL (xin m c t d0) (iblk m c 1 t) (iblk m c 2 t) (iblk m c 3 t) (iblk m c 4 t)
        ((dats m 0 c).before 5 t d5) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      rw [xin_interior m c t h6 d0]
      isplitl [HS Hg]
      · isplitl [HS]; · iexact HS
        iexact Hg
      isplitl [Ho]; · iexact Ho
      isplitl [H0]; · iexists dFill; iexact H0
      isplitl [H1]; · iexact H1
      isplitl [H2]; · iexact H2
      isplitl [H3]; · iexact H3
      isplitl [H4]; · iexact H4
      iexists d5; iexact H5

/-- The library's body obligation (each buffer described where its transfers move it), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 56 := N_0; omega)

/-! ## The run and the frame -/

set_option backward.isDefEq.respectTransparency.types false in
/-- Every weakly fair execution of @main terminates, every array of the pipeline ending at what the library computes
    from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.Kernel.Hand

end
-- ==== Proof.BodyCases.lean ====
import proofs.«420491_j3599182594543_3_alg».proof.Proof.Gen.KernelIdeal.Frame
import proofs.«420491_j3599182594543_3_alg».proof.Proof.Gen.KernelIdeal.Skeleton
import Idealize.ShloMosaic.Lib.Pipeline.Value

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The kernel body on any whole staging memrefs, one triple per control case of the column step.

    The body keeps a running row maximum in a scratch column across the seven column tiles of a row tile: at the
    first tile it resets the scratch to minus infinity and folds the tile's row maxima in; at the interior tiles
    it folds the tile's row maxima into what the scratch held; at the last tile it folds in the row maxima of the
    tile with the lanes past column 50256 masked, then computes the row tile's losses from that maximum and stores
    them, the only store to the result's buffer. -/

/-- The three branch conditions of the body as the skeleton spells them, over the grid coordinates. -/
abbrev condReset (i : grid0.Coords) : Prop :=
  (Scalar.cmpi .ne (Scalar.extui (Scalar.cmpi .eq (BitVec.ofNat 32 (i 1).val) 0#32)) 0#32) = 1#1
abbrev condInner (i : grid0.Coords) : Prop :=
  (Scalar.cmpi .ne (Scalar.extui (Scalar.xori (Scalar.cmpi .eq (BitVec.ofNat 32 (i 1).val) 6#32) 1#1)) 0#32) = 1#1
abbrev condLast (i : grid0.Coords) : Prop := k0_cond3 i = 1#1

set_option maxHeartbeats 4000000 in
/-- First column tile: the scratch, whatever it held, ends at the tile's row maxima folded into minus infinity;
    every window's buffer is handed back as found. -/
theorem runFirst (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : condReset i) (hc1 : condInner i) (hc2 : ¬condLast i)
    (x0 : Vec F S512x8192 .f32) (x1 : Vec F S512x1 .i32) (x2 : Vec F S1x512 .i32) (x3 : Vec F S512x512 .f32) (x4 : Vec F S512x1 .f32)
    (x5 : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ (∃ d, owns (c : Thread nD τ) arg8 fullShare d)
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ owns (c : Thread nD τ) arg8 fullShare (k0_pay2 x0 (k0_pay1 (F := F)))) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%ds0, %fs0, -, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    have hz : (![0, 0] : Fin 2 → Nat) = fun _ => 0 := funext fun a => by fin_cases a <;> rfl
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, View.ld_unit_zero (S := S512x8192) hz, View.readCov_unit_zero (S := S512x1) _ hz]

set_option maxHeartbeats 4000000 in
/-- An interior column tile: the scratch, holding `xs`, ends at the tile's row maxima folded into `xs`. -/
theorem runInner (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condReset i) (hc1 : condInner i) (hc2 : ¬condLast i)
    (x0 : Vec F S512x8192 .f32) (x1 : Vec F S512x1 .i32) (x2 : Vec F S1x512 .i32) (x3 : Vec F S512x512 .f32) (x4 : Vec F S512x1 .f32)
    (x5 : Vec F S512x1 .f32) (xs : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
            ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ owns (c : Thread nD τ) arg7 fullShare x5
                ∗ owns (c : Thread nD τ) arg8 fullShare (k0_pay2 x0 xs)) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4; obtain rfl := harg7.eq_unread hf5
    obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; · ipureintro; exact harg7.read_unread _
      iexact H5
    iexists _; isplitr
    swap; · iexact HS0
    ipureintro
    have hz : (![0, 0] : Fin 2 → Nat) = fun _ => 0 := funext fun a => by fin_cases a <;> rfl
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, harg8.read_unread, View.ld_unit_zero (S := S512x8192) hz, View.ld_unit_zero (S := S512x1) hz]

set_option maxHeartbeats 8000000 in
/-- The last column tile: the scratch, holding `xs`, ends at the masked tile's row maxima folded into `xs`, and
    the result's buffer, whatever it held, at the row tile's losses computed from that maximum. -/
theorem runLast (c : Dev nD) (i : grid0.Coords)
    (arg2 : Memref sig .tc .vmem S512x8192 .f32) (harg2 : arg2.IsWhole) (arg3 : Memref sig .tc .vmem S512x1 .i32) (harg3 : arg3.IsWhole)
    (arg4 : Memref sig .tc .vmem S1x512 .i32) (harg4 : arg4.IsWhole) (arg5 : Memref sig .tc .vmem S512x512 .f32) (harg5 : arg5.IsWhole)
    (arg6 : Memref sig .tc .vmem S512x1 .f32) (harg6 : arg6.IsWhole) (arg7 : Memref sig .tc .vmem S512x1 .f32) (harg7 : arg7.IsWhole)
    (arg8 : Memref sig .tc .vmem S512x1 .f32) (harg8 : arg8.IsWhole)
    (hc0 : ¬condReset i) (hc1 : ¬condInner i) (hc2 : condLast i)
    (x0 : Vec F S512x8192 .f32) (x1 : Vec F S512x1 .i32) (x2 : Vec F S1x512 .i32) (x3 : Vec F S512x512 .f32) (x4 : Vec F S512x1 .f32)
    (xs : Vec F S512x1 .f32) (E : Set ℕ) (K : PUnit → sProp 𝕄) :
        iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4 ∗ (∃ d, owns (c : Thread nD τ) arg7 fullShare d)
            ∗ owns (c : Thread nD τ) arg8 fullShare xs
            ∗ (iprop(owns (c : Thread nD τ) arg2 fullShare x0 ∗ owns (c : Thread nD τ) arg3 fullShare x1 ∗ owns (c : Thread nD τ) arg4 fullShare x2
            ∗ owns (c : Thread nD τ) arg5 fullShare x3 ∗ owns (c : Thread nD τ) arg6 fullShare x4
                ∗ owns (c : Thread nD τ) arg7 fullShare
                    (k0_pay3 (k0_pay6 (BitVec.ofNat 32 (i 1).val) x0 xs x4) (k0_pay7 (BitVec.ofNat 32 (i 1).val) x0 xs x1 x3 x2)
                      (k0_pay8 (BitVec.ofNat 32 (i 1).val) x0 xs x1 x3 x2))
                ∗ owns (c : Thread nD τ) arg8 fullShare (k0_pay5 (BitVec.ofNat 32 (i 1).val) x0 xs)) -∗ K ⟨⟩))
          ⊢ wp frame (wpE (defs₀ (F := F)) Variants.none c none) E
              (cc0__fused_kernel i arg2 harg2 arg3 harg3 arg4 harg4 arg5 harg5 arg6 harg6 arg7 harg7 arg8 harg8) K := by
    simp only [cc0__fused_kernel_eq_skeleton]; unfold cc0__fused_kernel_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%fs0, %hfs0, HS0⟩, Hk⟩
    obtain rfl := harg2.eq_unread hf0; obtain rfl := harg3.eq_unread hf1; obtain rfl := harg4.eq_unread hf2
    obtain rfl := harg5.eq_unread hf3; obtain rfl := harg6.eq_unread hf4
    obtain rfl := harg8.eq_unread hfs0
    sl_exec (disch := first | exact hc0 | exact hc1 | exact hc2)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    have hz : (![0, 0] : Fin 2 → Nat) = fun _ => 0 := funext fun a => by fin_cases a <;> rfl
    isplitl [H5]
    · iexists _; isplitr
      swap; · iexact H5
      ipureintro
      refine (View.read_writes_eq_canon _ _ _ (fun y => ⟨_, List.mem_cons_self .., View.mem_set_unit_zero hz inb_S512x1_S512x1_0_0 y⟩)).trans ?_
      rw [View.canon_cons_unit_zero (S := S512x1) hz]
      sl_unfold_words
      simp only [View.readAt_eq_ld, harg2.read_unread, harg3.read_unread, harg4.read_unread, harg5.read_unread, harg6.read_unread, harg8.read_unread,
        View.ld_unit_zero (S := S512x8192) hz, View.ld_unit_zero (S := S512x1) hz, View.ld_unit_zero (S := S512x512) hz, View.ld_unit_zero (S := S1x512) hz]
    iexists _; isplitr
    swap; · iexact HS0
    ipureintro
    refine (View.read_writes_eq_canon _ _ _ (fun y => ⟨_, List.mem_cons_self .., View.mem_set_unit_zero hz inb_S512x1_S512x1_0_0 y⟩)).trans ?_
    rw [View.canon_cons_unit_zero (S := S512x1) hz]
    sl_unfold_words
    simp only [View.readAt_eq_ld, harg2.read_unread, harg8.read_unread, View.ld_unit_zero (S := S512x8192) hz, View.ld_unit_zero (S := S512x1) hz]

end Cert.KernelIdeal.Hand

end
-- ==== Proof.PointData.lean ====
/-
  The proof data of the one pipeline: what every window's staging buffer and the kernel's scratch column hold
  after the body at each of the 56 grid points (8 row tiles × 7 column tiles, the column step `t % 7`).

  The scratch column is a running row maximum: reset and folded at column step 0, folded at steps 1 to 5, and at
  step 6 folded with the lanes past the array's last column masked out.  The result's buffer is stored once per
  row tile, at column step 6, and is idle (handed back as found) at the other points.  The logits' window is the
  only one whose last block overhangs its array; what its buffer holds past the array's end is a parameter `d`
  of what the body finds, and the canonical filler `dFill` stands for it in the data.
-/
import proofs.«420491_j3599182594543_3_alg».proof.Proof.BodyCases

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The staging memrefs at a point, and the scratch column -/

abbrev ms0 (t : Fin cfg0.N) : Memref sig .tc .vmem S512x8192 .f32 := win0_0.stage (cfg0.slots t 0)
abbrev hs0 (t : Fin cfg0.N) : (ms0 t).IsWhole := hstage0_0 ((cfg0.slots t 0).cast nbuf0_0)
abbrev ms1 (t : Fin cfg0.N) : Memref sig .tc .vmem S512x1 .i32 := win0_1.stage (cfg0.slots t 1)
abbrev hs1 (t : Fin cfg0.N) : (ms1 t).IsWhole := hstage0_1 ((cfg0.slots t 1).cast nbuf0_1)
abbrev ms2 (t : Fin cfg0.N) : Memref sig .tc .vmem S1x512 .i32 := win0_2.stage (cfg0.slots t 2)
abbrev hs2 (t : Fin cfg0.N) : (ms2 t).IsWhole := hstage0_2 ((cfg0.slots t 2).cast nbuf0_2)
abbrev ms3 (t : Fin cfg0.N) : Memref sig .tc .vmem S512x512 .f32 := win0_3.stage (cfg0.slots t 3)
abbrev hs3 (t : Fin cfg0.N) : (ms3 t).IsWhole := hstage0_3 ((cfg0.slots t 3).cast nbuf0_3)
abbrev ms4 (t : Fin cfg0.N) : Memref sig .tc .vmem S512x1 .f32 := win0_4.stage (cfg0.slots t 4)
abbrev hs4 (t : Fin cfg0.N) : (ms4 t).IsWhole := hstage0_4 ((cfg0.slots t 4).cast nbuf0_4)
abbrev ms5 (t : Fin cfg0.N) : Memref sig .tc .vmem S512x1 .f32 := win0_5.stage (cfg0.slots t 5)
abbrev hs5 (t : Fin cfg0.N) : (ms5 t).IsWhole := hstage0_5 ((cfg0.slots t 5).cast nbuf0_5)
/-- The scratch column: a whole scoped buffer of the kernel's own, passed beside the windows. -/
abbrev scM : Memref sig .tc .vmem S512x1 .f32 := Memref.whole cc0_scratch0

/-- The invariant the launch hands the region: the scratch column at some contents, and the generator register. -/
theorem PhiA_eq (c : Dev nD) :
    (Pipeline.ΦA spec0 c : sProp 𝕄)
      = iprop(iprop((∃ d, owns (c : Thread nD τ) scM fullShare d)) ∗ (∃ r, prngReg c r)) := by
  unfold Pipeline.ΦA; rw [scopedRest0_eq]; simp only [scM, owns_whole]; try rfl

/-! ## The branch conditions over the grid, and where the result's window is idle -/

theorem hReset : ∀ t : Fin cfg0.N, condReset (grid0.coords t) ↔ t.val % 7 = 0 :=
  (by decide +kernel : ∀ t : Fin grid0.N, condReset (grid0.coords t) ↔ t.val % 7 = 0)
theorem hInner : ∀ t : Fin cfg0.N, condInner (grid0.coords t) ↔ ¬t.val % 7 = 6 :=
  (by decide +kernel : ∀ t : Fin grid0.N, condInner (grid0.coords t) ↔ ¬t.val % 7 = 6)
theorem hLast : ∀ t : Fin cfg0.N, condLast (grid0.coords t) ↔ t.val % 7 = 6 :=
  (by decide +kernel : ∀ t : Fin grid0.N, condLast (grid0.coords t) ↔ t.val % 7 = 6)

theorem live0 : ∀ t : Fin cfg0.N, cfg0.idle 0 (grid0.coords t) = false := by decide +kernel
theorem live1 : ∀ t : Fin cfg0.N, cfg0.idle 1 (grid0.coords t) = false := by decide +kernel
theorem live2 : ∀ t : Fin cfg0.N, cfg0.idle 2 (grid0.coords t) = false := by decide +kernel
theorem live3 : ∀ t : Fin cfg0.N, cfg0.idle 3 (grid0.coords t) = false := by decide +kernel
theorem live4 : ∀ t : Fin cfg0.N, cfg0.idle 4 (grid0.coords t) = false := by decide +kernel
/-- The result's window is idle at every column step but the last, -/
theorem idle5 : ∀ t : Fin cfg0.N, ¬t.val % 7 = 6 → cfg0.idle 5 (grid0.coords t) = true := by decide +kernel
/-- live at the last, -/
theorem live5 : ∀ t : Fin cfg0.N, t.val % 7 = 6 → cfg0.idle 5 (grid0.coords t) = false := by decide +kernel
/-- and written back only there. -/
theorem noFlush5 (t : Fin cfg0.N) (h : ¬t.val % 7 = 6) : (cfg0.win 5).flush t = false := by
  cases hf : (cfg0.win 5).flush t
  · rfl
  · exact absurd ((flush0_5 t).mp hf) h

/-! ## What the body finds in the logits' buffer, and what it leaves in the scratch and the result's buffer -/

/-- The filler standing for the lanes past the array's end. -/
def dFill : (cfg0.win 0).block.Idx → Elt F (cfg0.win 0).elt := fun _ => Scalar.ofBits .f32 0#32

/-- The logits' staging buffer after the fetch at point `t`, if the lanes the fetch does not move hold `d`. -/
def xin (c : Dev nD) (t : Fin cfg0.N) (d : (cfg0.win 0).block.Idx → Elt F (cfg0.win 0).elt) : Vec F S512x8192 .f32 :=
  (cfg0.win 0).fill (grid0.coords t) d (iblk m c 0 t)

/-- The column step as the body reads it: the second grid coordinate as a word. -/
abbrev kw (t : Fin cfg0.N) : BitVec 32 := BitVec.ofNat 32 ((grid0.coords t) 1).val

/-- THE RUNNING MAXIMUM. What the scratch column holds after the body at position `n`: by the column step, the
    tile's row maxima folded into minus infinity (step 0), into what the point before left (steps 1 to 5), or the
    masked tile's row maxima folded into what the point before left (step 6). -/
def scAt (c : Dev nD) : (n : ℕ) → n < cfg0.N → Vec F S512x1 .f32
  | 0, hn => k0_pay2 (xin m c ⟨0, hn⟩ dFill) (k0_pay1 (F := F))
  | n + 1, hn =>
    if (n + 1) % 7 = 0 then k0_pay2 (xin m c ⟨n + 1, hn⟩ dFill) (k0_pay1 (F := F))
    else if (n + 1) % 7 = 6 then k0_pay5 (kw ⟨n + 1, hn⟩) (xin m c ⟨n + 1, hn⟩ dFill) (scAt c n (Nat.lt_of_succ_lt hn))
    else k0_pay2 (xin m c ⟨n + 1, hn⟩ dFill) (scAt c n (Nat.lt_of_succ_lt hn))

theorem scAt_first (c : Dev nD) (t : Fin cfg0.N) (h0 : t.val % 7 = 0) :
    scAt m c t.val t.isLt = k0_pay2 (xin m c t dFill) (k0_pay1 (F := F)) := by
  obtain ⟨n, hn⟩ := t
  cases n with
  | zero => rfl
  | succ n => exact if_pos h0

theorem scAt_inner (c : Dev nD) (t : Fin cfg0.N) (h0 : ¬t.val % 7 = 0) (h6 : ¬t.val % 7 = 6) :
    scAt m c t.val t.isLt
      = k0_pay2 (xin m c t dFill) (scAt m c (t.val - 1) (Nat.lt_of_le_of_lt (Nat.sub_le _ _) t.isLt)) := by
  obtain ⟨n, hn⟩ := t
  cases n with
  | zero => exact absurd (Nat.zero_mod _) h0
  | succ n => exact (if_neg h0).trans (if_neg h6)

theorem scAt_last (c : Dev nD) (t : Fin cfg0.N) (h6 : t.val % 7 = 6) :
    scAt m c t.val t.isLt
      = k0_pay5 (kw t) (xin m c t dFill) (scAt m c (t.val - 1) (Nat.lt_of_le_of_lt (Nat.sub_le _ _) t.isLt)) := by
  obtain ⟨n, hn⟩ := t
  cases n with
  | zero => exact absurd h6 (by show ¬((0 : ℕ) % 7 = 6); decide)
  | succ n => exact (if_neg (by dsimp only at h6 ⊢; omega)).trans (if_pos h6)

/-- What the result's buffer holds after the body at a last column step: the row tile's losses, computed from the
    masked running maximum, the labels' block, the sampled words' row, the gathered logits' block and the labels'
    logits' block.  (At the other points the window is idle and this is not consulted.) -/
def outAt (c : Dev nD) (t : Fin cfg0.N) : Vec F S512x1 .f32 :=
  if h : t.val % 7 = 6 then
    k0_pay3
      (k0_pay6 (kw t) (xin m c t dFill) (scAt m c (t.val - 1) (Nat.lt_of_le_of_lt (Nat.sub_le _ _) t.isLt)) (iblk m c 4 t))
      (k0_pay7 (kw t) (xin m c t dFill) (scAt m c (t.val - 1) (Nat.lt_of_le_of_lt (Nat.sub_le _ _) t.isLt)) (iblk m c 1 t) (iblk m c 3 t) (iblk m c 2 t))
      (k0_pay8 (kw t) (xin m c t dFill) (scAt m c (t.val - 1) (Nat.lt_of_le_of_lt (Nat.sub_le _ _) t.isLt)) (iblk m c 1 t) (iblk m c 3 t) (iblk m c 2 t))
  else fun _ => Scalar.ofBits .f32 0#32

/-! ## The invariant carrying the scratch, and the proof data -/

/-- Before the first point the launch's invariant; afterwards the scratch column at what the point before left, and
    the generator register at some state. -/
def PhiS (c : Dev nD) : (n : ℕ) → n ≤ cfg0.N → sProp 𝕄
  | 0, _ => Pipeline.ΦA spec0 c
  | n + 1, hn => iprop(iprop(owns (c : Thread nD τ) scM fullShare (scAt m c n hn)) ∗ (∃ r, prngReg c r))

theorem PhiS_zero (c : Dev nD) (n : ℕ) (h : n ≤ cfg0.N) (hz : n = 0) : PhiS m c n h = Pipeline.ΦA spec0 c := by
  subst hz; rfl

theorem PhiS_succ (c : Dev nD) (n : ℕ) (hn : n < cfg0.N) :
    PhiS m c (n + 1) hn = iprop(iprop(owns (c : Thread nD τ) scM fullShare (scAt m c n hn)) ∗ (∃ r, prngReg c r)) := rfl

theorem PhiS_pos (c : Dev nD) (n : ℕ) (h : n ≤ cfg0.N) (hz : n ≠ 0) :
    PhiS m c n h = iprop(iprop(owns (c : Thread nD τ) scM fullShare (scAt m c (n - 1) (by omega))) ∗ (∃ r, prngReg c r)) := by
  cases n with
  | zero => exact absurd rfl hz
  | succ n => rfl

/-- The proof data on core `c`: the arrays as the region finds them; after the body the logits' buffer at its block
    with the canonical filler past the array's end, the four other inputs' at their blocks, the result's at
    `outAt`; the invariant `PhiS`; nothing owed; full shares. -/
def dats (_ : Fin 1) (c : Dev nD) : Dat τ (Elt F) Unit ℕ (UR sig nD τ) ℕ cfg0 c where
  A w := V m c (Pipeline.arrRef spec0 w)
  after w t := match w with
    | ⟨0, _⟩ => xin m c t dFill
    | ⟨1, _⟩ => iblk m c 1 t
    | ⟨2, _⟩ => iblk m c 2 t
    | ⟨3, _⟩ => iblk m c 3 t
    | ⟨4, _⟩ => iblk m c 4 t
    | ⟨5, _⟩ => outAt m c t
  Φ t := PhiS m c t.val (Nat.le_of_lt_succ t.isLt)
  q _ := fullShare
  owed _ := 0

theorem A_eq (c : Dev nD) (w : Fin cfg0.W) : (dats m 0 c).A w = V m c (Pipeline.arrRef spec0 w) := by
  dsimp only [dats]

theorem PhiS_castSucc (c : Dev nD) (t : Fin cfg0.N) :
    (dats m 0 c).Φ t.castSucc = PhiS m c t.val (Nat.le_of_lt t.isLt) := by
  dsimp only [dats]; simp only [Fin.coe_castSucc]

theorem after_0 (c : Dev nD) (t : Fin cfg0.N) : (dats m 0 c).after 0 t = xin m c t dFill := by dsimp only [dats]
theorem after_1 (c : Dev nD) (t : Fin cfg0.N) : (dats m 0 c).after 1 t = iblk m c 1 t := by dsimp only [dats]
theorem after_2 (c : Dev nD) (t : Fin cfg0.N) : (dats m 0 c).after 2 t = iblk m c 2 t := by dsimp only [dats]
theorem after_3 (c : Dev nD) (t : Fin cfg0.N) : (dats m 0 c).after 3 t = iblk m c 3 t := by dsimp only [dats]
theorem after_4 (c : Dev nD) (t : Fin cfg0.N) : (dats m 0 c).after 4 t = iblk m c 4 t := by dsimp only [dats]
theorem after_5 (c : Dev nD) (t : Fin cfg0.N) : (dats m 0 c).after 5 t = outAt m c t := by dsimp only [dats]

/-- The logits' buffer is fetched at every point: the body finds the block, `d` past the array's end. -/
theorem before_0 (c : Dev nD) (t : Fin cfg0.N) (d) : (dats m 0 c).before 0 t d = xin m c t d := by
  unfold Dat.before; rw [if_pos (fetch0_0 t)]; rfl

/-- The four other inputs' buffers hold their blocks at every point, fetched there or not. -/
theorem before_1 (c : Dev nD) (t : Fin cfg0.N) (d) : (dats m 0 c).before 1 t d = iblk m c 1 t :=
  before0_1_of m (dats m 0 c) (A_eq m c 1) (after_1 m c) t d
theorem before_2 (c : Dev nD) (t : Fin cfg0.N) (d) : (dats m 0 c).before 2 t d = iblk m c 2 t :=
  before0_2_of m (dats m 0 c) (A_eq m c 2) (after_2 m c) t d
theorem before_3 (c : Dev nD) (t : Fin cfg0.N) (d) : (dats m 0 c).before 3 t d = iblk m c 3 t :=
  before0_3_of m (dats m 0 c) (A_eq m c 3) (after_3 m c) t d
theorem before_4 (c : Dev nD) (t : Fin cfg0.N) (d) : (dats m 0 c).before 4 t d = iblk m c 4 t :=
  before0_4_of m (dats m 0 c) (A_eq m c 4) (after_4 m c) t d

end Cert.KernelIdeal.Hand

end
-- ==== Proof.MaskedTail.lean ====
import proofs.«420491_j3599182594543_3_alg».proof.Proof.Gen.KernelIdeal.Frame
import proofs.«420491_j3599182594543_3_alg».proof.Proof.Gen.KernelIdeal.Skeleton
import Idealize.ShloMosaic.Lib.ValueIdx

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-! The logits' window is 8192 columns wide and the array 50257: the seventh column tile holds 1105 columns of the
    array and 7087 lanes past its end, whose contents nothing names.  The body's last-tile branch compares each
    lane's column number `6 · 8192 + lane` with 50257 and replaces the lanes that fail by minus infinity before
    taking the row maximum, so what those lanes held does not matter. -/

/-- At the interior column tiles the fetch moves the whole block: no axis is cut. -/
theorem interior_uncut : ∀ t : Fin cfg0.N, ¬t.val % 7 = 6 → ∀ a, (cfg0.win 0).clip (grid0.coords t) a = none :=
  (by decide +kernel : ∀ t : Fin grid0.N, ¬t.val % 7 = 6 → ∀ a, win0_0.clip (grid0.coords t) a = none)

/-- Hence there the staging buffer after the fetch does not depend on what it held before. -/
theorem fill_interior (t : Fin cfg0.N) (ht : ¬t.val % 7 = 6) {α : Type} (d d' : (cfg0.win 0).block.Idx → α)
    (g : ((cfg0.win 0).xblock (grid0.coords t)).Idx → α) :
    (cfg0.win 0).fill (grid0.coords t) d g = (cfg0.win 0).fill (grid0.coords t) d' g :=
  Pipeline.fill_of_clip_none (cfg := cfg0) 0 (grid0.coords t) (interior_uncut t ht) d d' g

/-- At a last column tile the second grid coordinate is 6. -/
theorem lastTile_coord : ∀ t : Fin cfg0.N, t.val % 7 = 6 → ((grid0.coords t) 1).val = 6 :=
  (by decide +kernel : ∀ t : Fin grid0.N, t.val % 7 = 6 → ((grid0.coords t) 1).val = 6)

/-- There the fetch moves all 512 rows and the first `50257 − 6 · 8192 = 1105` columns of the block. -/
theorem lastTile_xsize : ∀ t : Fin cfg0.N, t.val % 7 = 6 →
    ∀ a : Fin 2, (cfg0.win 0).xsize (grid0.coords t) a = (![512, 1105] : Fin 2 → Nat) a :=
  (by decide +kernel : ∀ t : Fin grid0.N, t.val % 7 = 6 →
    ∀ a : Fin 2, win0_0.xsize (grid0.coords t) a = (![512, 1105] : Fin 2 → Nat) a)

/-- The body's last-tile maximum is a function of the masked block: the block with the lanes whose column number
    `arg1 · 8192 + lane` is not below 50257 replaced by minus infinity. -/
theorem k0_pay4_eq (arg1 : BitVec 32) (v4 : Vec F S512x8192 .f32) (v18 : Vec F S512x1 .f32) :
    k0_pay4 arg1 v4 v18 = maximumf v18 (shapeCast S512x1 (multiReduction .maximumf [1] S512
      (select (cmpi .slt (addi (broadcast S512x8192 (Scalar.muli arg1 8192#32)) (iota .tc S512x8192 32 [1] iota_S512x8192_d1_w32))
          (broadcast S512x8192 50257#32)) v4 (broadcast S512x8192 (Scalar.ofBits .f32 0xFF800000#32)))
      0xFF800000#32 reduces_S512x8192_S512 (.inl rfl) rfl) shapeCasts_S512_S512x1) := rfl

/-- At a last column tile the running maximum the body computes does not depend on the lanes past the array's
    end: they are the lanes the mask replaces by minus infinity. -/
theorem lastTile_max_tail_irrelevant (t : Fin cfg0.N) (ht : t.val % 7 = 6)
    (d d' : (cfg0.win 0).block.Idx → Elt F .f32) (g : ((cfg0.win 0).xblock (grid0.coords t)).Idx → Elt F .f32)
    (prev : Vec F S512x1 .f32) :
    k0_pay4 (BitVec.ofNat 32 ((grid0.coords t) 1).val) ((cfg0.win 0).fill (grid0.coords t) d g) prev
      = k0_pay4 (BitVec.ofNat 32 ((grid0.coords t) 1).val) ((cfg0.win 0).fill (grid0.coords t) d' g) prev := by
  rw [k0_pay4_eq, k0_pay4_eq]
  refine congrArg (fun X => maximumf prev (shapeCast S512x1 (multiReduction .maximumf [1] S512 X
      0xFF800000#32 reduces_S512x8192_S512 (.inl rfl) rfl) shapeCasts_S512_S512x1)) ?_
  funext j
  rw [ValueIdx.select_apply, ValueIdx.select_apply]
  by_cases hm : (cfg0.win 0).moved (grid0.coords t) j = true
  · -- a lane the fetch moves holds the fetched element, whatever the buffer held before
    have e : (cfg0.win 0).fill (grid0.coords t) d g j = (cfg0.win 0).fill (grid0.coords t) d' g j := by
      unfold Window.fill; rw [dif_pos hm, dif_pos hm]
    rw [e]
  · -- a lane the fetch does not move has column number at least 50257: its mask bit is 0
    have hbit : (cmpi .slt (addi (broadcast S512x8192 (Scalar.muli (BitVec.ofNat 32 ((grid0.coords t) 1).val) 8192#32))
        (iota .tc S512x8192 32 [1] iota_S512x8192_d1_w32)) (broadcast S512x8192 50257#32) : IVec S512x8192 1) j = 0#1 := by
      refine ValueIdx.eq_zero_of_ne_one fun h1 => hm ?_
      have hrow : (j 0).val < 512 := (j 0).isLt
      have hcol : (j 1).val < 8192 := (j 1).isLt
      have hx := lastTile_xsize t ht
      have hlt : (IntOp.addi (Scalar.muli (BitVec.ofNat 32 ((grid0.coords t) 1).val) 8192#32)
          (BitVec.ofNat 32 (0 * S512x8192.size 1 + (j 1).val))).toInt < (50257#32 : BitVec 32).toInt := IntOp.cmpi_slt.1 h1
      rw [lastTile_coord t ht] at hlt
      have hc : (j 1).val < 1105 := by
        have e1 : (50257#32 : BitVec 32).toInt = 50257 := by decide
        have e2 : IntOp.addi (Scalar.muli (BitVec.ofNat 32 6) 8192#32) (BitVec.ofNat 32 (0 * S512x8192.size 1 + (j 1).val))
            = BitVec.ofNat 32 (49152 + (j 1).val) := by
          show BitVec.ofNat 32 6 * 8192#32 + BitVec.ofNat 32 (0 * S512x8192.size 1 + (j 1).val) = _
          apply BitVec.eq_of_toNat_eq
          simp only [BitVec.toNat_add, BitVec.toNat_mul, BitVec.toNat_ofNat]
          omega
        have e3 : (BitVec.ofNat 32 (49152 + (j 1).val)).toInt = ((49152 + (j 1).val : Nat) : Int) := by
          rw [BitVec.toInt_eq_toNat_of_lt (by rw [BitVec.toNat_ofNat]; omega), BitVec.toNat_ofNat]; omega
        rw [e2, e1, e3] at hlt
        omega
      have h0' : (j 0).val < (cfg0.win 0).xsize (grid0.coords t) (0 : Fin 2) := by rw [hx 0]; exact hrow
      have h1' : (j 1).val < (cfg0.win 0).xsize (grid0.coords t) (1 : Fin 2) := by rw [hx 1]; exact hc
      exact ((cfg0.win 0).moved_iff _ j).mpr (Fin.forall_fin_two.2 ⟨h0', h1'⟩)
    rw [hbit, ValueIdx.select_zero, ValueIdx.select_zero]

end Cert.KernelIdeal.Hand

end
-- ==== Proof.BodyObligation.lean ====
/-
  The body obligation of the pipeline and the frame run.

  At every grid point the body, handed the invariant (the scratch column at what the point before left) and each
  window's buffer at what it then holds, runs to the invariant of the next point and each buffer at what the proof
  data says: by the column step one of the three triples of the body.  The logits' buffer arrives holding its
  block with arbitrary words `d` past the array's end and is handed back so; that the scratch and the result do
  not depend on `d` is the masking lemma (last tile) and the fact that interior tiles are not cut.
-/
import proofs.«420491_j3599182594543_3_alg».proof.Proof.PointData
import proofs.«420491_j3599182594543_3_alg».proof.Proof.MaskedTail

set_option maxRecDepth 16384

noncomputable section

namespace Cert.KernelIdeal.Hand

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The unnamed tail of the logits' buffer does not reach the scratch or the result -/

theorem xin_interior (c : Dev nD) (t : Fin cfg0.N) (h6 : ¬t.val % 7 = 6) (d) : xin m c t d = xin m c t dFill :=
  fill_interior t h6 d dFill (iblk m c 0 t)

theorem max_xin (c : Dev nD) (t : Fin cfg0.N) (h6 : t.val % 7 = 6) (d) (prev : Vec F S512x1 .f32) :
    k0_pay4 (kw t) (xin m c t d) prev = k0_pay4 (kw t) (xin m c t dFill) prev :=
  lastTile_max_tail_irrelevant t h6 d dFill (iblk m c 0 t) prev

/-! ## What each window's buffer is left at, window by window -/

theorem leaves_0 (c : Dev nD) (t : Fin cfg0.N) :
    (dats m 0 c).leaves 0 t = iprop(∃ d, owns (c : Thread nD τ) (ms0 t) fullShare (xin m c t d)) := by
  unfold Dat.leaves; rw [live0 t]
  show iprop(∃ d, owns (c : Thread nD τ) (ms0 t) fullShare ((cfg0.win 0).fill (grid0.coords t) d ((cfg0.win 0).cut (grid0.coords t) ((dats m 0 c).after 0 t)))) = _
  rw [after_0]; unfold xin; simp only [Window.cut_fill]
  rfl
theorem leaves_1 (c : Dev nD) (t : Fin cfg0.N) :
    (dats m 0 c).leaves 1 t = owns (c : Thread nD τ) (ms1 t) fullShare (iblk m c 1 t) := by
  unfold Dat.leaves; rw [live1 t]
  show owns (c : Thread nD τ) (ms1 t) fullShare ((dats m 0 c).after 1 t) = _
  rw [after_1]
theorem leaves_2 (c : Dev nD) (t : Fin cfg0.N) :
    (dats m 0 c).leaves 2 t = owns (c : Thread nD τ) (ms2 t) fullShare (iblk m c 2 t) := by
  unfold Dat.leaves; rw [live2 t]
  show owns (c : Thread nD τ) (ms2 t) fullShare ((dats m 0 c).after 2 t) = _
  rw [after_2]
theorem leaves_3 (c : Dev nD) (t : Fin cfg0.N) :
    (dats m 0 c).leaves 3 t = owns (c : Thread nD τ) (ms3 t) fullShare (iblk m c 3 t) := by
  unfold Dat.leaves; rw [live3 t]
  show owns (c : Thread nD τ) (ms3 t) fullShare ((dats m 0 c).after 3 t) = _
  rw [after_3]
theorem leaves_4 (c : Dev nD) (t : Fin cfg0.N) :
    (dats m 0 c).leaves 4 t = owns (c : Thread nD τ) (ms4 t) fullShare (iblk m c 4 t) := by
  unfold Dat.leaves; rw [live4 t]
  show owns (c : Thread nD τ) (ms4 t) fullShare ((dats m 0 c).after 4 t) = _
  rw [after_4]
/-- The result's buffer: at a last column step the row tile's losses, -/
theorem leaves_5_last (c : Dev nD) (t : Fin cfg0.N) (h6 : t.val % 7 = 6) :
    (dats m 0 c).leaves 5 t = owns (c : Thread nD τ) (ms5 t) fullShare (outAt m c t) := by
  unfold Dat.leaves; rw [live5 t h6]
  show owns (c : Thread nD τ) (ms5 t) fullShare ((dats m 0 c).after 5 t) = _
  rw [after_5]
/-- elsewhere what the body found. -/
theorem leaves_5_idle (c : Dev nD) (t : Fin cfg0.N) (h6 : ¬t.val % 7 = 6) :
    (dats m 0 c).leaves 5 t = iprop(∃ d, owns (c : Thread nD τ) (ms5 t) fullShare ((dats m 0 c).before 5 t d)) :=
  (dats m 0 c).leaves_idle 5 t (idle5 t h6) (noFlush5 t h6)

/-! ## The body obligation, at a generic point -/

def bodyPre (c : Dev nD) (t : Fin cfg0.N) : sProp 𝕄 :=
  iprop((dats m 0 c).Φ t.castSucc ∗ (dats m 0 c).owesAt () t.castSucc
    ∗ (∃ d, owns (c : Thread nD τ) (ms0 t) fullShare ((dats m 0 c).before 0 t d))
    ∗ (∃ d, owns (c : Thread nD τ) (ms1 t) fullShare ((dats m 0 c).before 1 t d))
    ∗ (∃ d, owns (c : Thread nD τ) (ms2 t) fullShare ((dats m 0 c).before 2 t d))
    ∗ (∃ d, owns (c : Thread nD τ) (ms3 t) fullShare ((dats m 0 c).before 3 t d))
    ∗ (∃ d, owns (c : Thread nD τ) (ms4 t) fullShare ((dats m 0 c).before 4 t d))
    ∗ (∃ d, owns (c : Thread nD τ) (ms5 t) fullShare ((dats m 0 c).before 5 t d)))

def bodyPost (c : Dev nD) (t : Fin cfg0.N) : sProp 𝕄 :=
  iprop((dats m 0 c).Φ t.succ ∗ (dats m 0 c).owesAt () t.succ
    ∗ (dats m 0 c).leaves 0 t ∗ (dats m 0 c).leaves 1 t ∗ (dats m 0 c).leaves 2 t
    ∗ (dats m 0 c).leaves 3 t ∗ (dats m 0 c).leaves 4 t ∗ (dats m 0 c).leaves 5 t)

set_option maxHeartbeats 8000000 in
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before_0, before_1, before_2, before_3, before_4]
  rw [show (dats m 0 c).owesAt () t.succ = (dats m 0 c).owesAt () t.castSucc from rfl]
  rw [show (dats m 0 c).Φ t.succ = PhiS m c (t.val + 1) t.isLt from rfl, PhiS_succ]
  rw [leaves_0, leaves_1, leaves_2, leaves_3, leaves_4]
  have hN : t.val < 56 := lt_of_lt_of_eq t.isLt (show cfg0.N = 56 from N_0)
  by_cases h6 : t.val % 7 = 6
  · -- the last column tile
    have hcR : ¬condReset (grid0.coords t) := fun h => by have := (hReset t).mp h; omega
    have hcI : ¬condInner (grid0.coords t) := fun h => (hInner t).mp h h6
    have hcL : condLast (grid0.coords t) := (hLast t).mpr h6
    have hz : t.val ≠ 0 := by omega
    rw [leaves_5_last m c t h6, scAt_last m c t h6, PhiS_castSucc m c t, PhiS_pos m c _ _ hz]
    unfold outAt; rw [dif_pos h6]
    iintro ⟨⟨HS, Hg⟩, Ho, ⟨%d0, H0⟩, ⟨%d1, H1⟩, ⟨%d2, H2⟩, ⟨%d3, H3⟩, ⟨%d4, H4⟩, ⟨%d5, H5⟩⟩
    iapply (runLast c (grid0.coords t) (ms0 t) (hs0 t) (ms1 t) (hs1 t) (ms2 t) (hs2 t) (ms3 t) (hs3 t) (ms4 t) (hs4 t) (ms5 t) (hs5 t)
      scM (Memref.isWhole_whole _) hcR hcI hcL (xin m c t d0) (iblk m c 1 t) (iblk m c 2 t) (iblk m c 3 t) (iblk m c 4 t)
      (scAt m c (t.val - 1) (Nat.lt_of_le_of_lt (Nat.sub_le _ _) t.isLt)) Set.univ _)
    isplitl [H0]; · iexact H0
    isplitl [H1]; · iexact H1
    isplitl [H2]; · iexact H2
    isplitl [H3]; · iexact H3
    isplitl [H4]; · iexact H4
    isplitl [H5]; · iexists _; iexact H5
    isplitl [HS]; · iexact HS
    iintro ⟨H0, H1, H2, H3, H4, H5, HS⟩
    simp only [k0_pay5, k0_pay6, k0_pay7, k0_pay8, max_xin m c t h6 d0]
    isplitl [HS Hg]
    · isplitl [HS]; · iexact HS
      iexact Hg
    isplitl [Ho]; · iexact Ho
    isplitl [H0]; · iexists d0; iexact H0
    isplitl [H1]; · iexact H1
    isplitl [H2]; · iexact H2
    isplitl [H3]; · iexact H3
    isplitl [H4]; · iexact H4
    iexact H5
  · have hcL : ¬condLast (grid0.coords t) := fun h => h6 ((hLast t).mp h)
    have hcI : condInner (grid0.coords t) := (hInner t).mpr h6
    rw [leaves_5_idle m c t h6]
    by_cases h0 : t.val % 7 = 0
    · -- the first column tile
      have hcR : condReset (grid0.coords t) := (hReset t).mpr h0
      rw [scAt_first m c t h0]
      by_cases hz : t.val = 0
      · rw [PhiS_castSucc m c t, PhiS_zero m c _ _ hz, PhiA_eq]
        iintro ⟨⟨HS, Hg⟩, Ho, ⟨%d0, H0⟩, ⟨%d1, H1⟩, ⟨%d2, H2⟩, ⟨%d3, H3⟩, ⟨%d4, H4⟩, ⟨%d5, H5⟩⟩
        iapply (runFirst c (grid0.coords t) (ms0 t) (hs0 t) (ms1 t) (hs1 t) (ms2 t) (hs2 t) (ms3 t) (hs3 t) (ms4 t) (hs4 t) (ms5 t) (hs5 t)
          scM (Memref.isWhole_whole _) hcR hcI hcL (xin m c t d0) (iblk m c 1 t) (iblk m c 2 t) (iblk m c 3 t) (iblk m c 4 t)
          ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS]; · iexact HS
        iintro ⟨H0, H1, H2, H3, H4, H5, HS⟩
        rw [xin_interior m c t h6 d0]
        isplitl [HS Hg]
        · isplitl [HS]; · iexact HS
          iexact Hg
        isplitl [Ho]; · iexact Ho
        isplitl [H0]; · iexists dFill; iexact H0
        isplitl [H1]; · iexact H1
        isplitl [H2]; · iexact H2
        isplitl [H3]; · iexact H3
        isplitl [H4]; · iexact H4
        iexists d5; iexact H5
      · rw [PhiS_castSucc m c t, PhiS_pos m c _ _ hz]
        iintro ⟨⟨HS, Hg⟩, Ho, ⟨%d0, H0⟩, ⟨%d1, H1⟩, ⟨%d2, H2⟩, ⟨%d3, H3⟩, ⟨%d4, H4⟩, ⟨%d5, H5⟩⟩
        iapply (runFirst c (grid0.coords t) (ms0 t) (hs0 t) (ms1 t) (hs1 t) (ms2 t) (hs2 t) (ms3 t) (hs3 t) (ms4 t) (hs4 t) (ms5 t) (hs5 t)
          scM (Memref.isWhole_whole _) hcR hcI hcL (xin m c t d0) (iblk m c 1 t) (iblk m c 2 t) (iblk m c 3 t) (iblk m c 4 t)
          ((dats m 0 c).before 5 t d5) Set.univ _)
        isplitl [H0]; · iexact H0
        isplitl [H1]; · iexact H1
        isplitl [H2]; · iexact H2
        isplitl [H3]; · iexact H3
        isplitl [H4]; · iexact H4
        isplitl [H5]; · iexact H5
        isplitl [HS]; · iexists _; iexact HS
        iintro ⟨H0, H1, H2, H3, H4, H5, HS⟩
        rw [xin_interior m c t h6 d0]
        isplitl [HS Hg]
        · isplitl [HS]; · iexact HS
          iexact Hg
        isplitl [Ho]; · iexact Ho
        isplitl [H0]; · iexists dFill; iexact H0
        isplitl [H1]; · iexact H1
        isplitl [H2]; · iexact H2
        isplitl [H3]; · iexact H3
        isplitl [H4]; · iexact H4
        iexists d5; iexact H5
    · -- an interior column tile
      have hcR : ¬condReset (grid0.coords t) := fun h => h0 ((hReset t).mp h)
      have hz : t.val ≠ 0 := fun h => h0 (by rw [h])
      rw [scAt_inner m c t h0 h6, PhiS_castSucc m c t, PhiS_pos m c _ _ hz]
      iintro ⟨⟨HS, Hg⟩, Ho, ⟨%d0, H0⟩, ⟨%d1, H1⟩, ⟨%d2, H2⟩, ⟨%d3, H3⟩, ⟨%d4, H4⟩, ⟨%d5, H5⟩⟩
      iapply (runInner c (grid0.coords t) (ms0 t) (hs0 t) (ms1 t) (hs1 t) (ms2 t) (hs2 t) (ms3 t) (hs3 t) (ms4 t) (hs4 t) (ms5 t) (hs5 t)
        scM (Memref.isWhole_whole _) hcR hcI hcL (xin m c t d0) (iblk m c 1 t) (iblk m c 2 t) (iblk m c 3 t) (iblk m c 4 t)
        ((dats m 0 c).before 5 t d5) (scAt m c (t.val - 1) (Nat.lt_of_le_of_lt (Nat.sub_le _ _) t.isLt)) Set.univ _)
      isplitl [H0]; · iexact H0
      isplitl [H1]; · iexact H1
      isplitl [H2]; · iexact H2
      isplitl [H3]; · iexact H3
      isplitl [H4]; · iexact H4
      isplitl [H5]; · iexact H5
      isplitl [HS]; · iexact HS
      iintro ⟨H0, H1, H2, H3, H4, H5, HS⟩
      rw [xin_interior m c t h6 d0]
      isplitl [HS Hg]
      · isplitl [HS]; · iexact HS
        iexact Hg
      isplitl [Ho]; · iexact Ho
      isplitl [H0]; · iexists dFill; iexact H0
      isplitl [H1]; · iexact H1
      isplitl [H2]; · iexact H2
      isplitl [H3]; · iexact H3
      isplitl [H4]; · iexact H4
      iexists d5; iexact H5

/-- The library's body obligation (each buffer described where its transfers move it), at every point. -/
theorem body_obligation (c : Dev nD) : BodyObligationLoose (dats (F := F) m 0 c) (defs₀ (F := F)) Variants.none () Set.univ := fun t => by
  rw [bigSep_W0, bigSep_W0]
  exact sound_body m c t

/-- What the launch hands the region is the invariant before the first point. -/
theorem hin (c : Dev nD) : Pipeline.ΦA spec0 c ⊢ (dats m 0 c).Φ 0 := by
  rw [show (dats m 0 c).Φ 0 = PhiS m c 0 (Nat.zero_le _) from rfl, PhiS_zero m c 0 _ rfl]
  try exact Idealize.SL.BI.Entails.refl _

/-- After any point but the first the invariant gives the launch's back: the scratch's contents are forgotten. -/
theorem Phi_out (c : Dev nD) (t : Fin (cfg0.N + 1)) (ht : t.val ≠ 0) : (dats m 0 c).Φ t ⊢ Pipeline.ΦA spec0 c := by
  rw [show (dats m 0 c).Φ t = PhiS m c t.val (Nat.le_of_lt_succ t.isLt) from rfl, PhiS_pos m c _ _ ht, PhiA_eq]
  iintro ⟨HS0, Hg⟩
  isplitl [HS0]
  · iexists _; iexact HS0
  iexact Hg

theorem hout (c : Dev nD) : (dats m 0 c).Φ (Fin.last cfg0.N) ⊢ Pipeline.ΦA spec0 c :=
  Phi_out m c _ (by rw [Fin.val_last]; have : cfg0.N = 56 := N_0; omega)

/-! ## The run and the frame -/

set_option backward.isDefEq.respectTransparency.types false in
/-- Every weakly fair execution of @main terminates, every array of the pipeline ending at what the library computes
    from the proof data and every other unscoped buffer as the host lines after the region leave it. -/
theorem run_main : θ_run defs (onTc (τ := τ) (main (F := F))) (s₀ m ρ) (Pipeline.FramePost cfgs (dats m) 0 (Pipeline.afterTail₀ cfgs (dats m) 0 (V0 m) [hostOps1])) :=
  Pipeline.θ_run_frame_around_track cfgs (dats m) (0 : Fin 1) launch0 defs₀ Variants.none m ρ main
    (hbody := fun c => body_obligation m c) (hshare := fun c => (dats m 0 c).share_full fun _ => rfl)
    (howed := fun _ _ => rfl) (V₀ := V0 m) (opss := [hostOps1]) (hsub := sfx_sub) (hfresh := sfx_fresh) (hkeep := sfx_keeps)
    (hmain := hmain m Variants.none) (hA := A_eq m) (hin := hin m) (hout := hout m)

/-- The frame claim's post: the three argument arrays end as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  frame_of m ρ (dats m) (A_eq m) (run_main m ρ)

end Cert.KernelIdeal.Hand

end
-- ==== Proof.KernelRun.lean ====
/-
  The idealized kernel program's run with its result named: every weakly fair execution terminates with the scalar
  result at what the host lines after the region compute from the result array, and the three arguments unchanged.
-/
import proofs.«420491_j3599182594543_3_alg».proof.Proof.BodyObligation

set_option maxRecDepth 16384

noncomputable section

namespace Cert.KernelIdeal.Hand

open Cert.KernelIdeal Cert.KernelIdeal.Gen
open Idealize.ShloMosaic Idealize.ShloMosaic.TcCoe
open Idealize.SL.Sem
open Idealize.ShloMosaic.Pipeline (Dat)

variable {F : FTy → Type} [FloatOps F]

variable (m : (ℓ : Loc nD τ sig) → Buf (Elt F) ℓ) (ρ : Dev nD → PrngReg)

/-- The frame run read at the result buffer (one of the buffers that bypass the region, written by the host lines
    after it) and at the three arguments (as the frame claim reads them). -/
theorem run_result : θ_run defs (onTc (τ := τ) (main (F := F))) ⟨m, fun _ => 0, ρ⟩ (fun r => ∀ c : Dev nD,
      r.2.mem ((c.tc : Thread nD τ).loc main_v7) = Pipeline.afterTail₀ cfgs (dats m) 0 (V0 m) [hostOps1] c main_v7
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)) :=
  (θ_run defs _ _).mono (fun _ h c =>
    ⟨(h c).2 main_v7 (Pipeline.mem_restRefs_of main_v7 (by decide) (by decide)),
      ((h c).1 0).trans (((dats m 0 c).arrAt_in 0 rfl _).trans ((A_eq m c 0).trans (V_main_arg0 m c))),
      (((h c).2 main_arg1 (Pipeline.mem_restRefs_of main_arg1 (by decide) (by decide))).trans (W_main_arg1 m (dats m) c)),
      (((h c).2 main_arg2 (Pipeline.mem_restRefs_of main_arg2 (by decide) (by decide))).trans (W_main_arg2 m (dats m) c))⟩)
    (run_main m ρ)

end Cert.KernelIdeal.Hand

end
-- ==== Proof.Blackout.lean ====
/-
  The blackout (sampled-softmax) loss as mathematics, over plain coordinates and extended reals.

  Inputs: logits `x b c` for 4096 rows and 50257 classes, a label word `y b` per row, and 512 sampled
  class words `ind j` shared by all rows.  With `M b` the row maximum, `p b = 512 · exp (x b (y b) − M b)`
  the positive term and `q b j = 512 · exp (x b (ind j) − M b) · [y b ≠ ind j]` the sampled negatives,
  the row normaliser is `S b = p b + ∑ j, q b j`, the row's loss is
  `log (p b / S b + ε) + ∑ j, log (1 − q b j / S b + ε)`, and the result is minus the sum of the rows' losses
  over `4096 · 513`.

  Two arrangements of that formula are stated here, differing in three places:
    * where a class word is read as a column (`colFill`: a word outside `[0, 50257)` after the wrap of
      negative words reads the bottom element; `colClamp`: it is clamped into the range);
    * whether the row maximum is subtracted before or after the column is read;
    * how the sums are grouped (the positive term inside the 513-term normaliser or beside a 512-term
      one; the rows' losses summed row by row or the two kinds of logarithm summed apart).
  `loss_forms_agree` says the two arrangements are one number when every sampled class word is a column.
-/
import Idealize.ShloMosaic.PureOps.Ideal
import Idealize.ShloMosaic.Lib.ValueIdx

noncomputable section

namespace Cert.Blackout

open Idealize.ShloMosaic

/-- The literal words both programs carry, read as extended reals: 512, ε = f32(1e-10), 1, 4096·513 and 0. -/
abbrev c512 : EReal := Ideal.ofBits .f32 0x44000000#32
abbrev cEps : EReal := Ideal.ofBits .f32 0x2EDBE6FF#32
abbrev cOne : EReal := Ideal.ofBits .f32 0x3F800000#32
abbrev cTot : EReal := Ideal.ofBits .f32 0x4A004000#32
abbrev cZero : EReal := Ideal.ofBits .f32 0x00000000#32

/-- A negative class word counts from the end: 50257 is added to it. -/
def wrapWord (v : BitVec 32) : BitVec 32 := if v.slt 0#32 then v + 50257#32 else v

/-- A (wrapped) word names a column: it lies in `[0, 50256]` as a signed number. -/
def isCol (w : BitVec 32) : Prop := (0#32).sle w ∧ w.sle 50256#32

instance (w : BitVec 32) : Decidable (isCol w) := by unfold isCol; infer_instance

/-- The column a word is clamped to: its signed value cut into `[0, 50256]`. -/
def clampCol (w : BitVec 32) : Fin 50257 := ⟨min w.toInt.toNat 50256, by omega⟩

/-- `[a ≠ b]` as a number. -/
def neFlag (a b : BitVec 32) : EReal := if a = b then ((0 : ℝ) : EReal) else ((1 : ℝ) : EReal)

section Forms

variable (x : Fin 4096 → Fin 50257 → EReal) (y : Fin 4096 → BitVec 32) (ind : Fin 512 → BitVec 32)

/-- The maximum of a row, as the fold of `max` from the bottom element over its 50257 entries. -/
def rowMax (b : Fin 4096) : EReal := (Finset.univ : Finset (Fin 50257)).fold max ⊥ (x b)

/-- A row read at a class word, the bottom element when the word names no column. -/
def colFill (b : Fin 4096) (v : BitVec 32) : EReal :=
  if isCol (wrapWord v) then x b (clampCol (wrapWord v)) else ⊥

/-! ### The arrangement that reads the columns first and subtracts the row maximum afterwards -/

def posA (b : Fin 4096) : EReal := c512 * Ideal.exp (colFill x b (y b) - rowMax x b)
def negA (b : Fin 4096) (j : Fin 512) : EReal :=
  c512 * Ideal.exp (colFill x b (ind j) - rowMax x b) * neFlag (y b) (ind j)
def normA (b : Fin 4096) : EReal := posA x y b + (cZero + ∑ j, negA x y ind b j)
def rowLossA (b : Fin 4096) : EReal :=
  Ideal.log (Ideal.div (posA x y b) (normA x y ind b) + cEps)
    + (cZero + ∑ j, Ideal.log ((cOne - Ideal.div (negA x y ind b j) (normA x y ind b)) + cEps))
def lossA : EReal := Ideal.div (-(cZero + ∑ b, rowLossA x y ind b)) cTot

/-! ### The arrangement that subtracts the row maximum first, clamps the sampled words, and sums the two kinds apart -/

def shifted (b : Fin 4096) (c : Fin 50257) : EReal := x b c - rowMax x b
def posB (b : Fin 4096) : EReal :=
  c512 * Ideal.exp (if isCol (wrapWord (y b)) then shifted x b (clampCol (wrapWord (y b))) else ⊥)
def negB (b : Fin 4096) (j : Fin 512) : EReal :=
  c512 * Ideal.exp (shifted x b (clampCol (wrapWord (ind j)))) * neFlag (y b) (ind j)
/-- The 513 terms of a row: the positive one first. -/
def termsB (b : Fin 4096) (k : Fin 513) : EReal :=
  if h : k.val = 0 then posB x y b else negB x y ind b ⟨k.val - 1, by omega⟩
def normB (b : Fin 4096) : EReal := cZero + ∑ k, termsB x y ind b k
def shareB (b : Fin 4096) (k : Fin 513) : EReal := Ideal.div (termsB x y ind b k) (normB x y ind b)
def lossB : EReal :=
  Ideal.div (-((cZero + ∑ b, Ideal.log (shareB x y ind b ⟨0, by omega⟩ + cEps))
      + (cZero + ∑ p : Fin 4096 × Fin 512, Ideal.log ((cOne - shareB x y ind p.1 ⟨p.2.val + 1, by omega⟩) + cEps)))) cTot

/-! #### The literal zero, and the class words that are columns -/

omit x y ind in
/-- The all-zero word denotes the number zero. -/
theorem cZero_eq : cZero = 0 := by
  simp [Ideal.ofBits, Ideal.ieee]

omit x y ind in
/-- A word in `[0, 50257)` as a signed number is not negative, so the wrap leaves it alone. -/
theorem wrapWord_of_range {v : BitVec 32} (h : (0#32).sle v ∧ v.slt 50257#32) : wrapWord v = v := by
  have h0 : (0 : Int) ≤ v.toInt := by
    have := h.1
    simpa [BitVec.sle] using this
  have hneg : ¬ (v.slt 0#32 = true) := by
    simp only [BitVec.slt, BitVec.toInt_zero, decide_eq_true_eq]
    omega
  unfold wrapWord
  rw [if_neg hneg]

omit x y ind in
/-- A word in `[0, 50257)` as a signed number lies in `[0, 50256]`: it names a column. -/
theorem isCol_of_range {v : BitVec 32} (h : (0#32).sle v ∧ v.slt 50257#32) : isCol v := by
  have h1 : v.toInt < (50257#32 : BitVec 32).toInt := by
    have := h.2
    simpa [BitVec.slt] using this
  have e1 : (50257#32 : BitVec 32).toInt = 50257 := by decide
  have e2 : (50256#32 : BitVec 32).toInt = 50256 := by decide
  refine ⟨h.1, ?_⟩
  simp only [BitVec.sle, decide_eq_true_eq]
  omega

/-! #### The positive and the sampled terms are the same numbers in both arrangements -/

/-- The positive term: when the label names a column both arrangements read that column and subtract the
    same row maximum; when it names none, one has `exp (⊥ − M)` and the other `exp ⊥`, and `⊥ − M = ⊥`. -/
theorem posA_eq_posB (b : Fin 4096) : posA x y b = posB x y b := by
  unfold posA posB colFill shifted
  by_cases h : isCol (wrapWord (y b))
  · rw [if_pos h, if_pos h]
  · rw [if_neg h, if_neg h, EReal.bot_sub]

/-- A sampled term: the sampled word names a column, so the fill reads that very column. -/
theorem negA_eq_negB (hind : ∀ j, (0#32).sle (ind j) ∧ (ind j).slt 50257#32) (b : Fin 4096) (j : Fin 512) :
    negA x y ind b j = negB x y ind b j := by
  have hcol : isCol (wrapWord (ind j)) := by
    rw [wrapWord_of_range (hind j)]; exact isCol_of_range (hind j)
  unfold negA negB colFill shifted
  rw [if_pos hcol]

/-! #### The 513 terms: the positive one, then the 512 sampled ones -/

theorem termsB_zero (b : Fin 4096) : termsB x y ind b ⟨0, by omega⟩ = posB x y b := by
  unfold termsB
  rw [dif_pos rfl]

theorem termsB_succ (b : Fin 4096) (j : Fin 512) :
    termsB x y ind b ⟨j.val + 1, by omega⟩ = negB x y ind b j := by
  unfold termsB
  rw [dif_neg (by simp)]
  congr 1

/-- The 513-term sum is the positive term plus the 512-term sum of the sampled ones. -/
theorem sum_termsB (b : Fin 4096) :
    ∑ k : Fin 513, termsB x y ind b k = posB x y b + ∑ j : Fin 512, negB x y ind b j := by
  refine (Fin.sum_univ_succ (n := 512) (termsB x y ind b)).trans ?_
  exact congrArg₂ (· + ·) (termsB_zero x y ind b)
    (Finset.sum_congr rfl fun j _ => termsB_succ x y ind b j)

/-- The two normalisers are one number. -/
theorem normA_eq_normB (hind : ∀ j, (0#32).sle (ind j) ∧ (ind j).slt 50257#32) (b : Fin 4096) :
    normA x y ind b = normB x y ind b := by
  unfold normA normB
  rw [sum_termsB, cZero_eq, zero_add, zero_add, posA_eq_posB]
  congr 1
  refine Finset.sum_congr rfl fun j _ => ?_
  exact negA_eq_negB x y ind hind b j

/-! #### The rows' losses, summed row by row or the two kinds apart -/

/-- The two arrangements agree when every sampled class word is a column (as a signed number in `[0, 50257)`). -/
theorem loss_forms_agree (hind : ∀ j, (0#32).sle (ind j) ∧ (ind j).slt 50257#32) :
    lossA x y ind = lossB x y ind := by
  unfold lossA lossB
  congr 2
  -- the two kinds of logarithm, named
  have h0 : ∀ b, Ideal.log (Ideal.div (posA x y b) (normA x y ind b) + cEps)
      = Ideal.log (shareB x y ind b ⟨0, by omega⟩ + cEps) := by
    intro b
    unfold shareB
    rw [termsB_zero, posA_eq_posB, normA_eq_normB x y ind hind]
  have h1 : ∀ (b : Fin 4096) (j : Fin 512),
      Ideal.log ((cOne - Ideal.div (negA x y ind b j) (normA x y ind b)) + cEps)
      = Ideal.log ((cOne - shareB x y ind b ⟨j.val + 1, by omega⟩) + cEps) := by
    intro b j
    unfold shareB
    rw [termsB_succ, negA_eq_negB x y ind hind, normA_eq_normB x y ind hind]
  unfold rowLossA
  simp only [h0, h1]
  rw [cZero_eq]
  simp only [zero_add]
  rw [Finset.sum_add_distrib, Fintype.sum_prod_type]

end Forms

/-! ### The row maximum taken tile by tile -/

/-- The running maximum a row carries after its first `k + 1` tiles of 8192 columns, the last tile's columns
    past 50256 left out. -/
def tileMax (r : Fin 50257 → EReal) (k : Nat) : EReal :=
  (Finset.univ.filter fun c : Fin 50257 => c.val < (k + 1) * 8192).fold max ⊥ r

theorem tileMax_last (r : Fin 50257 → EReal) : tileMax r 6 = (Finset.univ : Finset (Fin 50257)).fold max ⊥ r := by
  unfold tileMax
  rw [Finset.filter_true_of_mem]
  intro c _
  have := c.isLt
  omega

/-- After the first tile the running maximum is the maximum of the first 8192 columns. -/
theorem tileMax_zero (r : Fin 50257 → EReal) :
    tileMax r 0 = (Finset.univ.filter fun c : Fin 50257 => c.val < 8192).fold max ⊥ r := by
  unfold tileMax
  rfl

/-- One more tile: the columns below `(k + 2) · 8192` are those below `(k + 1) · 8192` together with, and
    apart from, the new tile's columns, and a fold of `max` from `⊥` over two sets apart is the `max` of the
    two folds. -/
theorem tileMax_succ (r : Fin 50257 → EReal) (k : Nat) :
    tileMax r (k + 1) = max (tileMax r k)
      ((Finset.univ.filter fun c : Fin 50257 => (k + 1) * 8192 ≤ c.val ∧ c.val < (k + 2) * 8192).fold max ⊥ r) := by
  unfold tileMax
  have hdisj : Disjoint (Finset.univ.filter fun c : Fin 50257 => c.val < (k + 1) * 8192)
      (Finset.univ.filter fun c : Fin 50257 => (k + 1) * 8192 ≤ c.val ∧ c.val < (k + 2) * 8192) := by
    rw [Finset.disjoint_filter]
    intro c _ h1 h2
    omega
  have hsplit : (Finset.univ.filter fun c : Fin 50257 => c.val < (k + 1 + 1) * 8192)
      = (Finset.univ.filter fun c : Fin 50257 => c.val < (k + 1) * 8192).disjUnion
          (Finset.univ.filter fun c : Fin 50257 => (k + 1) * 8192 ≤ c.val ∧ c.val < (k + 2) * 8192) hdisj := by
    ext c
    simp only [Finset.mem_filter, Finset.mem_univ, true_and, Finset.mem_disjUnion]
    omega
  rw [hsplit]
  have hb : (⊥ : EReal) = max ⊥ ⊥ := (max_self _).symm
  conv_lhs => rw [hb]
  exact Finset.fold_disjUnion hdisj

end Cert.Blackout

end
-- ==== Proof.KArgs.lean ====
/-
  The three argument arrays of the kernel program read by coordinates, and the array row a block row belongs to.
-/
import proofs.«420491_j3599182594543_3_alg».proof.Proof.PointData
import proofs.«420491_j3599182594543_3_alg».proof.Proof.Blackout
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Cert.Blackout

variable (m : (ℓ : Loc nD τ sig) → Buf (Elt Ideal) ℓ)

/-- The logits, the label words and the sampled class words on core `c`, by coordinates. -/
def xOf (c : Dev nD) : Fin 4096 → Fin 50257 → EReal := fun b col => m ((c.tc : Thread nD τ).loc main_arg0) (ix2 b col)
def yOf (c : Dev nD) : Fin 4096 → BitVec 32 := fun b => m ((c.tc : Thread nD τ).loc main_arg1) (ix1 b)
def indOf (c : Dev nD) : Fin 512 → BitVec 32 := fun j => m ((c.tc : Thread nD τ).loc main_arg2) (ix1 j)

/-- Row `r` of the row tile of grid point `t` (the row tile is `t / 7`) as a row of the arrays. -/
def rowOf (t : Fin cfg0.N) (r : Fin 512) : Fin 4096 :=
  ⟨512 * (t.val / 7) + r.val, by have : t.val < 56 := lt_of_lt_of_eq t.isLt (show cfg0.N = 56 from N_0); have := r.isLt; omega⟩

end Cert.KernelIdeal.KValue

end
-- ==== Proof.RefValueStages.lean ====
/-
  The reference program's stages that read no single element of their operands, each read at an index by
  coordinates: the row maximum, the "every bit is set" reduction over an axis of size one, the two gathers (a start
  index read signed and clamped into the row), the joining of the positive term with the sampled ones, and the
  words beside them (the wrap of a negative class word, the two range tests, the not-equal flag as a number).
-/
import proofs.«420491_j3599182594543_3_alg».proof.Proof.Gen.ReferenceIdeal
import proofs.«420491_j3599182594543_3_alg».proof.Proof.Blackout
import Idealize.ShloMosaic.Lib.ValueIdx
import Idealize.ShloMosaic.Lib.Pipeline.Value
import Idealize.ShloMosaic.Lib.ReduceAll
import Idealize.ShloMosaic.PureOps.Ideal.Laws

noncomputable section

namespace Cert.ReferenceIdeal.RefStages

open Idealize.ShloMosaic Idealize.ShloMosaic.ValueIdx
open Cert.ReferenceIdeal Cert.ReferenceIdeal.Gen

/-! ### The row maximum -/

/-- A maximum taken along the columns of a 4096 × 50257 array is, at row b, the fold of max over that row's
    50257 entries, from the initial value: the order in which the reduction meets them does not matter. -/
theorem rowMax_read (h' : S4096x50257.ReducesTo [1] S4096) (hu : 0 < S_.numel)
    (x : FVec Ideal S4096x50257 .f32) (init : FVec Ideal S_ .f32) (b : Fin 4096) :
    Host.reduce FloatOps.maximumf x init h' hu (ix1 b)
      = (Finset.univ : Finset (Fin 50257)).fold max (init (Shape.Idx.first hu)) (fun c => x (ix2 b c)) := by
  have h : S4096x50257.Reduces [1] S4096 := by decide
  rw [Host.reduce_eq_fold_single FloatOps.maximumf x init h' h hu (ix1 b)]
  have e : (x ∘ h.lift (ix1 b)) = fun c : Fin 50257 => x (ix2 b c) :=
    funext fun c => congrArg x (funext fun a => Fin.ext (by match a with | ⟨0, _⟩ => rfl | ⟨1, _⟩ => rfl))
  rw [e]
  rfl

/-! ### The reduction by and over an axis of size one -/

/-- A one-bit word and-ed with the set bit is itself. -/
theorem andi_one (c : BitVec 1) : IntOp.andi c 1#1 = c := by revert c; decide

/-- The and of a one-entry family of bits, from the set bit, is the entry. -/
theorem fold_andi_single (g : Fin 1 → BitVec 1) : (Finset.univ : Finset (Fin 1)).fold IntOp.andi 1#1 g = g 0 := by
  rw [Finset.univ_unique, Finset.fold_singleton, andi_one]
  rfl

/-- An and-reduction along the last axis of a 4096 × 1 × 1 array of bits, from the set bit, is at (b, 0) the one
    bit that reduces there. -/
theorem allBits_read (h' : S4096x1x1.ReducesTo [2] S4096x1) (hu : 0 < S_.numel)
    (m : IVec S4096x1x1 1) (init : IVec S_ 1) (hinit : init (Shape.Idx.first hu) = 1#1) (b : Fin 4096) :
    Host.reduce IntOp.andi m init h' hu (ix2 b (0 : Fin 1)) = m (ix3 b (0 : Fin 1) (0 : Fin 1)) := by
  have h : S4096x1x1.Reduces [2] S4096x1 := by decide
  rw [Host.reduce_eq_fold_single IntOp.andi m init h' h hu (ix2 b (0 : Fin 1)), hinit]
  refine (fold_andi_single (m ∘ h.lift (ix2 b (0 : Fin 1)))).trans ?_
  exact congrArg m (funext fun a => Fin.ext (by match a with | ⟨0, _⟩ => rfl | ⟨1, _⟩ => rfl | ⟨2, _⟩ => rfl))

/-! ### Words: a comparison's bit, the wrap of a negative class word, the range test, the not-equal flag -/

/-- A comparison's bit is set exactly when the comparison holds. -/
theorem ofBool_eq_one {p : Bool} : BitVec.ofBool p = 1#1 ↔ p = true := by cases p <;> decide

/-- Adding 50257 to a word where it is negative, and leaving it elsewhere, is the wrap. -/
theorem select_wrap (v : BitVec 32) :
    Scalar.select (IntOp.cmpi .slt v 0#32) (IntOp.addi v 50257#32) v = Cert.Blackout.wrapWord v := by
  unfold Cert.Blackout.wrapWord
  cases h : v.slt 0#32
  · have e : IntOp.cmpi .slt v 0#32 = 0#1 := by simp [IntOp.cmpi, h]
    rw [e, select_zero]
    simp
  · have e : IntOp.cmpi .slt v 0#32 = 1#1 := by simp [IntOp.cmpi, h]
    rw [e, select_one]
    simp [IntOp.addi]

/-- The two signed range tests and-ed together are set exactly when the word names a column. -/
theorem rangeBits_eq_one (w : BitVec 32) :
    IntOp.andi (IntOp.cmpi .sge w 0#32) (IntOp.cmpi .sle w 50256#32) = 1#1 ↔ Cert.Blackout.isCol w := by
  rw [IntOp.andi_eq_one]
  unfold Cert.Blackout.isCol
  simp only [IntOp.cmpi, ofBool_eq_one]

/-- The bit of a not-equal comparison of two words, read unsigned as a number, is the not-equal flag. -/
theorem neBit_real (a b : BitVec 32) :
    FloatOps.uitofp (F := Ideal) .f32 (IntOp.cmpi .ne a b) = Cert.Blackout.neFlag a b := by
  unfold Cert.Blackout.neFlag
  show (((IntOp.cmpi .ne a b).toNat : ℝ) : EReal) = _
  by_cases h : a = b
  · subst h
    rw [if_pos rfl]
    simp [IntOp.cmpi]
  · rw [if_neg h]
    simp [IntOp.cmpi, h]

/-! ### The two gathers: a start index read signed and clamped into the row -/

/-- The gather that reads, in every row, the one column that row's own start index names: at (b, 0) it is the
    operand at row b and at the column the start index at (b, 0, 0) is clamped to. -/
theorem gatherRows_read {α : Type} (x : S4096x50257.Idx → α) (idx : IVec S4096x1x1 32) (b : Fin 4096) :
    Host.gather gather_S4096x50257_S4096x1x1_S4096x1_n_1_0_0_1_2_11 x idx (ix2 b (0 : Fin 1))
      = x (ix2 b (Cert.Blackout.clampCol (idx (ix3 b (0 : Fin 1) (0 : Fin 1))))) := by
  unfold Host.gather
  refine congrArg x (funext fun a => Fin.ext ?_)
  match a with
  | ⟨0, _⟩ =>
    show gather_S4096x50257_S4096x1x1_S4096x1_n_1_0_0_1_2_11.start (ix2 b (0 : Fin 1)) idx (0 : Fin 2)
        + gather_S4096x50257_S4096x1x1_S4096x1_n_1_0_0_1_2_11.batchCoord (ix2 b (0 : Fin 1)) (0 : Fin 2)
        + gather_S4096x50257_S4096x1x1_S4096x1_n_1_0_0_1_2_11.offCoord (ix2 b (0 : Fin 1)) (0 : Fin 2) = b.val
    rw [GatherDims.start_batching _ _ _ _ (List.mem_singleton.mpr rfl),
      GatherDims.offCoord_eq_zero _ _ _ (fun h => ((GatherDims.mem_sKept _ _).mp h).2 (List.mem_singleton.mpr rfl)),
      Nat.zero_add, Nat.add_zero]
    rfl
  | ⟨1, _⟩ =>
    show gather_S4096x50257_S4096x1x1_S4096x1_n_1_0_0_1_2_11.start (ix2 b (0 : Fin 1)) idx (1 : Fin 2)
        + gather_S4096x50257_S4096x1x1_S4096x1_n_1_0_0_1_2_11.batchCoord (ix2 b (0 : Fin 1)) (1 : Fin 2)
        + gather_S4096x50257_S4096x1x1_S4096x1_n_1_0_0_1_2_11.offCoord (ix2 b (0 : Fin 1)) (1 : Fin 2)
      = min (idx (ix3 b (0 : Fin 1) (0 : Fin 1))).toInt.toNat 50256
    rw [GatherDims.batchCoord_eq_zero _ _ _ (by decide),
      GatherDims.offCoord_eq_zero _ _ _ (fun h => ((GatherDims.mem_sKept _ _).mp h).1 (List.mem_singleton.mpr rfl)),
      Nat.add_zero]
    unfold GatherDims.start
    rw [dif_pos (show (1 : Fin 2) ∈ gather_S4096x50257_S4096x1x1_S4096x1_n_1_0_0_1_2_11.startIndexMap from
      List.mem_singleton.mpr rfl)]
    have hsi : gather_S4096x50257_S4096x1x1_S4096x1_n_1_0_0_1_2_11.siIdx (ix2 b (0 : Fin 1))
        ⟨List.idxOf (1 : Fin 2) gather_S4096x50257_S4096x1x1_S4096x1_n_1_0_0_1_2_11.startIndexMap,
          List.idxOf_lt_length_iff.2 (List.mem_singleton.mpr rfl)⟩ = ix3 b (0 : Fin 1) (0 : Fin 1) := by
      funext c
      refine Fin.ext ?_
      match c with
      | ⟨0, _⟩ => rfl
      | ⟨1, _⟩ => rfl
      | ⟨2, _⟩ => rfl
    rw [hsi]
    rfl

/-- The gather that reads whole columns, one per start index: at (b, q) it is the operand at row b and at the column
    the start index at (q, 0) is clamped to. -/
theorem gatherCols_read {α : Type} (x : S4096x50257.Idx → α) (idx : IVec S512x1 32) (b : Fin 4096) (q : Fin 512) :
    Host.gather gather_S4096x50257_S512x1_S4096x512_0_1_n_n_1_1_40961 x idx (ix2 b q)
      = x (ix2 b (Cert.Blackout.clampCol (idx (ix2 q (0 : Fin 1))))) := by
  unfold Host.gather
  refine congrArg x (funext fun a => Fin.ext ?_)
  match a with
  | ⟨0, _⟩ =>
    show gather_S4096x50257_S512x1_S4096x512_0_1_n_n_1_1_40961.start (ix2 b q) idx (0 : Fin 2)
        + gather_S4096x50257_S512x1_S4096x512_0_1_n_n_1_1_40961.batchCoord (ix2 b q) (0 : Fin 2)
        + gather_S4096x50257_S512x1_S4096x512_0_1_n_n_1_1_40961.offCoord (ix2 b q) (0 : Fin 2) = b.val
    have hs : gather_S4096x50257_S512x1_S4096x512_0_1_n_n_1_1_40961.start (ix2 b q) idx (0 : Fin 2) = 0 := by
      unfold GatherDims.start
      exact dif_neg (by decide)
    rw [hs, GatherDims.batchCoord_eq_zero _ _ _ List.not_mem_nil, Nat.add_zero, Nat.zero_add]
    rfl
  | ⟨1, _⟩ =>
    show gather_S4096x50257_S512x1_S4096x512_0_1_n_n_1_1_40961.start (ix2 b q) idx (1 : Fin 2)
        + gather_S4096x50257_S512x1_S4096x512_0_1_n_n_1_1_40961.batchCoord (ix2 b q) (1 : Fin 2)
        + gather_S4096x50257_S512x1_S4096x512_0_1_n_n_1_1_40961.offCoord (ix2 b q) (1 : Fin 2)
      = min (idx (ix2 q (0 : Fin 1))).toInt.toNat 50256
    rw [GatherDims.batchCoord_eq_zero _ _ _ List.not_mem_nil,
      GatherDims.offCoord_eq_zero _ _ _ (fun h => ((GatherDims.mem_sKept _ _).mp h).1 (List.mem_singleton.mpr rfl)),
      Nat.add_zero]
    unfold GatherDims.start
    rw [dif_pos (show (1 : Fin 2) ∈ gather_S4096x50257_S512x1_S4096x512_0_1_n_n_1_1_40961.startIndexMap from
      List.mem_singleton.mpr rfl)]
    have hsi : gather_S4096x50257_S512x1_S4096x512_0_1_n_n_1_1_40961.siIdx (ix2 b q)
        ⟨List.idxOf (1 : Fin 2) gather_S4096x50257_S512x1_S4096x512_0_1_n_n_1_1_40961.startIndexMap,
          List.idxOf_lt_length_iff.2 (List.mem_singleton.mpr rfl)⟩ = ix2 q (0 : Fin 1) := by
      funext c
      refine Fin.ext ?_
      match c with
      | ⟨0, _⟩ => rfl
      | ⟨1, _⟩ => rfl
    rw [hsi]
    rfl

/-! ### The positive term joined with the sampled ones -/

/-- The 4096 × 1 column joined with the 4096 × 512 block along the columns: column 0 is the column's entry, column
    k past it the block's entry at column k − 1. -/
theorem joined_read {α : Type} (h : Shape.Concatenates [S4096x1, S4096x512] S4096x513 1)
    (p : S4096x1.Idx → α) (n : S4096x512.Idx → α) (b : Fin 4096) (k : Fin 513) :
    concatenate S4096x513 1 [⟨S4096x1, p⟩, ⟨S4096x512, n⟩] h (ix2 b k)
      = if hk : k.val = 0 then p (ix2 b (0 : Fin 1)) else n (ix2 b ⟨k.val - 1, by omega⟩) := by
  by_cases hk : k.val = 0
  · rw [dif_pos hk]
    exact concatenate_pair_apply_left 1 p n h (ix2 b k) rfl (ix2 b (0 : Fin 1))
      (fun c => by match c with | ⟨0, _⟩ => rfl | ⟨1, _⟩ => exact hk.symm)
  · rw [dif_neg hk]
    exact concatenate_pair_apply_right 1 p n h (ix2 b k) rfl rfl (ix2 b ⟨k.val - 1, by omega⟩)
      (fun c hc => by match c with | ⟨0, _⟩ => rfl | ⟨1, _⟩ => exact absurd rfl hc)
      (by show k.val - 1 + 1 = k.val; omega)

/-! ### A select on a bit that decides a proposition, and a sum over a rank-one index set -/

/-- A select whose bit is set exactly when P holds is the if on P. -/
theorem select_of_iff {α : Type} {c : BitVec 1} {P : Prop} [Decidable P] (hc : c = 1#1 ↔ P) (a b : α) :
    Scalar.select c a b = if P then a else b := by
  by_cases h : P
  · rw [if_pos h, hc.mpr h, select_one]
  · rw [if_neg h, eq_zero_of_ne_one (fun e => h (hc.mp e)), select_zero]

/-- A rank-one index set is its one coordinate's range … -/
def idxEquiv1 {n : Nat} : (⟨1, ![n]⟩ : Shape).Idx ≃ Fin n where
  toFun i := i 0
  invFun a := ix1 a
  left_inv i := (eq_ix1 i).symm
  right_inv _ := rfl

/-- … so a sum over it is the sum over the coordinate. -/
theorem sum_idx1 {M : Type*} [AddCommMonoid M] {n : Nat} (f : (⟨1, ![n]⟩ : Shape).Idx → M) :
    ∑ i, f i = ∑ a : Fin n, f (ix1 a) := by
  rw [← Equiv.sum_comp (idxEquiv1 (n := n)).symm f]
  rfl

/-- The two words whose pattern denotes the bottom element: minus infinity and the quiet not-a-number. -/
theorem ofBits_negInf : Ideal.ofBits .f32 0xFF800000#32 = ⊥ := by simp [Ideal.ofBits, Ideal.ieee]
theorem ofBits_nan : Ideal.ofBits .f32 0x7FC00000#32 = ⊥ := by simp [Ideal.ofBits, Ideal.ieee]

end Cert.ReferenceIdeal.RefStages

end
-- ==== Proof.KBlocks.lean ====
/-
  What the windows' blocks hold at a grid point, in terms of the argument arrays: the logits' block is the row
  tile's rows at the column tile's columns; the labels' block the row tile's label words; the sampled words' row
  the 512 sampled words; the gathered block, which the host lines before the region compute, the row tile's
  logits at the sampled words (the bottom element where a word, after the wrap of negative words, names no
  column); the label logits' block likewise at the rows' own label words.

  Two layers.  First, an element of a block sits in its array, on each axis, at the block index times the block's
  size plus its own coordinate; the block indices are (t / 7, t % 7) for the logits, (t / 7, 0) for the labels, the
  gathered logits and the label logits, and (0, 0) for the sampled words' row, decided once over the 56 grid points.
  The logits' seventh column tile holds only 1105 columns of the array: a lane whose column number is below 50257 is
  one the fetch moves, and reads the array there.  Second, what the host lines leave in the four staged arrays other
  than the logits: two are the label words and the sampled words laid out again, and two are gathers in fill mode,
  read entry by entry as the row at the wrapped word when that word names a column and the bottom element (the
  quiet not-a-number word) when it does not.
-/
import proofs.«420491_j3599182594543_3_alg».proof.Proof.KArgs
import proofs.«420491_j3599182594543_3_alg».proof.Proof.RefValueStages
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Cert.Blackout

variable (m : (ℓ : Loc nD τ sig) → Buf (Elt Ideal) ℓ)

/-! ### The printed index maps over the grid -/

/-- The logits' block index: the row tile and the column tile. -/
theorem idx0 : ∀ t : Fin cfg0.N, win0_0.index t (0 : Fin 2) = t.val / 7 ∧ win0_0.index t (1 : Fin 2) = t.val % 7 :=
  (by decide +kernel : ∀ t : Fin grid0.N, win0_0.index t (0 : Fin 2) = t.val / 7 ∧ win0_0.index t (1 : Fin 2) = t.val % 7)
/-- The sampled words' row is one block, at index (0, 0). -/
theorem idx2 : ∀ t : Fin cfg0.N, win0_2.index t (0 : Fin 2) = 0 ∧ win0_2.index t (1 : Fin 2) = 0 :=
  (by decide +kernel : ∀ t : Fin grid0.N, win0_2.index t (0 : Fin 2) = 0 ∧ win0_2.index t (1 : Fin 2) = 0)
/-- The gathered logits' block index: the row tile, and 0. -/
theorem idx3 : ∀ t : Fin cfg0.N, win0_3.index t (0 : Fin 2) = t.val / 7 ∧ win0_3.index t (1 : Fin 2) = 0 :=
  (by decide +kernel : ∀ t : Fin grid0.N, win0_3.index t (0 : Fin 2) = t.val / 7 ∧ win0_3.index t (1 : Fin 2) = 0)
/-- The label logits' block index: the row tile, and 0. -/
theorem idx4 : ∀ t : Fin cfg0.N, win0_4.index t (0 : Fin 2) = t.val / 7 ∧ win0_4.index t (1 : Fin 2) = 0 :=
  (by decide +kernel : ∀ t : Fin grid0.N, win0_4.index t (0 : Fin 2) = t.val / 7 ∧ win0_4.index t (1 : Fin 2) = 0)

/-- What the fetch of the logits' block moves: all 512 rows, and 8192 columns but at a last column tile, 1105. -/
theorem xsize0 : ∀ t : Fin cfg0.N, (cfg0.win 0).xsize (grid0.coords t) (0 : Fin 2) = 512
    ∧ (cfg0.win 0).xsize (grid0.coords t) (1 : Fin 2) = if t.val % 7 = 6 then 1105 else 8192 :=
  (by decide +kernel : ∀ t : Fin grid0.N, win0_0.xsize (grid0.coords t) (0 : Fin 2) = 512
    ∧ win0_0.xsize (grid0.coords t) (1 : Fin 2) = if t.val % 7 = 6 then 1105 else 8192)

/-- The sampled words' block at every point is the whole one-row array. -/
theorem blk2_read (c : Dev nD) (t : Fin cfg0.N) (j : Fin 512) :
    (iblk m c 2 t : Vec Ideal S1x512 .i32) (ix2 (0 : Fin 1) j)
      = (V m c main_v1 : S1x512.Idx → BitVec 32) (ix2 (0 : Fin 1) j) := by
  unfold iblk
  rw [View.read_apply]
  show V m c main_v1 (((cfg0.win 2).blk t).view.emb (ix2 (0 : Fin 1) j)) = V m c main_v1 _
  refine congrArg (V m c main_v1) (funext fun a => Fin.ext ?_)
  obtain ⟨e0, e1⟩ := idx2 t
  match a with
  | ⟨0, _⟩ =>
    show win0_2.index t (0 : Fin 2) * 1 + 1 * 0 = 0
    rw [e0]
  | ⟨1, _⟩ =>
    show win0_2.index t (1 : Fin 2) * 512 + 1 * j.val = j.val
    rw [e1]; omega

/-- The gathered logits' block at a point is the row tile's rows of the gathered array. -/
theorem blk3_read (c : Dev nD) (t : Fin cfg0.N) (r : Fin 512) (j : Fin 512) :
    (iblk m c 3 t : Vec Ideal S512x512 .f32) (ix2 r j)
      = (V m c main_v2 : S4096x512.Idx → EReal) (ix2 (rowOf t r) j) := by
  unfold iblk
  rw [View.read_apply]
  show V m c main_v2 (((cfg0.win 3).blk t).view.emb (ix2 r j)) = V m c main_v2 _
  refine congrArg (V m c main_v2) (funext fun a => Fin.ext ?_)
  obtain ⟨e0, e1⟩ := idx3 t
  match a with
  | ⟨0, _⟩ =>
    show win0_3.index t (0 : Fin 2) * 512 + 1 * r.val = 512 * (t.val / 7) + r.val
    rw [e0]; omega
  | ⟨1, _⟩ =>
    show win0_3.index t (1 : Fin 2) * 512 + 1 * j.val = j.val
    rw [e1]; omega

/-- The label logits' block at a point is the row tile's rows of the label logits' array. -/
theorem blk4_read (c : Dev nD) (t : Fin cfg0.N) (r : Fin 512) :
    (iblk m c 4 t : Vec Ideal S512x1 .f32) (ix2 r (0 : Fin 1))
      = (V m c main_v3 : S4096x1.Idx → EReal) (ix2 (rowOf t r) (0 : Fin 1)) := by
  unfold iblk
  rw [View.read_apply]
  show V m c main_v3 (((cfg0.win 4).blk t).view.emb (ix2 r (0 : Fin 1))) = V m c main_v3 _
  refine congrArg (V m c main_v3) (funext fun a => Fin.ext ?_)
  obtain ⟨e0, e1⟩ := idx4 t
  match a with
  | ⟨0, _⟩ =>
    show win0_4.index t (0 : Fin 2) * 512 + 1 * r.val = 512 * (t.val / 7) + r.val
    rw [e0]; omega
  | ⟨1, _⟩ =>
    show win0_4.index t (1 : Fin 2) * 1 + 1 * 0 = 0
    rw [e1]

/-- The labels' block index: the row tile, and 0. -/
theorem idx1 : ∀ t : Fin cfg0.N, win0_1.index t (0 : Fin 2) = t.val / 7 ∧ win0_1.index t (1 : Fin 2) = 0 :=
  (by decide +kernel : ∀ t : Fin grid0.N, win0_1.index t (0 : Fin 2) = t.val / 7 ∧ win0_1.index t (1 : Fin 2) = 0)

/-- The labels' block at a point is the row tile's rows of the labels' array. -/
theorem blk1_read (c : Dev nD) (t : Fin cfg0.N) (r : Fin 512) :
    (iblk m c 1 t : Vec Ideal S512x1 .i32) (ix2 r (0 : Fin 1))
      = (V m c main_v0 : S4096x1.Idx → BitVec 32) (ix2 (rowOf t r) (0 : Fin 1)) := by
  unfold iblk
  rw [View.read_apply]
  show V m c main_v0 (((cfg0.win 1).blk t).view.emb (ix2 r (0 : Fin 1))) = V m c main_v0 _
  refine congrArg (V m c main_v0) (funext fun a => Fin.ext ?_)
  obtain ⟨e0, e1⟩ := idx1 t
  match a with
  | ⟨0, _⟩ =>
    show win0_1.index t (0 : Fin 2) * 512 + 1 * r.val = 512 * (t.val / 7) + r.val
    rw [e0]; omega
  | ⟨1, _⟩ =>
    show win0_1.index t (1 : Fin 2) * 1 + 1 * 0 = 0
    rw [e1]

open Cert.ReferenceIdeal.RefStages (select_wrap rangeBits_eq_one select_of_iff fold_andi_single allBits_read
  gatherRows_read gatherCols_read ofBits_nan)

/-! ### The host lines before the region, as functions of their operands

The logits' columns taken at the sampled words, and each row's logit taken at its own label word, both in fill
mode: a negative word is wrapped by adding 50257; the wrapped word is tested for the range [0, 50256] (the test
and-reduced over an axis of size one); the column is gathered at the wrapped word read signed and clamped into the
row; and where the test fails the quiet not-a-number word stands for the entry. -/

/-- The sampled words with the negative ones wrapped. -/
def wrapWords (ind : IVec S512 32) : IVec S512 32 :=
  select (cmpi .slt ind (broadcastInDim S512 ![] bcast_S_S512 (constantI S_ 32 0#32)))
    (addi ind (broadcastInDim S512 ![] bcast_S_S512 (constantI S_ 32 50257#32))) ind

/-- The wrapped sampled words as the gather's start indices. -/
def startCols (ind : IVec S512 32) : IVec S512x1 32 :=
  broadcastInDim S512x1 ![0] bcast_S512_S512x1_0 (wrapWords ind)

/-- Which start indices name a column. -/
def colMask (v : IVec S512x1 32) : IVec S512 1 :=
  Host.reduce IntOp.andi
    (andi (cmpi .sge v (broadcastInDim S512x1 ![] bcast_S_S512x1 (constantI S_ 32 0#32)))
      (cmpi .sle v (broadcastInDim S512x1 ![0, 1] bcast_S1x1_S512x1_0_1
        (broadcastInDim S1x1 ![1] bcast_S1_S1x1_1 (constantI S1 32 50256#32)))))
    (constantI S_ 1 1#1) reducesTo_S512x1_S512_d1 h_S_

/-- The logits' columns at the sampled words. -/
def takeCols (x : FVec Ideal S4096x50257 .f32) (ind : IVec S512 32) : FVec Ideal S4096x512 .f32 :=
  select (broadcastInDim S4096x512 ![1] bcast_S512_S4096x512_1 (colMask (startCols ind)))
    (Host.gather gather_S4096x50257_S512x1_S4096x512_0_1_n_n_1_1_40961 x (startCols ind))
    (broadcastInDim S4096x512 ![] bcast_S_S4096x512 (constant (F := Ideal) S_ .f32 0x7FC00000#32))

/-- The label words with the negative ones wrapped. -/
def wrapRows (y : IVec S4096x1 32) : IVec S4096x1 32 :=
  select (cmpi .slt y (broadcastInDim S4096x1 ![] bcast_S_S4096x1 (constantI S_ 32 0#32)))
    (addi y (broadcastInDim S4096x1 ![] bcast_S_S4096x1 (constantI S_ 32 50257#32))) y

/-- The wrapped label words as the row-wise gather's start indices. -/
def startRows (y : IVec S4096x1 32) : IVec S4096x1x1 32 :=
  fun i => shapeCast S4096x1x1 (wrapRows y) shapeCasts_S4096x1_S4096x1x1 i

/-- Which rows' start indices name a column. -/
def rowMask (v : IVec S4096x1x1 32) : IVec S4096x1 1 :=
  Host.reduce IntOp.andi
    (andi (cmpi .sge v (broadcastInDim S4096x1x1 ![] bcast_S_S4096x1x1 (constantI S_ 32 0#32)))
      (cmpi .sle v (broadcastInDim S4096x1x1 ![0, 1, 2] bcast_S1x1x1_S4096x1x1_0_1_2
        (broadcastInDim S1x1x1 ![2] bcast_S1_S1x1x1_2 (constantI S1 32 50256#32)))))
    (constantI S_ 1 1#1) reducesTo_S4096x1x1_S4096x1_d2 h_S_

/-- Each row's logit at its own label word. -/
def takeRows (x : FVec Ideal S4096x50257 .f32) (y : IVec S4096x1 32) : FVec Ideal S4096x1 .f32 :=
  select (rowMask (startRows y))
    (Host.gather gather_S4096x50257_S4096x1x1_S4096x1_n_1_0_0_1_2_11 x (startRows y))
    (broadcastInDim S4096x1 ![] bcast_S_S4096x1 (constant (F := Ideal) S_ .f32 0x7FC00000#32))

/-! ### Those functions read at an index -/

/-- A wrapped sampled word is the wrap of the word. -/
theorem wrapWords_apply (ind : IVec S512 32) (j : Fin 512) : wrapWords ind (ix1 j) = wrapWord (ind (ix1 j)) := by
  unfold wrapWords
  exact select_wrap (ind (ix1 j))

/-- The start index of sampled word j is its wrap. -/
theorem startCols_apply (ind : IVec S512 32) (j : Fin 512) :
    startCols ind (ix2 j (0 : Fin 1)) = wrapWord (ind (ix1 j)) := by
  unfold startCols
  refine (broadcastInDim_apply _ _ _ (ix2 j (0 : Fin 1)) (ix1 j) ?_).trans (wrapWords_apply ind j)
  intro a
  match a with
  | ⟨0, _⟩ => rfl

/-- The range test of start index j: an and over one entry is the entry. -/
theorem colMask_apply (v : IVec S512x1 32) (j : Fin 512) :
    colMask v (ix1 j)
      = IntOp.andi (IntOp.cmpi .sge (v (ix2 j (0 : Fin 1))) 0#32) (IntOp.cmpi .sle (v (ix2 j (0 : Fin 1))) 50256#32) := by
  have h : S512x1.Reduces [1] S512 := by decide
  unfold colMask
  rw [Host.reduce_eq_fold_single IntOp.andi _ _ reducesTo_S512x1_S512_d1 h h_S_ (ix1 j)]
  refine (fold_andi_single _).trans ?_
  have e : h.lift (ix1 j) (0 : Fin 1) = ix2 j (0 : Fin 1) :=
    funext fun a => Fin.ext (by match a with | ⟨0, _⟩ => rfl | ⟨1, _⟩ => rfl)
  show andi _ _ (h.lift (ix1 j) (0 : Fin 1)) = _
  rw [e]
  rfl

/-- The two gathers' dimension records are the ones the reference program prints. -/
theorem gatherCols_k {α : Type} (x : S4096x50257.Idx → α) (idx : IVec S512x1 32) (b : Fin 4096) (q : Fin 512) :
    Host.gather gather_S4096x50257_S512x1_S4096x512_0_1_n_n_1_1_40961 x idx (ix2 b q)
      = x (ix2 b (clampCol (idx (ix2 q (0 : Fin 1))))) :=
  gatherCols_read x idx b q

/-- Likewise for the row-wise gather. -/
theorem gatherRows_k {α : Type} (x : S4096x50257.Idx → α) (idx : IVec S4096x1x1 32) (b : Fin 4096) :
    Host.gather gather_S4096x50257_S4096x1x1_S4096x1_n_1_0_0_1_2_11 x idx (ix2 b (0 : Fin 1))
      = x (ix2 b (clampCol (idx (ix3 b (0 : Fin 1) (0 : Fin 1))))) :=
  gatherRows_read x idx b

/-- THE GATHERED ARRAY at (b, j): row b read at sampled word j, the bottom element when the word names no column. -/
theorem takeCols_apply (x : FVec Ideal S4096x50257 .f32) (ind : IVec S512 32) (b : Fin 4096) (j : Fin 512) :
    takeCols x ind (ix2 b j) = colFill (fun r col => x (ix2 r col)) b (ind (ix1 j)) := by
  unfold takeCols
  rw [select_apply,
    broadcastInDim_apply _ _ (colMask (startCols ind)) (ix2 b j) (ix1 j) (fun a => by match a with | ⟨0, _⟩ => rfl),
    colMask_apply, startCols_apply, gatherCols_k, startCols_apply]
  show Scalar.select _ _ (Ideal.ofBits .f32 0x7FC00000#32) = _
  rw [ofBits_nan]
  unfold colFill
  exact select_of_iff (rangeBits_eq_one _) _ _

/-- A wrapped label word is the wrap of the word. -/
theorem wrapRows_apply (y : IVec S4096x1 32) (b : Fin 4096) :
    wrapRows y (ix2 b (0 : Fin 1)) = wrapWord (y (ix2 b (0 : Fin 1))) := by
  unfold wrapRows
  exact select_wrap (y (ix2 b (0 : Fin 1)))

/-- The start index of row b is the wrap of its label word: the two layouts list the rows in the same order. -/
theorem startRows_apply (y : IVec S4096x1 32) (b : Fin 4096) :
    startRows y (ix3 b (0 : Fin 1) (0 : Fin 1)) = wrapWord (y (ix2 b (0 : Fin 1))) := by
  unfold startRows
  refine (shapeCast_apply _ _ (ix3 b (0 : Fin 1) (0 : Fin 1)) (ix2 b (0 : Fin 1)) ?_).trans (wrapRows_apply y b)
  rw [Shape.rowMajor_val_two, Shape.rowMajor_val_three]
  show b.val * 1 + 0 = (b.val * 1 + 0) * 1 + 0
  omega

/-- The range test of row b's start index. -/
theorem rowMask_apply (v : IVec S4096x1x1 32) (b : Fin 4096) :
    rowMask v (ix2 b (0 : Fin 1))
      = IntOp.andi (IntOp.cmpi .sge (v (ix3 b (0 : Fin 1) (0 : Fin 1))) 0#32)
          (IntOp.cmpi .sle (v (ix3 b (0 : Fin 1) (0 : Fin 1))) 50256#32) := by
  unfold rowMask
  exact allBits_read reducesTo_S4096x1x1_S4096x1_d2 h_S_ _ _ rfl b

/-- THE LABEL LOGITS' ARRAY at (b, 0): row b read at its own label word, the bottom element when the word names no column. -/
theorem takeRows_apply (x : FVec Ideal S4096x50257 .f32) (y : IVec S4096x1 32) (b : Fin 4096) :
    takeRows x y (ix2 b (0 : Fin 1)) = colFill (fun r col => x (ix2 r col)) b (y (ix2 b (0 : Fin 1))) := by
  unfold takeRows
  rw [select_apply, rowMask_apply, startRows_apply, gatherRows_k, startRows_apply]
  show Scalar.select _ _ (Ideal.ofBits .f32 0x7FC00000#32) = _
  rw [ofBits_nan]
  unfold colFill
  exact select_of_iff (rangeBits_eq_one _) _ _

/-! ### What the host lines leave in the four arrays the region stages besides the logits -/

/-- The labels' array is the label words laid out as a column. -/
theorem V_v0 (c : Dev nD) :
    (V m c main_v0 : S4096x1.Idx → BitVec 32)
      = shapeCast S4096x1 (m ((c.tc : Thread nD τ).loc main_arg1) : S4096.Idx → BitVec 32) shapeCasts_S4096_S4096x1 := by
  dsimp only [Gen.V, Gen.V0]
  simp only [Gen.hostOps0, Gen.hostOps0_1, Gen.hostOps0_2, List.flatten_cons, List.flatten_nil, List.append_nil,
    List.cons_append, List.nil_append]
  after_results
  rfl

/-- The sampled words' array is the sampled words laid out as a row. -/
theorem V_v1 (c : Dev nD) :
    (V m c main_v1 : S1x512.Idx → BitVec 32)
      = shapeCast S1x512 (m ((c.tc : Thread nD τ).loc main_arg2) : S512.Idx → BitVec 32) shapeCasts_S512_S1x512 := by
  dsimp only [Gen.V, Gen.V0]
  simp only [Gen.hostOps0, Gen.hostOps0_1, Gen.hostOps0_2, List.flatten_cons, List.flatten_nil, List.append_nil,
    List.cons_append, List.nil_append]
  after_results
  rfl

/-- The gathered array is the logits' columns taken at the sampled words. -/
theorem V_v2 (c : Dev nD) :
    (V m c main_v2 : S4096x512.Idx → EReal)
      = takeCols (m ((c.tc : Thread nD τ).loc main_arg0)) (m ((c.tc : Thread nD τ).loc main_arg2)) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-- The label logits' array is each row's logit taken at its own label word. -/
theorem V_v3 (c : Dev nD) :
    (V m c main_v3 : S4096x1.Idx → EReal)
      = takeRows (m ((c.tc : Thread nD τ).loc main_arg0))
          (shapeCast S4096x1 (m ((c.tc : Thread nD τ).loc main_arg1) : S4096.Idx → BitVec 32) shapeCasts_S4096_S4096x1) := by
  dsimp only [Gen.V, Gen.V0]
  simp only [Gen.hostOps0, Gen.hostOps0_1, Gen.hostOps0_2, List.flatten_cons, List.flatten_nil, List.append_nil,
    List.cons_append, List.nil_append]
  after_results_simp
  simp only [StableHlo.TRef.ofBuf, StableHlo.TRef.toBuf, cast_eq]
  rfl

/-- A column of 4096 words read at row b is the word b. -/
theorem column_apply (y : S4096.Idx → BitVec 32) (b : Fin 4096) :
    shapeCast S4096x1 y shapeCasts_S4096_S4096x1 (ix2 b (0 : Fin 1)) = y (ix1 b) := by
  refine shapeCast_apply _ _ (ix2 b (0 : Fin 1)) (ix1 b) ?_
  rw [Shape.rowMajor_val_one, Shape.rowMajor_val_two]
  show b.val = b.val * 1 + 0
  omega

/-- A row of 512 words read at column j is the word j. -/
theorem row_apply (ind : S512.Idx → BitVec 32) (j : Fin 512) :
    shapeCast S1x512 ind shapeCasts_S512_S1x512 (ix2 (0 : Fin 1) j) = ind (ix1 j) := by
  refine shapeCast_apply _ _ (ix2 (0 : Fin 1) j) (ix1 j) ?_
  rw [Shape.rowMajor_val_one, Shape.rowMajor_val_two]
  show j.val = 0 * 512 + j.val
  omega

/-! ### The blocks -/

/-- The labels' block holds the row tile's label words. -/
theorem labels_at (c : Dev nD) (t : Fin cfg0.N) (r : Fin 512) :
    (iblk m c 1 t : Vec Ideal S512x1 .i32) (ix2 r (0 : Fin 1)) = yOf m c (rowOf t r) := by
  rw [blk1_read, V_v0, column_apply]
  rfl

/-- The sampled words' row holds the 512 sampled words. -/
theorem sampled_at (c : Dev nD) (t : Fin cfg0.N) (j : Fin 512) :
    (iblk m c 2 t : Vec Ideal S1x512 .i32) (ix2 (0 : Fin 1) j) = indOf m c j := by
  rw [blk2_read, V_v1, row_apply]
  rfl

/-- The gathered block holds the row tile's logits at the sampled words. -/
theorem gathered_at (c : Dev nD) (t : Fin cfg0.N) (r : Fin 512) (j : Fin 512) :
    (iblk m c 3 t : Vec Ideal S512x512 .f32) (ix2 r j) = colFill (xOf m c) (rowOf t r) (indOf m c j) := by
  rw [blk3_read, V_v2, takeCols_apply]
  rfl

/-- The label logits' block holds the row tile's logits at the rows' own label words. -/
theorem labelLogit_at (c : Dev nD) (t : Fin cfg0.N) (r : Fin 512) :
    (iblk m c 4 t : Vec Ideal S512x1 .f32) (ix2 r (0 : Fin 1)) = colFill (xOf m c) (rowOf t r) (yOf m c (rowOf t r)) := by
  rw [blk4_read, V_v3, takeRows_apply, column_apply]
  rfl

/-- The logits' buffer after the fetch, at a lane whose column lies inside the array. -/
theorem logits_at (c : Dev nD) (t : Fin cfg0.N) (d) (r : Fin 512) (l : Fin 8192) (h : 8192 * (t.val % 7) + l.val < 50257) :
    xin m c t d (ix2 r l) = xOf m c (rowOf t r) ⟨8192 * (t.val % 7) + l.val, h⟩ := by
  obtain ⟨x0, x1⟩ := xsize0 t
  obtain ⟨e0, e1⟩ := idx0 t
  -- the lane is one the fetch moves
  have hm : (cfg0.win 0).moved (grid0.coords t) (ix2 r l) = true := by
    refine ((cfg0.win 0).moved_iff _ _).mpr (Fin.forall_fin_two.2 ⟨?_, ?_⟩)
    · show r.val < (cfg0.win 0).xsize (grid0.coords t) (0 : Fin 2)
      rw [x0]; exact r.isLt
    · show l.val < (cfg0.win 0).xsize (grid0.coords t) (1 : Fin 2)
      rw [x1]
      by_cases h6 : t.val % 7 = 6
      · rw [if_pos h6]; rw [h6] at h; omega
      · rw [if_neg h6]; exact l.isLt
  unfold xin Pipeline.Window.fill
  rw [dif_pos hm]
  unfold iblk
  rw [View.read_apply]
  unfold xOf
  rw [← V_main_arg0 m c]
  show V m c main_arg0 (((cfg0.win 0).blk t).view.emb _) = V m c main_arg0 _
  refine congrArg (V m c main_arg0) (funext fun a => Fin.ext ?_)
  match a with
  | ⟨0, _⟩ =>
    show win0_0.index t (0 : Fin 2) * 512 + 1 * r.val = 512 * (t.val / 7) + r.val
    rw [e0]; omega
  | ⟨1, _⟩ =>
    show win0_0.index t (1 : Fin 2) * 8192 + 1 * l.val = 8192 * (t.val % 7) + l.val
    rw [e1]; omega

end Cert.KernelIdeal.KValue

end
-- ==== Proof.Payloads.lean ====
/-
  The values the kernel body stores, read at a row, at the ideal instance (floats are extended reals).

  The scratch column's update at a column tile is, row by row, the maximum of what the scratch held and the
  maximum of the tile's row (at the last tile only over the lanes whose column number `6 · 8192 + lane` is below
  50257, that is the first 1105 lanes; the others are replaced by minus infinity, the bottom element).  The value
  stored to the result's buffer at the last tile is, row by row, the blackout row loss computed from the running
  maximum `M`, the label's logit, the 512 sampled logits, the label word and the 512 sampled words.
-/
import proofs.«420491_j3599182594543_3_alg».proof.Proof.Gen.KernelIdeal.Skeleton
import proofs.«420491_j3599182594543_3_alg».proof.Proof.Blackout
import Idealize.ShloMosaic.Lib.ValueIdx
import Idealize.ShloMosaic.Lib.Pipeline.Value
import Idealize.ShloMosaic.Lib.ValueLayout
import Idealize.ShloMosaic.PureOps.Ideal.Laws

noncomputable section

namespace Cert.KernelIdeal.Payloads

open Cert.KernelIdeal Cert.KernelIdeal.Gen
open Idealize.ShloMosaic Idealize.ShloMosaic.ValueIdx
open Cert.Blackout

/-- A row's loss from its running maximum `M`, its label's logit `p0`, its sampled logits `v`, its label word and
    the sampled words (the arrangement of `Cert.Blackout.rowLossA`). -/
def rowLossOf (M p0 : EReal) (v : Fin 512 → EReal) (lab : BitVec 32) (w : Fin 512 → BitVec 32) : EReal :=
  Ideal.log (Ideal.div (c512 * Ideal.exp (p0 - M))
        (c512 * Ideal.exp (p0 - M) + (cZero + ∑ j, c512 * Ideal.exp (v j - M) * neFlag lab (w j))) + cEps)
    + (cZero + ∑ j, Ideal.log ((cOne - Ideal.div (c512 * Ideal.exp (v j - M) * neFlag lab (w j))
        (c512 * Ideal.exp (p0 - M) + (cZero + ∑ j, c512 * Ideal.exp (v j - M) * neFlag lab (w j)))) + cEps))

theorem rowLossA_eq (x : Fin 4096 → Fin 50257 → EReal) (y : Fin 4096 → BitVec 32) (ind : Fin 512 → BitVec 32) (b : Fin 4096) :
    rowLossA x y ind b = rowLossOf (rowMax x b) (colFill x b (y b)) (fun j => colFill x b (ind j)) (y b) ind := by
  unfold rowLossA normA posA negA rowLossOf
  rfl

/-! ### Layout operations of a column, read at a row -/

section Layout
variable {α : Type}

/-- An `[a]` vector cast to the column `[a, 1]` reads, at `(i, u)`, the vector at `i`: the two row-major positions
    are `i` and `i · 1 + u` with `u = 0`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- A column `[a, 1]` broadcast to `[a, b]` reads, at `(p, c)`, the column at row `p`. -/
theorem broadcastTo_a1_ab_apply {a b : ℕ} (v : (⟨2, ![a, 1]⟩ : Shape).Idx → α)
    (h : (⟨2, ![a, 1]⟩ : Shape).Broadcasts ⟨2, ![a, b]⟩) (p : Fin a) (c : Fin b) :
    broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Layout

/-! ### Literals and elementwise operations at an index -/

/-- The word `0xFF800000` denotes minus infinity, the bottom element. -/
theorem negInf_eq : Ideal.ofBits .f32 0xFF800000#32 = (⊥ : EReal) := by
  simp [Ideal.ofBits, Ideal.ieee]

/-- An exponential at an index is the exponential of the element. -/
theorem exp_at {s : Shape} {φ : FTy} (a : FVec Ideal s φ) (i : s.Idx) : exp a i = Ideal.exp (a i) := rfl
/-- A logarithm at an index is the logarithm of the element. -/
theorem log_at {s : Shape} {φ : FTy} (a : FVec Ideal s φ) (i : s.Idx) : log a i = Ideal.log (a i) := rfl

/-! ### The lane reductions at a row -/

/-- The index a lane reduction of a `[512, n]` vector inserts lane `l` into, at row `r`, is `(r, l)`. -/
theorem lift8192 (r : Fin 512) (l : Fin 8192) : reduces_S512x8192_S512.lift (ix1 r) l = ix2 r l :=
  funext fun a => Fin.ext (by match a with | ⟨0, _⟩ => rfl | ⟨1, _⟩ => rfl)

theorem lift512 (r : Fin 512) (l : Fin 512) : reduces_S512x512_S512.lift (ix1 r) l = ix2 r l :=
  funext fun a => Fin.ext (by match a with | ⟨0, _⟩ => rfl | ⟨1, _⟩ => rfl)

/-- The maximum over the lanes of a `[512, 8192]` vector from minus infinity, at row `r`: the fold of `max` from
    the bottom element over the row's 8192 entries. -/
theorem laneMax_at (X : FVec Ideal S512x8192 .f32) (r : Fin 512) :
    multiReduction (F := Ideal) .maximumf [1] S512 X 0xFF800000#32 reduces_S512x8192_S512 (.inl rfl) rfl (ix1 r)
      = (Finset.univ : Finset (Fin 8192)).fold max ⊥ fun l => X (ix2 r l) := by
  refine (Ideal.multiReduction_maximumf_single X 0xFF800000#32 reduces_S512x8192_S512 (.inl rfl) rfl (ix1 r)).trans ?_
  show (Finset.univ : Finset (Fin 8192)).fold max (Ideal.ofBits .f32 0xFF800000#32)
      (fun l => X (reduces_S512x8192_S512.lift (ix1 r) l)) = _
  rw [negInf_eq]
  exact Finset.fold_congr fun l _ => congrArg X (lift8192 r l)

/-- The sum over the lanes of a `[512, 512]` vector from zero, at row `r`: the sum of the row's 512 entries. -/
theorem laneSum_at (V : FVec Ideal S512x512 .f32) (r : Fin 512) :
    multiReduction (F := Ideal) .add [1] S512 V 0x00000000#32 reduces_S512x512_S512 (.inl rfl) rfl (ix1 r)
      = ∑ l : Fin 512, V (ix2 r l) := by
  refine (Ideal.multiReduction_add_single V 0x00000000#32 reduces_S512x512_S512 (.inl rfl) rfl (ix1 r)).trans ?_
  show ∑ l : Fin 512, V (reduces_S512x512_S512.lift (ix1 r) l) = _
  exact Finset.sum_congr rfl fun l _ => congrArg V (lift512 r l)

/-! ### The scratch column's updates -/

/-- The reset value: minus infinity in every row. -/
theorem reset_at (r : Fin 512) : k0_pay1 (F := Ideal) (ix2 r (0 : Fin 1)) = ⊥ := by
  unfold k0_pay1
  show shapeCast S512x1 (broadcast S512x1 (Scalar.ofBits (F := Ideal) .f32 0xFF800000#32)) shapeCasts_S512x1_S512x1
      (ix2 r (0 : Fin 1)) = ⊥
  refine (congrFun (shapeCast_self _ _) _).trans ?_
  exact negInf_eq

/-- An unmasked tile folded into the scratch: row `r` ends at the maximum of what it held and the tile's row. -/
theorem fold_tile_at (X : Vec Ideal S512x8192 .f32) (prev : Vec Ideal S512x1 .f32) (r : Fin 512) :
    k0_pay2 (F := Ideal) X prev (ix2 r (0 : Fin 1))
      = max (prev (ix2 r (0 : Fin 1))) ((Finset.univ : Finset (Fin 8192)).fold max ⊥ fun l => X (ix2 r l)) := by
  unfold k0_pay2
  dsimp only
  refine (congrFun (shapeCast_self _ _) _).trans ?_
  refine (maximumf_apply _ _ _).trans ?_
  refine congrArg (max (prev (ix2 r (0 : Fin 1)))) ?_
  refine (shapeCast_a_a1_apply _ _ r 0).trans ?_
  exact laneMax_at X r

/-! #### The last tile's lane mask -/

/-- Lane `l` of the last tile is column `6 · 8192 + l`, which is below 50257 exactly when `l` is below 1105:
    both numbers are far below `2 ^ 31`, so the signed comparison of the words is the comparison of the numbers. -/
theorem lane_slt (l : Fin 8192) :
    (49152#32 + BitVec.ofNat 32 l.val).slt 50257#32 = decide (l.val < 1105) := by
  have hl := l.isLt
  have h1 : (49152#32 + BitVec.ofNat 32 l.val).toNat = 49152 + l.val := by
    rw [BitVec.toNat_add, BitVec.toNat_ofNat, BitVec.toNat_ofNat]; omega
  have h2 : (49152#32 + BitVec.ofNat 32 l.val).toInt = 49152 + (l.val : Int) := by
    rw [BitVec.toInt_eq_toNat_of_lt (by rw [h1]; omega), h1]; rfl
  have h3 : (50257#32 : BitVec 32).toInt = 50257 := by decide
  unfold BitVec.slt
  rw [h2, h3]
  exact decide_eq_decide.mpr (by omega)

/-- The mask bit of lane `l` at the last tile. -/
theorem mask_bit (l : Fin 8192) :
    IntOp.cmpi .slt (IntOp.addi (Scalar.muli 6#32 8192#32) (BitVec.ofNat 32 l.val)) 50257#32
      = if l.val < 1105 then 1#1 else 0#1 := by
  have hm : Scalar.muli 6#32 8192#32 = 49152#32 := by decide
  rw [hm]
  show BitVec.ofBool ((49152#32 + BitVec.ofNat 32 l.val).slt 50257#32) = _
  rw [lane_slt]
  by_cases h : l.val < 1105
  · rw [if_pos h, decide_eq_true h]; rfl
  · rw [if_neg h, decide_eq_false h]; rfl

/-- A fold of `max` from the bottom element over entries that are replaced by the bottom element off a set is the
    fold over that set: the bottom element is `max`'s unit. -/
theorem fold_max_ite {ι : Type} [DecidableEq ι] (s : Finset ι) (p : ι → Prop) [DecidablePred p] (f : ι → EReal) :
    s.fold max ⊥ (fun i => if p i then f i else ⊥) = (s.filter p).fold max ⊥ f := by
  induction s using Finset.induction_on with
  | empty => rfl
  | insert a s ha ih =>
    rw [Finset.fold_insert ha, ih, Finset.filter_insert]
    by_cases hp : p a
    · rw [if_pos hp, if_pos hp, Finset.fold_insert (fun hm => ha (Finset.mem_filter.mp hm).1)]
    · rw [if_neg hp, if_neg hp]
      exact max_eq_right bot_le

/-- The last tile's masked entry at `(r, l)`: the tile's entry on the first 1105 lanes, the bottom element on the others. -/
theorem masked_at (X : Vec Ideal S512x8192 .f32) (r : Fin 512) (l : Fin 8192) :
    select (cmpi .slt (addi (broadcast S512x8192 (Scalar.muli 6#32 8192#32))
          (iota .tc S512x8192 32 [1] iota_S512x8192_d1_w32)) (broadcast S512x8192 50257#32))
        X (broadcast S512x8192 (Scalar.ofBits (F := Ideal) .f32 0xFF800000#32)) (ix2 r l)
      = if l.val < 1105 then X (ix2 r l) else ⊥ := by
  refine (select_apply _ _ _ _).trans ?_
  have hi : iota .tc S512x8192 32 [1] iota_S512x8192_d1_w32 (ix2 r l) = BitVec.ofNat 32 l.val :=
    iota_single_apply .tc S512x8192 32 1 iota_S512x8192_d1_w32 (ix2 r l)
  have hc : cmpi .slt (addi (broadcast S512x8192 (Scalar.muli 6#32 8192#32))
        (iota .tc S512x8192 32 [1] iota_S512x8192_d1_w32)) (broadcast S512x8192 50257#32) (ix2 r l)
      = if l.val < 1105 then 1#1 else 0#1 := by
    show IntOp.cmpi .slt (IntOp.addi (Scalar.muli 6#32 8192#32)
        (iota .tc S512x8192 32 [1] iota_S512x8192_d1_w32 (ix2 r l))) 50257#32 = _
    rw [hi]
    exact mask_bit l
  rw [hc]
  by_cases h : l.val < 1105
  · rw [if_pos h, if_pos h]; exact select_one _ _
  · rw [if_neg h, if_neg h]
    refine (select_zero _ _).trans ?_
    exact negInf_eq

/-- The last tile folded into the scratch: only the first 1105 lanes count. -/
theorem fold_last_tile_at (X : Vec Ideal S512x8192 .f32) (prev : Vec Ideal S512x1 .f32) (r : Fin 512) :
    k0_pay4 (F := Ideal) 6#32 X prev (ix2 r (0 : Fin 1))
      = max (prev (ix2 r (0 : Fin 1))) ((Finset.univ.filter fun l : Fin 8192 => l.val < 1105).fold max ⊥ fun l => X (ix2 r l)) := by
  unfold k0_pay4
  dsimp only
  refine (maximumf_apply _ _ _).trans ?_
  refine congrArg (max (prev (ix2 r (0 : Fin 1)))) ?_
  refine (shapeCast_a_a1_apply _ _ r 0).trans ?_
  refine (laneMax_at _ r).trans ?_
  refine Eq.trans ?_ (fold_max_ite Finset.univ (fun l : Fin 8192 => l.val < 1105) (fun l => X (ix2 r l)))
  exact Finset.fold_congr fun l _ => masked_at X r l

theorem stored_last_at (X : Vec Ideal S512x8192 .f32) (prev : Vec Ideal S512x1 .f32) (r : Fin 512) :
    k0_pay5 (F := Ideal) 6#32 X prev (ix2 r (0 : Fin 1)) = k0_pay4 (F := Ideal) 6#32 X prev (ix2 r (0 : Fin 1)) := by
  unfold k0_pay5
  exact congrFun (shapeCast_self _ _) _

/-! ### The stored loss -/

/-- The mask word of two class words, widened and read as a number: `[a ≠ b]`. -/
theorem neFlag_word (a b : BitVec 32) :
    ((((IntOp.cmpi .ne a b).setWidth 32).toInt : ℝ) : EReal) = neFlag a b := by
  unfold neFlag
  by_cases h : a = b
  · rw [if_pos h]
    have hb : IntOp.cmpi .ne a b = 0#1 := by
      show BitVec.ofBool (a != b) = 0#1
      rw [h]; simp
    rw [hb]
    have : ((0#1 : BitVec 1).setWidth 32).toInt = 0 := by decide
    rw [this]; simp
  · rw [if_neg h]
    have hb : IntOp.cmpi .ne a b = 1#1 := by
      show BitVec.ofBool (a != b) = 1#1
      have : (a != b) = true := by simpa using h
      rw [this]; rfl
    rw [hb]
    have : ((1#1 : BitVec 1).setWidth 32).toInt = 1 := by decide
    rw [this]; simp

/-- The positive term at row `r`: `512 · exp (label's logit − M)`. -/
theorem pay6_at (X : Vec Ideal S512x8192 .f32) (prev : Vec Ideal S512x1 .f32) (yg : Vec Ideal S512x1 .f32) (r : Fin 512) :
    k0_pay6 (F := Ideal) 6#32 X prev yg (ix2 r (0 : Fin 1))
      = c512 * Ideal.exp (yg (ix2 r (0 : Fin 1)) - k0_pay4 (F := Ideal) 6#32 X prev (ix2 r (0 : Fin 1))) := by
  unfold k0_pay6
  show c512 * Ideal.exp (shapeCast S512x1 yg shapeCasts_S512x1_S512x1 (ix2 r (0 : Fin 1))
      - k0_pay4 (F := Ideal) 6#32 X prev (ix2 r (0 : Fin 1))) = _
  rw [shapeCast_self]

/-- A sampled term at `(r, j)`: `512 · exp (sampled logit − M) · [label ≠ sampled word]`. -/
theorem pay7_at (X : Vec Ideal S512x8192 .f32) (prev : Vec Ideal S512x1 .f32)
    (yb : Vec Ideal S512x1 .i32) (yhi : Vec Ideal S512x512 .f32) (indrow : Vec Ideal S1x512 .i32) (r j : Fin 512) :
    k0_pay7 (F := Ideal) 6#32 X prev yb yhi indrow (ix2 r j)
      = c512 * Ideal.exp (yhi (ix2 r j) - k0_pay4 (F := Ideal) 6#32 X prev (ix2 r (0 : Fin 1)))
          * neFlag (yb (ix2 r (0 : Fin 1))) (indrow (ix2 (0 : Fin 1) j)) := by
  unfold k0_pay7
  show c512 * Ideal.exp (shapeCast S512x512 yhi shapeCasts_S512x512_S512x512 (ix2 r j)
        - broadcastTo S512x512 (k0_pay4 (F := Ideal) 6#32 X prev) broadcasts_S512x1_S512x512 (ix2 r j))
      * ((((IntOp.cmpi .ne
          (broadcastTo S512x512 (shapeCast S512x1 yb shapeCasts_S512x1_S512x1) broadcasts_S512x1_S512x512 (ix2 r j))
          (broadcastTo S512x512 (shapeCast S1x512 indrow shapeCasts_S1x512_S1x512) broadcasts_S1x512_S512x512 (ix2 r j))).setWidth 32).toInt : ℝ) : EReal) = _
  rw [neFlag_word, shapeCast_self, shapeCast_self, shapeCast_self, broadcastTo_a1_ab_apply, broadcastTo_a1_ab_apply,
    broadcastTo_1b_ab_apply]

/-- The sampled terms' sum at row `r`. -/
theorem pay8_at (X : Vec Ideal S512x8192 .f32) (prev : Vec Ideal S512x1 .f32)
    (yb : Vec Ideal S512x1 .i32) (yhi : Vec Ideal S512x512 .f32) (indrow : Vec Ideal S1x512 .i32) (r : Fin 512) :
    k0_pay8 (F := Ideal) 6#32 X prev yb yhi indrow (ix2 r (0 : Fin 1))
      = ∑ j : Fin 512, k0_pay7 (F := Ideal) 6#32 X prev yb yhi indrow (ix2 r j) := by
  unfold k0_pay8
  dsimp only
  refine (shapeCast_a_a1_apply _ _ r 0).trans ?_
  exact laneSum_at _ r

/-- The loss from a positive term `v32`, sampled terms `v47` and their sum `v49`, at row `r`. -/
theorem pay3_at (v32 : FVec Ideal S512x1 .f32) (v47 : FVec Ideal S512x512 .f32) (v49 : FVec Ideal S512x1 .f32) (r : Fin 512) :
    k0_pay3 (F := Ideal) v32 v47 v49 (ix2 r (0 : Fin 1))
      = Ideal.log (Ideal.div (v32 (ix2 r (0 : Fin 1))) (v32 (ix2 r (0 : Fin 1)) + v49 (ix2 r (0 : Fin 1))) + cEps)
        + ∑ j : Fin 512, Ideal.log ((cOne - Ideal.div (v47 (ix2 r j))
            (v32 (ix2 r (0 : Fin 1)) + v49 (ix2 r (0 : Fin 1)))) + cEps) := by
  unfold k0_pay3
  dsimp only
  refine (addf_apply _ _ _).trans ?_
  refine congrArg₂ (· + ·) rfl ?_
  refine (shapeCast_a_a1_apply _ _ r 0).trans ?_
  refine (laneSum_at _ r).trans ?_
  refine Finset.sum_congr rfl fun j _ => ?_
  show Ideal.log ((cOne - Ideal.div (v47 (ix2 r j))
      (broadcastTo S512x512 (addf v32 v49) broadcasts_S512x1_S512x512 (ix2 r j))) + cEps) = _
  rw [broadcastTo_a1_ab_apply]
  rfl

/-- The value stored to the result's buffer at the last tile, at row `r`: the row loss from the running maximum. -/
theorem loss_at (X : Vec Ideal S512x8192 .f32) (prev : Vec Ideal S512x1 .f32) (yg : Vec Ideal S512x1 .f32)
    (yb : Vec Ideal S512x1 .i32) (yhi : Vec Ideal S512x512 .f32) (indrow : Vec Ideal S1x512 .i32) (r : Fin 512) :
    k0_pay3 (F := Ideal) (k0_pay6 6#32 X prev yg) (k0_pay7 6#32 X prev yb yhi indrow) (k0_pay8 6#32 X prev yb yhi indrow)
        (ix2 r (0 : Fin 1))
      = rowLossOf (k0_pay4 (F := Ideal) 6#32 X prev (ix2 r (0 : Fin 1))) (yg (ix2 r (0 : Fin 1)))
          (fun j => yhi (ix2 r j)) (yb (ix2 r (0 : Fin 1))) (fun j => indrow (ix2 (0 : Fin 1) j)) := by
  rw [pay3_at, pay6_at, pay8_at]
  simp only [pay7_at]
  unfold rowLossOf
  simp only [cZero_eq, zero_add]

end Cert.KernelIdeal.Payloads

end
-- ==== Proof.KRunningMax.lean ====
/-
  The running maximum and the stored losses, in terms of the argument arrays.

  After the body at grid point `t` (row tile `t / 7`, column step `t % 7`) the scratch column holds, in row `r`,
  the maximum of the array row's entries in the column tiles done so far (`Cert.Blackout.tileMax`): by induction
  on the point, the reset at column step 0 starting each row tile afresh.  At a last column step that maximum is
  the whole row's, and the value the body stores to the result's buffer is the row's blackout loss.
-/
import proofs.«420491_j3599182594543_3_alg».proof.Proof.KBlocks
import proofs.«420491_j3599182594543_3_alg».proof.Proof.Payloads
import proofs.«420491_j3599182594543_3_alg».proof.Proof.MaskedTail
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Cert.Blackout

variable (m : (ℓ : Loc nD τ sig) → Buf (Elt Ideal) ℓ)

/-- The column step as the body reads it is the numeral. -/
theorem kw_last (t : Fin cfg0.N) (h6 : t.val % 7 = 6) : kw t = 6#32 := by
  show BitVec.ofNat 32 ((grid0.coords t) 1).val = 6#32
  rw [lastTile_coord t h6]

/-! ### A tile's lanes as columns of the array row -/

/-- The maximum over the first `n` lanes of a tile that starts at column `lo` is the maximum of the array row over
    the columns `lo ≤ c < lo + n`: lane `l` is column `lo + l`. -/
theorem fold_lanes (row : Fin 50257 → EReal) (lo n : ℕ) (hlo : lo + n ≤ 50257) (hn : n ≤ 8192) (f : Fin 8192 → EReal)
    (hf : ∀ (l : Fin 8192) (h : lo + l.val < 50257), l.val < n → f l = row ⟨lo + l.val, h⟩) :
    (Finset.univ.filter fun l : Fin 8192 => l.val < n).fold max ⊥ f
      = (Finset.univ.filter fun c : Fin 50257 => lo ≤ c.val ∧ c.val < lo + n).fold max ⊥ row := by
  classical
  let g : Fin 8192 → Fin 50257 := fun l => if h : lo + l.val < 50257 then ⟨lo + l.val, h⟩ else ⟨0, by omega⟩
  have hg : ∀ l : Fin 8192, l.val < n → (g l).val = lo + l.val := by
    intro l hl
    have h : lo + l.val < 50257 := by omega
    simp only [g, dif_pos h]
  have himg : (Finset.univ.filter fun c : Fin 50257 => lo ≤ c.val ∧ c.val < lo + n)
      = (Finset.univ.filter fun l : Fin 8192 => l.val < n).image g := by
    ext c
    simp only [Finset.mem_filter, Finset.mem_univ, true_and, Finset.mem_image]
    constructor
    · rintro ⟨h1, h2⟩
      refine ⟨⟨c.val - lo, by omega⟩, by show c.val - lo < n; omega, ?_⟩
      apply Fin.ext
      rw [hg _ (by show c.val - lo < n; omega)]
      show lo + (c.val - lo) = c.val
      omega
    · rintro ⟨l, hl, rfl⟩
      rw [hg l hl]
      omega
  have hinj : ∀ a ∈ (Finset.univ.filter fun l : Fin 8192 => l.val < n),
      ∀ b ∈ (Finset.univ.filter fun l : Fin 8192 => l.val < n), g a = g b → a = b := by
    intro a ha b hb hab
    simp only [Finset.mem_filter, Finset.mem_univ, true_and] at ha hb
    have := congrArg Fin.val hab
    rw [hg a ha, hg b hb] at this
    exact Fin.ext (by omega)
  rw [himg, Finset.fold_image hinj]
  refine Finset.fold_congr fun l hl => ?_
  simp only [Finset.mem_filter, Finset.mem_univ, true_and] at hl
  have h : lo + l.val < 50257 := by omega
  show f l = row (g l)
  rw [hf l h hl]
  congr 1
  exact Fin.ext (hg l hl).symm

/-- All 8192 lanes of a tile that lies inside the array. -/
theorem fold_lanes_all (row : Fin 50257 → EReal) (lo : ℕ) (hlo : lo + 8192 ≤ 50257) (f : Fin 8192 → EReal)
    (hf : ∀ (l : Fin 8192) (h : lo + l.val < 50257), f l = row ⟨lo + l.val, h⟩) :
    (Finset.univ : Finset (Fin 8192)).fold max ⊥ f
      = (Finset.univ.filter fun c : Fin 50257 => lo ≤ c.val ∧ c.val < lo + 8192).fold max ⊥ row := by
  have h := fold_lanes row lo 8192 hlo le_rfl f fun l h _ => hf l h
  rwa [Finset.filter_true_of_mem fun l _ => l.isLt] at h

/-- Two descriptions of one set of columns give one maximum. -/
theorem fold_filter_congr (row : Fin 50257 → EReal) (p q : Fin 50257 → Prop) [DecidablePred p] [DecidablePred q]
    (h : ∀ c, p c ↔ q c) :
    (Finset.univ.filter p).fold max ⊥ row = (Finset.univ.filter q).fold max ⊥ row := by
  rw [Finset.filter_congr fun c _ => h c]

/-! ### The logits' tile at a point, as columns of the array row -/

/-- Consecutive points of one row tile name the same array rows. -/
theorem rowOf_pred (t : Fin cfg0.N) (h0 : ¬t.val % 7 = 0) (r : Fin 512) :
    rowOf ⟨t.val - 1, Nat.lt_of_le_of_lt (Nat.sub_le _ _) t.isLt⟩ r = rowOf t r := by
  apply Fin.ext
  show 512 * ((t.val - 1) / 7) + r.val = 512 * (t.val / 7) + r.val
  omega

/-- Column step 0: the tile's row is the first 8192 columns. -/
theorem tile_first (c : Dev nD) (t : Fin cfg0.N) (h0 : t.val % 7 = 0) (r : Fin 512) :
    (Finset.univ : Finset (Fin 8192)).fold max ⊥ (fun l => xin m c t dFill (ix2 r l))
      = tileMax (xOf m c (rowOf t r)) 0 := by
  rw [tileMax_zero, fold_lanes_all (xOf m c (rowOf t r)) (8192 * (t.val % 7)) (by omega) _
    fun l h => logits_at m c t dFill r l h]
  exact fold_filter_congr _ _ _ fun c => by omega

/-- Column steps 1 to 5: the tile's row is the next 8192 columns, all inside the array. -/
theorem tile_next (c : Dev nD) (t : Fin cfg0.N) (k : ℕ) (hk : t.val % 7 = k + 1) (hk5 : k + 1 ≤ 5) (r : Fin 512) :
    (Finset.univ : Finset (Fin 8192)).fold max ⊥ (fun l => xin m c t dFill (ix2 r l))
      = (Finset.univ.filter fun c : Fin 50257 => (k + 1) * 8192 ≤ c.val ∧ c.val < (k + 2) * 8192).fold max ⊥
          (xOf m c (rowOf t r)) := by
  rw [fold_lanes_all (xOf m c (rowOf t r)) (8192 * (t.val % 7)) (by omega) _
    fun l h => logits_at m c t dFill r l h]
  exact fold_filter_congr _ _ _ fun c => by omega

/-- Column step 6: the first 1105 lanes are the array's last 1105 columns, `49152 ≤ c < 50257`. -/
theorem tile_last (c : Dev nD) (t : Fin cfg0.N) (h6 : t.val % 7 = 6) (r : Fin 512) :
    (Finset.univ.filter fun l : Fin 8192 => l.val < 1105).fold max ⊥ (fun l => xin m c t dFill (ix2 r l))
      = (Finset.univ.filter fun c : Fin 50257 => (5 + 1) * 8192 ≤ c.val ∧ c.val < (5 + 2) * 8192).fold max ⊥
          (xOf m c (rowOf t r)) := by
  rw [fold_lanes (xOf m c (rowOf t r)) (8192 * (t.val % 7)) 1105 (by omega) (by omega) _
    fun l h _ => logits_at m c t dFill r l h]
  exact fold_filter_congr _ _ _ fun c => by have := c.isLt; omega

/-! ### The running maximum, point by point -/

/-- Column step 0: the reset value is the bottom element, so the scratch holds the first tile's maximum. -/
theorem step_first (c : Dev nD) (t : Fin cfg0.N) (h0 : t.val % 7 = 0) (r : Fin 512) :
    scAt m c t.val t.isLt (ix2 r (0 : Fin 1)) = tileMax (xOf m c (rowOf t r)) (t.val % 7) := by
  rw [scAt_first m c t h0, Payloads.fold_tile_at, Payloads.reset_at, max_bot_left, tile_first m c t h0 r, h0]

/-- Column steps 1 to 5: one more tile folded into the maximum so far. -/
theorem step_inner (c : Dev nD) (t : Fin cfg0.N) (h0 : ¬t.val % 7 = 0) (h6 : ¬t.val % 7 = 6) (r : Fin 512)
    (hprev : scAt m c (t.val - 1) (Nat.lt_of_le_of_lt (Nat.sub_le _ _) t.isLt) (ix2 r (0 : Fin 1))
      = tileMax (xOf m c (rowOf t r)) (t.val % 7 - 1)) :
    scAt m c t.val t.isLt (ix2 r (0 : Fin 1)) = tileMax (xOf m c (rowOf t r)) (t.val % 7) := by
  obtain ⟨k, hk⟩ : ∃ k, t.val % 7 = k + 1 := ⟨t.val % 7 - 1, by omega⟩
  rw [scAt_inner m c t h0 h6, Payloads.fold_tile_at, hprev, tile_next m c t k hk (by omega) r, hk,
    Nat.add_sub_cancel, tileMax_succ]

/-- The masked maximum of the last column step, from the maximum of the first six tiles. -/
theorem lastMax_of (c : Dev nD) (t : Fin cfg0.N) (h6 : t.val % 7 = 6) (r : Fin 512)
    (hprev : scAt m c (t.val - 1) (Nat.lt_of_le_of_lt (Nat.sub_le _ _) t.isLt) (ix2 r (0 : Fin 1))
      = tileMax (xOf m c (rowOf t r)) 5) :
    k0_pay4 (F := Ideal) 6#32 (xin m c t dFill) (scAt m c (t.val - 1) (Nat.lt_of_le_of_lt (Nat.sub_le _ _) t.isLt))
        (ix2 r (0 : Fin 1))
      = tileMax (xOf m c (rowOf t r)) 6 := by
  rw [Payloads.fold_last_tile_at, hprev, tile_last m c t h6 r]
  exact (tileMax_succ _ 5).symm

/-- Column step 6: the scratch is stored with that masked maximum. -/
theorem step_last (c : Dev nD) (t : Fin cfg0.N) (h6 : t.val % 7 = 6) (r : Fin 512)
    (hprev : scAt m c (t.val - 1) (Nat.lt_of_le_of_lt (Nat.sub_le _ _) t.isLt) (ix2 r (0 : Fin 1))
      = tileMax (xOf m c (rowOf t r)) 5) :
    scAt m c t.val t.isLt (ix2 r (0 : Fin 1)) = tileMax (xOf m c (rowOf t r)) (t.val % 7) := by
  rw [scAt_last m c t h6, kw_last t h6, Payloads.stored_last_at, lastMax_of m c t h6 r hprev, h6]

theorem scratch_at (c : Dev nD) (t : Fin cfg0.N) (r : Fin 512) :
    scAt m c t.val t.isLt (ix2 r (0 : Fin 1)) = tileMax (xOf m c (rowOf t r)) (t.val % 7) := by
  suffices H : ∀ n, ∀ t : Fin cfg0.N, t.val = n → ∀ r : Fin 512,
      scAt m c t.val t.isLt (ix2 r (0 : Fin 1)) = tileMax (xOf m c (rowOf t r)) (t.val % 7) from H t.val t rfl r
  intro n
  induction n with
  | zero =>
    intro t ht r
    exact step_first m c t (by rw [ht]) r
  | succ n ih =>
    intro t ht r
    by_cases h0 : t.val % 7 = 0
    · exact step_first m c t h0 r
    · have hp := ih ⟨t.val - 1, Nat.lt_of_le_of_lt (Nat.sub_le _ _) t.isLt⟩ (by show t.val - 1 = n; omega) r
      rw [rowOf_pred t h0 r] at hp
      by_cases h6 : t.val % 7 = 6
      · refine step_last m c t h6 r ?_
        rw [show (5 : ℕ) = (t.val - 1) % 7 from by omega]
        exact hp
      · refine step_inner m c t h0 h6 r ?_
        rw [show t.val % 7 - 1 = (t.val - 1) % 7 from by omega]
        exact hp

theorem stored_at (c : Dev nD) (t : Fin cfg0.N) (h6 : t.val % 7 = 6) (r : Fin 512) :
    outAt m c t (ix2 r (0 : Fin 1)) = rowLossA (xOf m c) (yOf m c) (indOf m c) (rowOf t r) := by
  have h0 : ¬t.val % 7 = 0 := by omega
  -- the maximum of the first six tiles, left by the point before
  have hprev : scAt m c (t.val - 1) (Nat.lt_of_le_of_lt (Nat.sub_le _ _) t.isLt) (ix2 r (0 : Fin 1))
      = tileMax (xOf m c (rowOf t r)) 5 := by
    have hp := scratch_at m c ⟨t.val - 1, Nat.lt_of_le_of_lt (Nat.sub_le _ _) t.isLt⟩ r
    rw [rowOf_pred t h0 r] at hp
    rw [show (5 : ℕ) = (t.val - 1) % 7 from by omega]
    exact hp
  unfold outAt
  rw [dif_pos h6, kw_last t h6, Payloads.loss_at, lastMax_of m c t h6 r hprev, tileMax_last, Payloads.rowLossA_eq,
    labelLogit_at, labels_at]
  simp only [gathered_at, sampled_at]
  rfl

end Cert.KernelIdeal.KValue

end
-- ==== Proof.KLossArray.lean ====
/-
  The result array after the region: it holds every row's loss.  Each row tile's block of 512 losses is written back
  once, at the row tile's last column step, and the eight blocks tile the array.

  The result array has 4096 rows and one column; its blocks are 512 rows tall, and the block of grid point `t` is
  block `t / 7` (the row tile), so row `r` of that block is array row `512 · (t / 7) + r`.  What a last column
  step writes back is, row by row, the loss of that array row, which is the restriction to the block of one function
  of the whole array; and array row `b` lies in the block of row tile `b / 512`, written back at grid point
  `7 · (b / 512) + 6`.  So after the last write-back the array is that function.
-/
import proofs.«420491_j3599182594543_3_alg».proof.Proof.KRunningMax
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Cert.Blackout

variable (m : (ℓ : Loc nD τ sig) → Buf (Elt Ideal) ℓ)

/-- The losses as one function of the whole result array: at row `b` (and the one column) the loss of row `b`. -/
abbrev lossesOf (c : Dev nD) : Vec Ideal S4096x1 .f32 :=
  fun idx => rowLossA (xOf m c) (yOf m c) (indOf m c) ⟨(idx 0).val, (idx 0).isLt⟩

/-- The result's block index over the grid: the row tile `t / 7` on the rows, and 0 on the one column. -/
theorem blockIndex5 : ∀ t : Fin cfg0.N, win0_5.index t (0 : Fin 2) = t.val / 7 ∧ win0_5.index t (1 : Fin 2) = 0 :=
  (by decide +kernel : ∀ t : Fin grid0.N, win0_5.index t (0 : Fin 2) = t.val / 7 ∧ win0_5.index t (1 : Fin 2) = 0)

/-- What a last column step writes back is its block of `lossesOf`: row `r` of the stored block is the loss of array
    row `512 · (t / 7) + r`, and the block's row `r` sits at that array row. -/
theorem flushed5_eq (c : Dev nD) (t : Fin cfg0.N) (h6 : t.val % 7 = 6) :
    (dats m 0 c).flushed 5 t = ((cfg0.win 5).blk t).view.read (Elt Ideal) (lossesOf m c) := by
  show (cfg0.win 5).cut (grid0.coords t) ((dats m 0 c).after 5 t) = _
  rw [after_5]
  funext y
  -- the block index `y` by its coordinates: a row below 512 and the one column
  have hr : (y 0).val < 512 := (y 0).isLt
  have h1 : (y 1).val < 1 := (y 1).isLt
  have e : (cfg0.win 5).xinj (grid0.coords t) y = ix2 (⟨(y 0).val, hr⟩ : Fin 512) (0 : Fin 1) := by
    funext a; apply Fin.ext
    match a with
    | ⟨0, _⟩ => rfl
    | ⟨1, _⟩ => show (y 1).val = 0; omega
  show outAt m c t ((cfg0.win 5).xinj (grid0.coords t) y) = lossesOf m c (((cfg0.win 5).blk t).view.emb y)
  rw [e, stored_at m c t h6]
  show rowLossA (xOf m c) (yOf m c) (indOf m c) (rowOf t ⟨(y 0).val, hr⟩)
    = rowLossA (xOf m c) (yOf m c) (indOf m c) ⟨((((cfg0.win 5).blk t).view.emb y) 0).val, ((((cfg0.win 5).blk t).view.emb y) 0).isLt⟩
  congr 1
  apply Fin.ext
  -- the array row of the block's row: block index times 512, plus the row inside the block
  show 512 * (t.val / 7) + (y 0).val = win0_5.index t (0 : Fin 2) * 512 + 1 * (y 0).val
  rw [(blockIndex5 t).1]
  omega

/-- An index of the result array lies in grid point `t`'s block exactly when, on each axis, its coordinate lies in
    the block's range: from the block index times the block's extent, for one extent. -/
theorem mem_block5 (t : Fin cfg0.N) (i : S4096x1.Idx) :
    i ∈ ((cfg0.win 5).blk t).view.set ↔ ∀ a : Fin 2, win0_5.index t a * S512x1.size a ≤ (i a).val ∧ (i a).val < win0_5.index t a * S512x1.size a + S512x1.size a := by
  show i ∈ ((View.whole main_v4).slice (win0_5.rect t)).set ↔ _
  rw [View.set_slice_whole, Rect.mem_set_unit]
  exact Iff.rfl

/-- Every index of the result array lies in a block that is written back: row `b` belongs to row tile `b / 512`,
    whose last column step is grid point `7 · (b / 512) + 6`. -/
theorem covered5 (i : S4096x1.Idx) :
    ∃ t : Fin cfg0.N, (cfg0.win 5).flush t = true ∧ i ∈ ((cfg0.win 5).blk t).view.set := by
  have hi0 : (i 0).val < 4096 := (i 0).isLt
  have hi1 : (i 1).val < 1 := (i 1).isLt
  have hN : cfg0.N = 56 := N_0
  have hlt : 7 * ((i 0).val / 512) + 6 < cfg0.N := by rw [hN]; omega
  obtain ⟨e0, e1⟩ := blockIndex5 ⟨7 * ((i 0).val / 512) + 6, hlt⟩
  refine ⟨⟨7 * ((i 0).val / 512) + 6, hlt⟩, (flush0_5 _).mpr (by show (7 * ((i 0).val / 512) + 6) % 7 = 6; omega), ?_⟩
  rw [mem_block5]
  intro a
  match a with
  | ⟨0, _⟩ =>
    show win0_5.index ⟨7 * ((i 0).val / 512) + 6, hlt⟩ (0 : Fin 2) * 512 ≤ (i 0).val
      ∧ (i 0).val < win0_5.index ⟨7 * ((i 0).val / 512) + 6, hlt⟩ (0 : Fin 2) * 512 + 512
    rw [e0]
    show (7 * ((i 0).val / 512) + 6) / 7 * 512 ≤ (i 0).val ∧ (i 0).val < (7 * ((i 0).val / 512) + 6) / 7 * 512 + 512
    omega
  | ⟨1, _⟩ =>
    show win0_5.index ⟨7 * ((i 0).val / 512) + 6, hlt⟩ (1 : Fin 2) * 1 ≤ (i 1).val
      ∧ (i 1).val < win0_5.index ⟨7 * ((i 0).val / 512) + 6, hlt⟩ (1 : Fin 2) * 1 + 1
    rw [e1]
    omega

/-- The result array after the last write-back. -/
theorem losses_array (c : Dev nD) :
    ((dats m 0 c).arrAt 5 cfg0.N : Vec Ideal S4096x1 .f32)
      = fun idx => rowLossA (xOf m c) (yOf m c) (indOf m c) ⟨(idx 0).val, (idx 0).isLt⟩ :=
  (dats m 0 c).arrAt_eq_of_cover 5 (lossesOf m c) (fun t hf => flushed5_eq m c t ((flush0_5 t).mp hf)) covered5

end Cert.KernelIdeal.KValue

end
-- ==== Proof.KResult.lean ====
/-
  The kernel program's result: the host lines after the region sum the result array's 4096 row losses, negate and
  divide by `4096 · 513`: `Cert.Blackout.lossA` of the argument arrays.
-/
import proofs.«420491_j3599182594543_3_alg».proof.Proof.KLossArray
import Idealize.ShloMosaic.Lib.ValueIdx
import Idealize.ShloMosaic.Lib.Pipeline.Value
import Idealize.ShloMosaic.Lib.StableHlo.Run
import Idealize.ShloMosaic.PureOps.Ideal.Laws

set_option maxRecDepth 16384

noncomputable section

namespace Cert.KernelIdeal.KValue

open Cert.KernelIdeal Cert.KernelIdeal.Gen Cert.KernelIdeal.Hand
open Idealize.ShloMosaic Idealize.ShloMosaic.TcCoe Idealize.ShloMosaic.ValueIdx
open Idealize.SL.Sem
open Cert.Blackout

variable (m : (ℓ : Loc nD τ sig) → Buf (Elt Ideal) ℓ)

/-- A sum over the index set of a `[4096, 1]` array is the sum over its 4096 rows: the index set is the product of
    the rows and the one column. -/
theorem sum_rows (f : Fin 4096 → EReal) :
    ∑ j : S4096x1.Idx, f ⟨(j 0).val, (j 0).isLt⟩ = ∑ b : Fin 4096, f b := by
  refine (sum_idx2 (n0 := 4096) (n1 := 1) fun j => f ⟨(j 0).val, (j 0).isLt⟩).trans ?_
  refine Finset.sum_congr rfl fun b _ => ?_
  exact Fin.sum_univ_one _

/-- What @main returns, as the host lines after the region compute it from the result array. -/
theorem result_eq (c : Dev nD) :
    (Pipeline.afterTail₀ cfgs (dats m) 0 (V0 m) [hostOps1] c main_v7 : Vec Ideal S_ .f32)
      = fun _ => lossA (xOf m c) (yOf m c) (indOf m c) := by
  unfold Pipeline.afterTail₀
  show StableHlo.after hostOps1 _ (Proc.devRef .tc main_v7) = _
  after_results
  -- the result array as the region leaves it: every row's loss
  have hA : Pipeline.withArrays (cfgs 0).spec c (V0 m c) (fun w => (dats m 0 c).arrAt w (cfgs 0).N)
        (Proc.devRef .tc main_v4)
      = fun idx => rowLossA (xOf m c) (yOf m c) (indOf m c) ⟨(idx 0).val, (idx 0).isLt⟩ :=
    (Pipeline.withArrays_arr spec0 launch0.win.arr_inj c _ _ 5).trans (losses_array m c)
  rw [hA]
  funext i
  -- the sum of the whole array from the literal zero, negated, over the literal `4096 · 513`
  show Ideal.div (-(Ideal.hostReduceAdd reducesTo_S4096x1_S_d0_1
        (fun idx : S4096x1.Idx => rowLossA (xOf m c) (yOf m c) (indOf m c) ⟨(idx 0).val, (idx 0).isLt⟩) cZero i)) cTot = _
  rw [Ideal.hostReduceAdd_total reducesTo_S4096x1_S_d0_1 (fun b => b.elim0), sum_rows]
  rfl

end Cert.KernelIdeal.KValue

end
-- ==== Proof.RefValue.lean ====
/-
  The reference program's result at the ideal instance is the blackout loss in the arrangement that subtracts the
  row maximum first (`Cert.Blackout.lossB`).
-/
import proofs.«420491_j3599182594543_3_alg».proof.Proof.ReferenceRead
import proofs.«420491_j3599182594543_3_alg».proof.Proof.Blackout
import proofs.«420491_j3599182594543_3_alg».proof.Proof.RefValueStages
import Idealize.ShloMosaic.Lib.ValueIdx
import Idealize.ShloMosaic.Lib.Pipeline.Value
import Idealize.ShloMosaic.PureOps.Ideal.Laws

noncomputable section

namespace Cert.ReferenceIdeal.RefValue

open Idealize.ShloMosaic Idealize.ShloMosaic.ValueIdx
open Cert.ReferenceIdeal Cert.ReferenceIdeal.Gen Cert.ReferenceIdeal.ReadP

open Cert.ReferenceIdeal.RefStages

variable (x0 : (⟨S4096x50257, .f32⟩ : BufTy).Contents (Elt Ideal)) (x1 : (⟨S4096, .i32⟩ : BufTy).Contents (Elt Ideal))
  (x2 : (⟨S512, .i32⟩ : BufTy).Contents (Elt Ideal))

/-- The three argument arrays read by coordinates: the logits, the labels, the sampled class words. -/
abbrev X : Fin 4096 → Fin 50257 → EReal := fun b c => x0 (ix2 b c)
abbrev Y : Fin 4096 → BitVec 32 := fun b => x1 (ix1 b)
abbrev W : Fin 512 → BitVec 32 := fun j => x2 (ix1 j)

/-! ### The label of a row, wrapped, and whether it names a column -/

/-- The labels as a column: at (b, 0), row b's label. -/
theorem label_at (b : Fin 4096) : val_main_v4 (F := Ideal) x1 (ix2 b (0 : Fin 1)) = x1 (ix1 b) := by
  rw [val_main_v4_apply]
  exact congrArg x1 (funext fun a => by match a with | ⟨0, _⟩ => rfl)

/-- The wrapped labels as a 4096 × 1 × 1 array of start indices: at (b, 0, 0), row b's label wrapped. -/
theorem wrapLabel_at (b : Fin 4096) :
    val_main_call0_v5 (F := Ideal) x1 (ix3 b (0 : Fin 1) (0 : Fin 1)) = Cert.Blackout.wrapWord (x1 (ix1 b)) := by
  have e : idx_main_call0_v5 (ix3 b (0 : Fin 1) (0 : Fin 1)) = ix2 b (0 : Fin 1) :=
    funext fun a => Fin.ext (by
      match a with
      | ⟨0, _⟩ => show ((b.val * 1 + 0) * 1 + 0) / 1 = b.val; omega
      | ⟨1, _⟩ => rfl)
  rw [val_main_call0_v5_apply, e, val_main_call0_v4_apply, val_main_call0_v1_apply, val_main_call0_v3_apply,
    val_main_call0_v0_apply, val_main_call0_c_apply, val_main_call0_v2_apply, val_main_call0_c_0_apply, label_at]
  exact select_wrap _

/-- The range test's bit at (b, 0) is set exactly when row b's wrapped label names a column. -/
theorem labelIsCol_at (b : Fin 4096) :
    val_main_call0_v12 (F := Ideal) x1 (ix2 b (0 : Fin 1)) = 1#1
      ↔ Cert.Blackout.isCol (Cert.Blackout.wrapWord (x1 (ix1 b))) := by
  unfold val_main_call0_v12
  rw [allBits_read _ _ _ _ rfl b, val_main_call0_v11_apply, val_main_call0_v7_apply, val_main_call0_v10_apply,
    val_main_call0_v6_apply, val_main_call0_c_2_apply, val_main_call0_v9_apply, val_main_call0_v8_apply,
    val_main_call0_c_1_apply, wrapLabel_at]
  exact rangeBits_eq_one _

/-! ### The logits less their row's maximum -/

/-- The maxima: at b, the fold of max over row b from the bottom element. -/
theorem rowMax_at (b : Fin 4096) : val_main_v0 (F := Ideal) x0 (ix1 b) = Cert.Blackout.rowMax (X x0) b := by
  unfold val_main_v0
  rw [rowMax_read _ _ x0 _ b, val_main_cst_apply, Ideal.ofBits_def, ofBits_negInf]
  rfl

/-- The shifted logits: at (b, c), the logit less row b's maximum. -/
theorem shifted_at (b : Fin 4096) (c : Fin 50257) :
    val_main_v3 (F := Ideal) x0 (ix2 b c) = Cert.Blackout.shifted (X x0) b c := by
  have e2 : idx_main_v2 (ix2 b c) = ix2 b (0 : Fin 1) :=
    funext fun a => by match a with | ⟨0, _⟩ => rfl | ⟨1, _⟩ => rfl
  have e1 : idx_main_v1 (ix2 b (0 : Fin 1)) = ix1 b := funext fun a => by match a with | ⟨0, _⟩ => rfl
  rw [val_main_v3_apply, val_main_v2_apply, e2, val_main_v1_apply, e1, rowMax_at]
  rfl

/-! ### The positive term -/

/-- The shifted logit picked in each row at its label: at (b, 0), row b at the column its wrapped label is clamped to. -/
theorem picked_at (b : Fin 4096) :
    val_main_call0_v13 (F := Ideal) x0 x1 (ix2 b (0 : Fin 1))
      = Cert.Blackout.shifted (X x0) b (Cert.Blackout.clampCol (Cert.Blackout.wrapWord (x1 (ix1 b)))) := by
  unfold val_main_call0_v13
  rw [gatherRows_read, wrapLabel_at, shifted_at]

/-- The positive term of row b: 512 · exp of the picked logit, or of the bottom element when the label names no column. -/
theorem pos_at (b : Fin 4096) :
    val_main_v8 (F := Ideal) x0 x1 (ix2 b (0 : Fin 1)) = Cert.Blackout.posB (X x0) (Y x1) b := by
  rw [val_main_v8_apply, val_main_v7_apply, val_main_cst_0_apply, val_main_v6_apply, val_main_v5_apply,
    val_main_call0_v14_apply, val_main_call0_cst_apply, picked_at, Ideal.ofBits_def, Ideal.ofBits_def, ofBits_nan,
    select_of_iff (labelIsCol_at x1 b)]
  rfl

/-! ### The sampled terms -/

/-- The wrapped sampled words as a column of start indices: at (j, 0), sampled word j wrapped. -/
theorem wrapSampled_at (j : Fin 512) :
    val_main_v20 (F := Ideal) x2 (ix2 j (0 : Fin 1)) = Cert.Blackout.wrapWord (x2 (ix1 j)) := by
  have e : idx_main_v20 (ix2 j (0 : Fin 1)) = ix1 j := funext fun a => by match a with | ⟨0, _⟩ => rfl
  rw [val_main_v20_apply, e, val_main_v19_apply, val_main_v16_apply, val_main_v18_apply, val_main_v15_apply,
    val_main_c_apply, val_main_v17_apply, val_main_c_1_apply]
  exact select_wrap _

/-- The shifted logits at the sampled columns: at (b, j), row b at the column sampled word j, wrapped, is clamped to. -/
theorem sampled_at (b : Fin 4096) (j : Fin 512) :
    val_main_v21 (F := Ideal) x0 x2 (ix2 b j)
      = Cert.Blackout.shifted (X x0) b (Cert.Blackout.clampCol (Cert.Blackout.wrapWord (x2 (ix1 j)))) := by
  unfold val_main_v21
  rw [gatherCols_read, wrapSampled_at, shifted_at]

/-- The mask: at (b, j), whether row b's label differs from sampled word j, as a number. -/
theorem flag_at (b : Fin 4096) (j : Fin 512) :
    val_main_v14 (F := Ideal) x1 x2 (ix2 b j) = Cert.Blackout.neFlag (x1 (ix1 b)) (x2 (ix1 j)) := by
  have e11 : idx_main_v11 (ix2 b j) = ix2 b (0 : Fin 1) :=
    funext fun a => by match a with | ⟨0, _⟩ => rfl | ⟨1, _⟩ => rfl
  have e9 : idx_main_v9 (ix2 b (0 : Fin 1)) = ix1 b := funext fun a => by match a with | ⟨0, _⟩ => rfl
  have e12 : idx_main_v12 (ix2 b j) = ix2 (0 : Fin 1) j :=
    funext fun a => by match a with | ⟨0, _⟩ => rfl | ⟨1, _⟩ => rfl
  have e10 : idx_main_v10 (ix2 (0 : Fin 1) j) = ix1 j := funext fun a => by match a with | ⟨0, _⟩ => rfl
  rw [val_main_v14_apply, val_main_v13_apply, val_main_v11_apply, e11, val_main_v9_apply, e9, val_main_v12_apply, e12,
    val_main_v10_apply, e10]
  exact neBit_real _ _

/-- The sampled term (b, j). -/
theorem neg_at (b : Fin 4096) (j : Fin 512) :
    val_main_v25 (F := Ideal) x0 x1 x2 (ix2 b j) = Cert.Blackout.negB (X x0) (Y x1) (W x2) b j := by
  rw [val_main_v25_apply, val_main_v24_apply, val_main_v23_apply, val_main_cst_2_apply, val_main_v22_apply, sampled_at,
    flag_at]
  rfl

/-! ### The 513 terms of a row, their sum, and each term's share of it -/

/-- The positive term joined with the sampled ones: at (b, k), term k of row b. -/
theorem terms_at (b : Fin 4096) (k : Fin 513) :
    val_main_v26 (F := Ideal) x0 x1 x2 (ix2 b k) = Cert.Blackout.termsB (X x0) (Y x1) (W x2) b k := by
  unfold val_main_v26 Cert.Blackout.termsB
  rw [joined_read]
  by_cases hk : k.val = 0
  · rw [dif_pos hk, dif_pos hk, pos_at]
  · rw [dif_neg hk, dif_neg hk, neg_at]

/-- The normaliser of row b: zero plus the sum of its 513 terms. -/
theorem norm_at (b : Fin 4096) :
    val_main_v27 (F := Ideal) x0 x1 x2 (ix1 b) = Cert.Blackout.normB (X x0) (Y x1) (W x2) b := by
  rw [val_main_v27_apply, val_main_cst_3_apply, Ideal.ofBits_def]
  unfold Cert.Blackout.normB
  refine congrArg (Cert.Blackout.cZero + ·) (Finset.sum_congr rfl fun k _ => ?_)
  have e : idx_main_v27 (ix1 b) k = ix2 b k := funext fun a => by match a with | ⟨0, _⟩ => rfl | ⟨1, _⟩ => rfl
  rw [e, terms_at]

/-- The share of term k in row b's normaliser. -/
theorem share_at (b : Fin 4096) (k : Fin 513) :
    val_main_v30 (F := Ideal) x0 x1 x2 (ix2 b k) = Cert.Blackout.shareB (X x0) (Y x1) (W x2) b k := by
  have e29 : idx_main_v29 (ix2 b k) = ix2 b (0 : Fin 1) :=
    funext fun a => by match a with | ⟨0, _⟩ => rfl | ⟨1, _⟩ => rfl
  have e28 : idx_main_v28 (ix2 b (0 : Fin 1)) = ix1 b := funext fun a => by match a with | ⟨0, _⟩ => rfl
  rw [val_main_v30_apply, val_main_v29_apply, e29, val_main_v28_apply, e28, norm_at, terms_at]
  rfl

/-! ### The two kinds of logarithm and their sums -/

/-- The logarithm of the positive share of row b, ε added. -/
theorem logPos_at (b : Fin 4096) :
    val_main_v37 (F := Ideal) x0 x1 x2 (ix1 b)
      = Ideal.log (Cert.Blackout.shareB (X x0) (Y x1) (W x2) b ⟨0, by omega⟩ + Cert.Blackout.cEps) := by
  have e34 : idx_main_v34 (ix1 b) = ix2 b (0 : Fin 1) :=
    funext fun a => Fin.ext (by
      match a with
      | ⟨0, _⟩ => show b.val / 1 = b.val; omega
      | ⟨1, _⟩ => rfl)
  have e33 : idx_main_v33 (ix2 b (0 : Fin 1)) = ix2 b (⟨0, by omega⟩ : Fin 513) :=
    funext fun a => Fin.ext (by match a with | ⟨0, _⟩ => rfl | ⟨1, _⟩ => rfl)
  rw [val_main_v37_apply, val_main_v36_apply, val_main_v34_apply, e34, val_main_v33_apply, e33, share_at,
    val_main_v35_apply, val_main_cst_5_apply]
  rfl

/-- The logarithm of one less the share of sampled term (b, j), ε added. -/
theorem logNeg_at (b : Fin 4096) (j : Fin 512) :
    val_main_v41 (F := Ideal) x0 x1 x2 (ix2 b j)
      = Ideal.log ((Cert.Blackout.cOne - Cert.Blackout.shareB (X x0) (Y x1) (W x2) b ⟨j.val + 1, by omega⟩)
          + Cert.Blackout.cEps) := by
  have e38 : idx_main_v38 (ix2 b j) = ix2 b (⟨j.val + 1, by omega⟩ : Fin 513) :=
    funext fun a => Fin.ext (by
      match a with
      | ⟨0, _⟩ => rfl
      | ⟨1, _⟩ => show 1 + j.val = j.val + 1; omega)
  rw [val_main_v41_apply, val_main_v40_apply, val_main_v38_apply, e38, val_main_v32_apply, val_main_v31_apply,
    val_main_cst_4_apply, share_at, val_main_v39_apply, val_main_cst_6_apply]
  rfl

/-- The sum over the rows of the positive logarithms, from zero. -/
theorem sumPos_at (i : S_.Idx) :
    val_main_v42 (F := Ideal) x0 x1 x2 i
      = Cert.Blackout.cZero + ∑ b : Fin 4096,
          Ideal.log (Cert.Blackout.shareB (X x0) (Y x1) (W x2) b ⟨0, by omega⟩ + Cert.Blackout.cEps) := by
  rw [val_main_v42_apply, val_main_cst_7_apply, Ideal.ofBits_def, sum_idx1]
  exact congrArg (Cert.Blackout.cZero + ·) (Finset.sum_congr rfl fun b _ => logPos_at x0 x1 x2 b)

/-- The sum over every (row, sampled word) of the other logarithms, from zero. -/
theorem sumNeg_at (i : S_.Idx) :
    val_main_v43 (F := Ideal) x0 x1 x2 i
      = Cert.Blackout.cZero + ∑ p : Fin 4096 × Fin 512,
          Ideal.log ((Cert.Blackout.cOne - Cert.Blackout.shareB (X x0) (Y x1) (W x2) p.1 ⟨p.2.val + 1, by omega⟩)
            + Cert.Blackout.cEps) := by
  rw [val_main_v43_apply, val_main_cst_8_apply, Ideal.ofBits_def, sum_idx2, Fintype.sum_prod_type]
  exact congrArg (Cert.Blackout.cZero + ·)
    (Finset.sum_congr rfl fun b _ => Finset.sum_congr rfl fun j _ => logNeg_at x0 x1 x2 b j)

/-- The reference's last stage, read at the scalar's one index, is `lossB` of the three argument arrays read by
    coordinates. -/
theorem result_eq (x0 : (⟨S4096x50257, .f32⟩ : BufTy).Contents (Elt Ideal)) (x1 : (⟨S4096, .i32⟩ : BufTy).Contents (Elt Ideal))
    (x2 : (⟨S512, .i32⟩ : BufTy).Contents (Elt Ideal)) (i : S_.Idx) :
    val_main_v46 (F := Ideal) x0 x1 x2 i
      = Cert.Blackout.lossB (fun b c => x0 (ix2 b c)) (fun b => x1 (ix1 b)) (fun j => x2 (ix1 j)) := by
  rw [val_main_v46_apply, val_main_v45_apply, val_main_v44_apply, val_main_cst_9_apply, sumPos_at, sumNeg_at]
  rfl

end Cert.ReferenceIdeal.RefValue

end
-- ==== Proof.PreDecode.lean ====
/-
  What the stated precondition says of the sampled class words: each is a column index, a signed number in
  `[0, 50257)`.
-/
import proofs.«420491_j3599182594543_3_alg».proof.Pre_finite_inputs
import Idealize.ShloMosaic.Lib.ReduceAll
import Idealize.ShloMosaic.Lib.ValueIdx

noncomputable section

namespace Cert.PreDecode

open Idealize.ShloMosaic Idealize.ShloMosaic.ValueIdx

/-- The scalar shape has one index. -/
instance : Subsingleton Cert.Pre_finite_inputs.S_.Idx := ⟨fun _ _ => funext fun d => d.elim0⟩

/-- If the precondition evaluates to true, every sampled class word lies in `[0, 50257)` as a signed number
    (the conjunct on the float input is not used). -/
theorem sampled_in_range [Cert.Pre_finite_inputs.Facts] {F : FTy → Type} [FloatOps F]
    (a0 : FVec F Cert.Pre_finite_inputs.S4096x50257 .f32) (a1 : IVec Cert.Pre_finite_inputs.S4096 32)
    (a2 : IVec Cert.Pre_finite_inputs.S512 32)
    (h : Cert.Pre_finite_inputs.fn (F := F) a0 a1 a2 = fun _ => 1#1) (j : Fin 512) :
    (0#32).sle (a2 (ix1 j)) ∧ (a2 (ix1 j)).slt 50257#32 := by
  -- the precondition at its one index is the `and` of two bits; both are 1
  have h0 := congrFun h ix0
  dsimp only [Cert.Pre_finite_inputs.fn] at h0
  obtain ⟨-, hall⟩ := IntOp.andi_eq_one.1 h0
  -- the second bit is the `and` over all 512 positions of the range test: the test holds at each position
  have hj := Host.reduce_andi_all _ _ _ _ ix0 hall (ix1 j)
  -- the range test at position `j` is the `and` of `word ≥ 0` and `word < 50257`, each against a splat literal
  obtain ⟨hge, hlt⟩ := IntOp.andi_eq_one.1 hj
  have hge' : (0#32 : BitVec 32).toInt ≤ (a2 (ix1 j)).toInt := IntOp.cmpi_sge.1 hge
  have hlt' : (a2 (ix1 j)).toInt < (50257#32 : BitVec 32).toInt := IntOp.cmpi_slt.1 hlt
  exact ⟨BitVec.sle_iff_toInt_le.2 hge', BitVec.slt_iff_toInt_lt.2 hlt'⟩

end Cert.PreDecode

end
-- ==== Proof.lean ====
/-
  The certificate's claims.

  The kernel computes the blackout (sampled-softmax) loss of 4096 rows of 50257 logits against 512 sampled classes
  in one pass over the logits: a running row maximum carried in a scratch column across seven column tiles (the
  last tile's lanes past column 50256 masked to minus infinity), and at each row tile's last column step the rows'
  losses from that maximum and from the label's and the sampled classes' logits, gathered by the host lines before
  the region; the host lines after it sum the rows' losses, negate and divide.  The reference subtracts the row
  maximum from the whole array first, gathers afterwards, normalises the 513 terms of a row together and sums the two
  kinds of logarithm apart.  Over the extended reals the two are one number (`Cert.Blackout.loss_forms_agree`):
  the row maximum is a lattice fold whatever the tiling; a label word that names no column reads the bottom element on
  both sides (`⊥ − M = ⊥`); the sums only regroup.  The one place the programs differ is a sampled class word that
  names no column, where the kernel's gather fills the bottom element and the reference's clamps: the precondition
  says every sampled word is a column index, and that is where it is used.  Finiteness of the logits is not used.

  The three frames: the two kernel programs' by the body's three triples at the 56 grid points over the library's
  launch (one text, generic in the float instance); the reference's from its run.
-/
import proofs.«420491_j3599182594543_3_alg».proof.Defs
import proofs.«420491_j3599182594543_3_alg».proof.Proof.Gen.Kernel
import proofs.«420491_j3599182594543_3_alg».proof.Proof.Gen.KernelIdeal
import proofs.«420491_j3599182594543_3_alg».proof.Proof.Gen.ReferenceIdeal
import proofs.«420491_j3599182594543_3_alg».proof.Proof.Gen.Pre_finite_inputs
import proofs.«420491_j3599182594543_3_alg».proof.Proof.BitsBodyObligation
import proofs.«420491_j3599182594543_3_alg».proof.Proof.KernelRun
import proofs.«420491_j3599182594543_3_alg».proof.Proof.KResult
import proofs.«420491_j3599182594543_3_alg».proof.Proof.RefValue
import proofs.«420491_j3599182594543_3_alg».proof.Proof.ReferenceJoin
import proofs.«420491_j3599182594543_3_alg».proof.Proof.PreDecode
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Hand.frame m ρ

theorem frame_kernelIdeal : Cert.frame_KernelIdeal := fun m ρ _ => Cert.KernelIdeal.Hand.frame m ρ

theorem frame_reference : Cert.frame_ReferenceIdeal := fun m ρ _ =>
  (θ_run Cert.ReferenceIdeal.defs _ _).mono (fun _ h c => (h c).2) (Cert.ReferenceIdeal.ValueP.run (F := Ideal) m ρ)

/-- The two idealized programs, from memories agreeing on the arguments, both end at the blackout loss of the
    arguments in the kernel's arrangement. -/
theorem algebraic : Cert.algebraic_KernelIdeal_ReferenceIdeal := by
  intro m ρ m' ρ' hpre hagree
  refine ⟨fun c => fun _ => Cert.Blackout.lossA (Cert.KernelIdeal.KValue.xOf m c) (Cert.KernelIdeal.KValue.yOf m c)
    (Cert.KernelIdeal.KValue.indOf m c), ?_, ?_⟩
  · exact (θ_run Cert.KernelIdeal.defs _ _).mono
      (fun _ h c => ⟨(h c).1.trans (Cert.KernelIdeal.KValue.result_eq m c), (h c).2⟩)
      (Cert.KernelIdeal.Hand.run_result (F := Ideal) m ρ)
  · refine (θ_run Cert.ReferenceIdeal.defs _ _).mono (fun _ h c => ⟨(h c).1.trans ?_, (h c).2⟩)
      (Cert.ReferenceIdeal.ValueP.run (F := Ideal) m' ρ')
    rw [Cert.ReferenceIdeal.ReadP.val_main_v46_eq]
    funext i
    rw [Cert.ReferenceIdeal.RefValue.result_eq, (hagree c).1, (hagree c).2.1, (hagree c).2.2]
    exact (Cert.Blackout.loss_forms_agree _ _ _ (fun j => Cert.PreDecode.sampled_in_range _ _ _ (hpre c) j)).symm

theorem claim : Cert.Claim :=
  ⟨Cert.Kernel.Gen.facts, Cert.KernelIdeal.Gen.facts, Cert.ReferenceIdeal.Gen.facts, Cert.Pre_finite_inputs.Gen.facts,
    frame_kernel, frame_kernelIdeal, frame_reference, trivial, algebraic⟩

end Cert.Proof

end
